-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x64x64 : Shape := ⟨4, ![16, 32, 64, 64]⟩
abbrev S64x16x32x64x64 : Shape := ⟨5, ![64, 16, 32, 64, 64]⟩
abbrev S_ : Shape := ⟨0, ![]⟩

class Facts : Prop where
  bcast_S_S16x32x64x64 : S_.BroadcastsInDim S16x32x64x64 (![] : Fin 0 → Fin S16x32x64x64.rank)
  reducesTo_S16x32x64x64_S_d0_1_2_3 : S16x32x64x64.ReducesTo [0, 1, 2, 3] S_
  h_S_ : 0 < S_.numel
  bcast_S_S64x16x32x64x64 : S_.BroadcastsInDim S64x16x32x64x64 (![] : Fin 0 → Fin S64x16x32x64x64.rank)
  reducesTo_S64x16x32x64x64_S_d0_1_2_3_4 : S64x16x32x64x64.ReducesTo [0, 1, 2, 3, 4] S_

variable [Facts]

def fn_part1 {F : FTy → Type} [FloatOps F] (main_arg4 : FVec F S64x16x32x64x64 .f32) (main_arg5 : IVec S16x32x64x64 32) (main_v13 : IVec S_ 1) (main_v16 : IVec S16x32x64x64 1) : IVec S_ 1 :=
  let main_c_5 : IVec S_ 1 := constantI S_ 1 1#1
  let main_v17 : IVec S_ 1 := (fun x v => Host.reduce IntOp.andi x v reducesTo_S16x32x64x64_S_d0_1_2_3 h_S_) main_v16 main_c_5
  let main_v18 : IVec S_ 1 := andi main_v13 main_v17
  let main_v19 : FVec F S64x16x32x64x64 .f32 := Host.absf main_arg4
  let main_cst_6 : FVec F S_ .f32 := constant S_ .f32 0x7F800000#32
  let main_v20 : FVec F S64x16x32x64x64 .f32 := broadcastInDim S64x16x32x64x64 ![] bcast_S_S64x16x32x64x64 main_cst_6
  let main_v21 : IVec S64x16x32x64x64 1 := cmpf .olt main_v19 main_v20
  let main_c_7 : IVec S_ 1 := constantI S_ 1 1#1
  let main_v22 : IVec S_ 1 := (fun x v => Host.reduce IntOp.andi x v reducesTo_S64x16x32x64x64_S_d0_1_2_3_4 h_S_) main_v21 main_c_7
  let main_v23 : IVec S_ 1 := andi main_v18 main_v22
  let main_c_8 : IVec S_ 32 := constantI S_ 32 0#32
  let main_v24 : IVec S16x32x64x64 32 := broadcastInDim S16x32x64x64 ![] bcast_S_S16x32x64x64 main_c_8
  let main_v25 : IVec S16x32x64x64 1 := cmpi .sge main_arg5 main_v24
  let main_c_9 : IVec S_ 1 := constantI S_ 1 1#1
  let main_v26 : IVec S_ 1 := (fun x v => Host.reduce IntOp.andi x v reducesTo_S16x32x64x64_S_d0_1_2_3 h_S_) main_v25 main_c_9
  let main_v27 : IVec S_ 1 := andi main_v23 main_v26
  let main_c_10 : IVec S_ 32 := constantI S_ 32 64#32
  let main_v28 : IVec S16x32x64x64 32 := broadcastInDim S16x32x64x64 ![] bcast_S_S16x32x64x64 main_c_10
  let main_v29 : IVec S16x32x64x64 1 := cmpi .slt main_arg5 main_v28
  let main_c_11 : IVec S_ 1 := constantI S_ 1 1#1
  let main_v30 : IVec S_ 1 := (fun x v => Host.reduce IntOp.andi x v reducesTo_S16x32x64x64_S_d0_1_2_3 h_S_) main_v29 main_c_11
  let main_v31 : IVec S_ 1 := andi main_v27 main_v30
  main_v31

def fn {F : FTy → Type} [FloatOps F] (main_arg0 : FVec F S16x32x64x64 .f32) (main_arg1 : FVec F S16x32x64x64 .f32) (main_arg2 : FVec F S16x32x64x64 .f32) (main_arg3 : FVec F S16x32x64x64 .f32) (main_arg4 : FVec F S64x16x32x64x64 .f32) (main_arg5 : IVec S16x32x64x64 32) : IVec S_ 1 :=
  let main_v0 : FVec F S16x32x64x64 .f32 := Host.absf main_arg0
  let main_cst : FVec F S_ .f32 := constant S_ .f32 0x7F800000#32
  let main_v1 : FVec F S16x32x64x64 .f32 := broadcastInDim S16x32x64x64 ![] bcast_S_S16x32x64x64 main_cst
  let main_v2 : IVec S16x32x64x64 1 := cmpf .olt main_v0 main_v1
  let main_c : IVec S_ 1 := constantI S_ 1 1#1
  let main_v3 : IVec S_ 1 := (fun x v => Host.reduce IntOp.andi x v reducesTo_S16x32x64x64_S_d0_1_2_3 h_S_) main_v2 main_c
  let main_v4 : FVec F S16x32x64x64 .f32 := Host.absf main_arg1
  let main_cst_0 : FVec F S_ .f32 := constant S_ .f32 0x7F800000#32
  let main_v5 : FVec F S16x32x64x64 .f32 := broadcastInDim S16x32x64x64 ![] bcast_S_S16x32x64x64 main_cst_0
  let main_v6 : IVec S16x32x64x64 1 := cmpf .olt main_v4 main_v5
  let main_c_1 : IVec S_ 1 := constantI S_ 1 1#1
  let main_v7 : IVec S_ 1 := (fun x v => Host.reduce IntOp.andi x v reducesTo_S16x32x64x64_S_d0_1_2_3 h_S_) main_v6 main_c_1
  let main_v8 : IVec S_ 1 := andi main_v3 main_v7
  let main_v9 : FVec F S16x32x64x64 .f32 := Host.absf main_arg2
  let main_cst_2 : FVec F S_ .f32 := constant S_ .f32 0x7F800000#32
  let main_v10 : FVec F S16x32x64x64 .f32 := broadcastInDim S16x32x64x64 ![] bcast_S_S16x32x64x64 main_cst_2
  let main_v11 : IVec S16x32x64x64 1 := cmpf .olt main_v9 main_v10
  let main_c_3 : IVec S_ 1 := constantI S_ 1 1#1
  let main_v12 : IVec S_ 1 := (fun x v => Host.reduce IntOp.andi x v reducesTo_S16x32x64x64_S_d0_1_2_3 h_S_) main_v11 main_c_3
  let main_v13 : IVec S_ 1 := andi main_v8 main_v12
  let main_v14 : FVec F S16x32x64x64 .f32 := Host.absf main_arg3
  let main_cst_4 : FVec F S_ .f32 := constant S_ .f32 0x7F800000#32
  let main_v15 : FVec F S16x32x64x64 .f32 := broadcastInDim S16x32x64x64 ![] bcast_S_S16x32x64x64 main_cst_4
  let main_v16 : IVec S16x32x64x64 1 := cmpf .olt main_v14 main_v15
  fn_part1 (F := F) main_arg4 main_arg5 main_v13 main_v16
-- ==== Kernel.lean ====
abbrev S16x32x64x64 : Shape := ⟨4, ![16, 32, 64, 64]⟩
abbrev S64x16x32x64x64 : Shape := ⟨5, ![64, 16, 32, 64, 64]⟩
abbrev S512x4096 : Shape := ⟨2, ![512, 4096]⟩
abbrev S64x512x4096 : Shape := ⟨3, ![64, 512, 4096]⟩
abbrev S5x512x4096 : Shape := ⟨3, ![5, 512, 4096]⟩
abbrev S8x4096 : Shape := ⟨2, ![8, 4096]⟩
abbrev S63x8x4096 : Shape := ⟨3, ![63, 8, 4096]⟩
abbrev S5x8x4096 : Shape := ⟨3, ![5, 8, 4096]⟩
abbrev S1x8x4096 : Shape := ⟨3, ![1, 8, 4096]⟩
abbrev S8x1024 : Shape := ⟨2, ![8, 1024]⟩
abbrev S1x8x1024 : Shape := ⟨3, ![1, 8, 1024]⟩
abbrev S5x16x32x64x64 : Shape := ⟨5, ![5, 16, 32, 64, 64]⟩

abbrev nBuf : Space → Nat
  | .hbm => 14
  | .vmem => 14
  | .smem => 0
  | _ => 0

abbrev bufTy : (tb : Table) → Fin (tcTables nBuf tb) → BufTy
  | .hbm, ⟨0, _⟩ => ⟨S16x32x64x64, .f32⟩
  | .hbm, ⟨1, _⟩ => ⟨S16x32x64x64, .f32⟩
  | .hbm, ⟨2, _⟩ => ⟨S16x32x64x64, .f32⟩
  | .hbm, ⟨3, _⟩ => ⟨S16x32x64x64, .f32⟩
  | .hbm, ⟨4, _⟩ => ⟨S64x16x32x64x64, .f32⟩
  | .hbm, ⟨5, _⟩ => ⟨S16x32x64x64, .i32⟩
  | .hbm, ⟨6, _⟩ => ⟨S512x4096, .f32⟩
  | .hbm, ⟨7, _⟩ => ⟨S512x4096, .f32⟩
  | .hbm, ⟨8, _⟩ => ⟨S512x4096, .f32⟩
  | .hbm, ⟨9, _⟩ => ⟨S512x4096, .f32⟩
  | .hbm, ⟨10, _⟩ => ⟨S512x4096, .i32⟩
  | .hbm, ⟨11, _⟩ => ⟨S64x512x4096, .f32⟩
  | .hbm, ⟨12, _⟩ => ⟨S5x512x4096, .f32⟩
  | .hbm, ⟨13, _⟩ => ⟨S5x16x32x64x64, .f32⟩
  | .local _ .vmem, ⟨0, _⟩ => ⟨S8x4096, .f32⟩
  | .local _ .vmem, ⟨1, _⟩ => ⟨S8x4096, .f32⟩
  | .local _ .vmem, ⟨2, _⟩ => ⟨S8x4096, .f32⟩
  | .local _ .vmem, ⟨3, _⟩ => ⟨S8x4096, .f32⟩
  | .local _ .vmem, ⟨4, _⟩ => ⟨S8x4096, .f32⟩
  | .local _ .vmem, ⟨5, _⟩ => ⟨S8x4096, .f32⟩
  | .local _ .vmem, ⟨6, _⟩ => ⟨S8x4096, .f32⟩
  | .local _ .vmem, ⟨7, _⟩ => ⟨S8x4096, .f32⟩
  | .local _ .vmem, ⟨8, _⟩ => ⟨S8x4096, .i32⟩
  | .local _ .vmem, ⟨9, _⟩ => ⟨S8x4096, .i32⟩
  | .local _ .vmem, ⟨10, _⟩ => ⟨S63x8x4096, .f32⟩
  | .local _ .vmem, ⟨11, _⟩ => ⟨S63x8x4096, .f32⟩
  | .local _ .vmem, ⟨12, _⟩ => ⟨S5x8x4096, .f32⟩
  | .local _ .vmem, ⟨13, _⟩ => ⟨S5x8x4096, .f32⟩
  | _, _ => ⟨S16x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c4_i32 : BitVec 32 := 4#32
  let v53 : BitVec 32 := Scalar.addi c0_i32 c4_i32
  let c1_i32 : BitVec 32 := 1#32
  ⟨c0_i32, v53, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  v54
def k0_off1 (k0_t1 : Fin k0_t1_loop.trips) : Fin 2 → Nat :=
  let c0_25 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v56 : Index := Scalar.indexCast v55
  ![0, v56.toNat]
def k0_off2 (k0_t1 : Fin k0_t1_loop.trips) : Fin 3 → Nat :=
  let c1_27 : Index := 1#32
  let c0_28 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v63 : Index := Scalar.indexCast v55
  ![1, 0, v63.toNat]
def k0_off3 (k0_t1 : Fin k0_t1_loop.trips) : Fin 3 → Nat :=
  let c0_i32_31 : BitVec 32 := 0#32
  let v70 : Index := Scalar.indexCast c0_i32_31
  let c0_32 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v71 : Index := Scalar.indexCast v55
  ![0, 0, v71.toNat]
def k0_off4 (k0_t1 : Fin k0_t1_loop.trips) : Fin 3 → Nat :=
  let c1_i32_34 : BitVec 32 := 1#32
  let v78 : Index := Scalar.indexCast c1_i32_34
  let c0_35 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v79 : Index := Scalar.indexCast v55
  ![1, 0, v79.toNat]
def k0_off5 (k0_t1 : Fin k0_t1_loop.trips) : Fin 3 → Nat :=
  let c2_i32 : BitVec 32 := 2#32
  let v86 : Index := Scalar.indexCast c2_i32
  let c0_37 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v87 : Index := Scalar.indexCast v55
  ![2, 0, v87.toNat]
def k0_off6 (k0_t1 : Fin k0_t1_loop.trips) : Fin 3 → Nat :=
  let c3_i32 : BitVec 32 := 3#32
  let v94 : Index := Scalar.indexCast c3_i32
  let c0_39 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v95 : Index := Scalar.indexCast v55
  ![3, 0, v95.toNat]
def k0_off7 (k0_t1 : Fin k0_t1_loop.trips) : Fin 3 → Nat :=
  let c4_i32_41 : BitVec 32 := 4#32
  let v102 : Index := Scalar.indexCast c4_i32_41
  let c0_42 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v103 : Index := Scalar.indexCast v55
  ![4, 0, v103.toNat]
def k0_off8 (k0_t1 : Fin k0_t1_loop.trips) : Fin 3 → Nat :=
  let c5_i32 : BitVec 32 := 5#32
  let v110 : Index := Scalar.indexCast c5_i32
  let c0_44 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v111 : Index := Scalar.indexCast v55
  ![5, 0, v111.toNat]
def k0_off9 (k0_t1 : Fin k0_t1_loop.trips) : Fin 3 → Nat :=
  let c6_i32 : BitVec 32 := 6#32
  let v118 : Index := Scalar.indexCast c6_i32
  let c0_46 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v119 : Index := Scalar.indexCast v55
  ![6, 0, v119.toNat]
def k0_off10 (k0_t1 : Fin k0_t1_loop.trips) : Fin 3 → Nat :=
  let c7_i32 : BitVec 32 := 7#32
  let v126 : Index := Scalar.indexCast c7_i32
  let c0_48 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v127 : Index := Scalar.indexCast v55
  ![7, 0, v127.toNat]
def k0_off11 (k0_t1 : Fin k0_t1_loop.trips) : Fin 3 → Nat :=
  let c8_i32 : BitVec 32 := 8#32
  let v134 : Index := Scalar.indexCast c8_i32
  let c0_50 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v135 : Index := Scalar.indexCast v55
  ![8, 0, v135.toNat]
def k0_off12 (k0_t1 : Fin k0_t1_loop.trips) : Fin 3 → Nat :=
  let c9_i32 : BitVec 32 := 9#32
  let v142 : Index := Scalar.indexCast c9_i32
  let c0_52 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v143 : Index := Scalar.indexCast v55
  ![9, 0, v143.toNat]
def k0_off13 (k0_t1 : Fin k0_t1_loop.trips) : Fin 3 → Nat :=
  let c10_i32 : BitVec 32 := 10#32
  let v150 : Index := Scalar.indexCast c10_i32
  let c0_54 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v151 : Index := Scalar.indexCast v55
  ![10, 0, v151.toNat]
def k0_off14 (k0_t1 : Fin k0_t1_loop.trips) : Fin 3 → Nat :=
  let c11_i32 : BitVec 32 := 11#32
  let v158 : Index := Scalar.indexCast c11_i32
  let c0_56 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v159 : Index := Scalar.indexCast v55
  ![11, 0, v159.toNat]
def k0_off15 (k0_t1 : Fin k0_t1_loop.trips) : Fin 3 → Nat :=
  let c12_i32 : BitVec 32 := 12#32
  let v166 : Index := Scalar.indexCast c12_i32
  let c0_58 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v167 : Index := Scalar.indexCast v55
  ![12, 0, v167.toNat]
def k0_off16 (k0_t1 : Fin k0_t1_loop.trips) : Fin 3 → Nat :=
  let c13_i32 : BitVec 32 := 13#32
  let v174 : Index := Scalar.indexCast c13_i32
  let c0_60 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v175 : Index := Scalar.indexCast v55
  ![13, 0, v175.toNat]
def k0_off17 (k0_t1 : Fin k0_t1_loop.trips) : Fin 3 → Nat :=
  let c14_i32 : BitVec 32 := 14#32
  let v182 : Index := Scalar.indexCast c14_i32
  let c0_62 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v183 : Index := Scalar.indexCast v55
  ![14, 0, v183.toNat]
def k0_off18 (k0_t1 : Fin k0_t1_loop.trips) : Fin 3 → Nat :=
  let c15_i32 : BitVec 32 := 15#32
  let v190 : Index := Scalar.indexCast c15_i32
  let c0_64 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v191 : Index := Scalar.indexCast v55
  ![15, 0, v191.toNat]
def k0_off19 (k0_t1 : Fin k0_t1_loop.trips) : Fin 3 → Nat :=
  let c16_i32 : BitVec 32 := 16#32
  let v198 : Index := Scalar.indexCast c16_i32
  let c0_66 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v199 : Index := Scalar.indexCast v55
  ![16, 0, v199.toNat]
def k0_off20 (k0_t1 : Fin k0_t1_loop.trips) : Fin 3 → Nat :=
  let c17_i32 : BitVec 32 := 17#32
  let v206 : Index := Scalar.indexCast c17_i32
  let c0_68 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v207 : Index := Scalar.indexCast v55
  ![17, 0, v207.toNat]
def k0_off21 (k0_t1 : Fin k0_t1_loop.trips) : Fin 3 → Nat :=
  let c18_i32 : BitVec 32 := 18#32
  let v214 : Index := Scalar.indexCast c18_i32
  let c0_70 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v215 : Index := Scalar.indexCast v55
  ![18, 0, v215.toNat]
def k0_off22 (k0_t1 : Fin k0_t1_loop.trips) : Fin 3 → Nat :=
  let c19_i32 : BitVec 32 := 19#32
  let v222 : Index := Scalar.indexCast c19_i32
  let c0_72 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v223 : Index := Scalar.indexCast v55
  ![19, 0, v223.toNat]
def k0_off23 (k0_t1 : Fin k0_t1_loop.trips) : Fin 3 → Nat :=
  let c20_i32 : BitVec 32 := 20#32
  let v230 : Index := Scalar.indexCast c20_i32
  let c0_74 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v231 : Index := Scalar.indexCast v55
  ![20, 0, v231.toNat]
def k0_off24 (k0_t1 : Fin k0_t1_loop.trips) : Fin 3 → Nat :=
  let c21_i32 : BitVec 32 := 21#32
  let v238 : Index := Scalar.indexCast c21_i32
  let c0_76 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v239 : Index := Scalar.indexCast v55
  ![21, 0, v239.toNat]
def k0_off25 (k0_t1 : Fin k0_t1_loop.trips) : Fin 3 → Nat :=
  let c22_i32 : BitVec 32 := 22#32
  let v246 : Index := Scalar.indexCast c22_i32
  let c0_78 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v247 : Index := Scalar.indexCast v55
  ![22, 0, v247.toNat]
def k0_off26 (k0_t1 : Fin k0_t1_loop.trips) : Fin 3 → Nat :=
  let c23_i32 : BitVec 32 := 23#32
  let v254 : Index := Scalar.indexCast c23_i32
  let c0_80 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v255 : Index := Scalar.indexCast v55
  ![23, 0, v255.toNat]
def k0_off27 (k0_t1 : Fin k0_t1_loop.trips) : Fin 3 → Nat :=
  let c24_i32 : BitVec 32 := 24#32
  let v262 : Index := Scalar.indexCast c24_i32
  let c0_82 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v263 : Index := Scalar.indexCast v55
  ![24, 0, v263.toNat]
def k0_off28 (k0_t1 : Fin k0_t1_loop.trips) : Fin 3 → Nat :=
  let c25_i32 : BitVec 32 := 25#32
  let v270 : Index := Scalar.indexCast c25_i32
  let c0_84 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v271 : Index := Scalar.indexCast v55
  ![25, 0, v271.toNat]
def k0_off29 (k0_t1 : Fin k0_t1_loop.trips) : Fin 3 → Nat :=
  let c26_i32 : BitVec 32 := 26#32
  let v278 : Index := Scalar.indexCast c26_i32
  let c0_86 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v279 : Index := Scalar.indexCast v55
  ![26, 0, v279.toNat]
def k0_off30 (k0_t1 : Fin k0_t1_loop.trips) : Fin 3 → Nat :=
  let c27_i32 : BitVec 32 := 27#32
  let v286 : Index := Scalar.indexCast c27_i32
  let c0_88 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v287 : Index := Scalar.indexCast v55
  ![27, 0, v287.toNat]
def k0_off31 (k0_t1 : Fin k0_t1_loop.trips) : Fin 3 → Nat :=
  let c28_i32 : BitVec 32 := 28#32
  let v294 : Index := Scalar.indexCast c28_i32
  let c0_90 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v295 : Index := Scalar.indexCast v55
  ![28, 0, v295.toNat]
def k0_off32 (k0_t1 : Fin k0_t1_loop.trips) : Fin 3 → Nat :=
  let c29_i32 : BitVec 32 := 29#32
  let v302 : Index := Scalar.indexCast c29_i32
  let c0_92 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v303 : Index := Scalar.indexCast v55
  ![29, 0, v303.toNat]
def k0_off33 (k0_t1 : Fin k0_t1_loop.trips) : Fin 3 → Nat :=
  let c30_i32 : BitVec 32 := 30#32
  let v310 : Index := Scalar.indexCast c30_i32
  let c0_94 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v311 : Index := Scalar.indexCast v55
  ![30, 0, v311.toNat]
def k0_off34 (k0_t1 : Fin k0_t1_loop.trips) : Fin 3 → Nat :=
  let c31_i32 : BitVec 32 := 31#32
  let v318 : Index := Scalar.indexCast c31_i32
  let c0_96 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v319 : Index := Scalar.indexCast v55
  ![31, 0, v319.toNat]
def k0_off35 (k0_t1 : Fin k0_t1_loop.trips) : Fin 3 → Nat :=
  let c32_i32 : BitVec 32 := 32#32
  let v326 : Index := Scalar.indexCast c32_i32
  let c0_98 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v327 : Index := Scalar.indexCast v55
  ![32, 0, v327.toNat]
def k0_off36 (k0_t1 : Fin k0_t1_loop.trips) : Fin 3 → Nat :=
  let c33_i32 : BitVec 32 := 33#32
  let v334 : Index := Scalar.indexCast c33_i32
  let c0_100 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v335 : Index := Scalar.indexCast v55
  ![33, 0, v335.toNat]
def k0_off37 (k0_t1 : Fin k0_t1_loop.trips) : Fin 3 → Nat :=
  let c34_i32 : BitVec 32 := 34#32
  let v342 : Index := Scalar.indexCast c34_i32
  let c0_102 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v343 : Index := Scalar.indexCast v55
  ![34, 0, v343.toNat]
def k0_off38 (k0_t1 : Fin k0_t1_loop.trips) : Fin 3 → Nat :=
  let c35_i32 : BitVec 32 := 35#32
  let v350 : Index := Scalar.indexCast c35_i32
  let c0_104 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v351 : Index := Scalar.indexCast v55
  ![35, 0, v351.toNat]
def k0_off39 (k0_t1 : Fin k0_t1_loop.trips) : Fin 3 → Nat :=
  let c36_i32 : BitVec 32 := 36#32
  let v358 : Index := Scalar.indexCast c36_i32
  let c0_106 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v359 : Index := Scalar.indexCast v55
  ![36, 0, v359.toNat]
def k0_off40 (k0_t1 : Fin k0_t1_loop.trips) : Fin 3 → Nat :=
  let c37_i32 : BitVec 32 := 37#32
  let v366 : Index := Scalar.indexCast c37_i32
  let c0_108 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v367 : Index := Scalar.indexCast v55
  ![37, 0, v367.toNat]
def k0_off41 (k0_t1 : Fin k0_t1_loop.trips) : Fin 3 → Nat :=
  let c38_i32 : BitVec 32 := 38#32
  let v374 : Index := Scalar.indexCast c38_i32
  let c0_110 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v375 : Index := Scalar.indexCast v55
  ![38, 0, v375.toNat]
def k0_off42 (k0_t1 : Fin k0_t1_loop.trips) : Fin 3 → Nat :=
  let c39_i32 : BitVec 32 := 39#32
  let v382 : Index := Scalar.indexCast c39_i32
  let c0_112 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v383 : Index := Scalar.indexCast v55
  ![39, 0, v383.toNat]
def k0_off43 (k0_t1 : Fin k0_t1_loop.trips) : Fin 3 → Nat :=
  let c40_i32 : BitVec 32 := 40#32
  let v390 : Index := Scalar.indexCast c40_i32
  let c0_114 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v391 : Index := Scalar.indexCast v55
  ![40, 0, v391.toNat]
def k0_off44 (k0_t1 : Fin k0_t1_loop.trips) : Fin 3 → Nat :=
  let c41_i32 : BitVec 32 := 41#32
  let v398 : Index := Scalar.indexCast c41_i32
  let c0_116 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v399 : Index := Scalar.indexCast v55
  ![41, 0, v399.toNat]
def k0_off45 (k0_t1 : Fin k0_t1_loop.trips) : Fin 3 → Nat :=
  let c42_i32 : BitVec 32 := 42#32
  let v406 : Index := Scalar.indexCast c42_i32
  let c0_118 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v407 : Index := Scalar.indexCast v55
  ![42, 0, v407.toNat]
def k0_off46 (k0_t1 : Fin k0_t1_loop.trips) : Fin 3 → Nat :=
  let c43_i32 : BitVec 32 := 43#32
  let v414 : Index := Scalar.indexCast c43_i32
  let c0_120 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v415 : Index := Scalar.indexCast v55
  ![43, 0, v415.toNat]
def k0_off47 (k0_t1 : Fin k0_t1_loop.trips) : Fin 3 → Nat :=
  let c44_i32 : BitVec 32 := 44#32
  let v422 : Index := Scalar.indexCast c44_i32
  let c0_122 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v423 : Index := Scalar.indexCast v55
  ![44, 0, v423.toNat]
def k0_off48 (k0_t1 : Fin k0_t1_loop.trips) : Fin 3 → Nat :=
  let c45_i32 : BitVec 32 := 45#32
  let v430 : Index := Scalar.indexCast c45_i32
  let c0_124 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v431 : Index := Scalar.indexCast v55
  ![45, 0, v431.toNat]
def k0_off49 (k0_t1 : Fin k0_t1_loop.trips) : Fin 3 → Nat :=
  let c46_i32 : BitVec 32 := 46#32
  let v438 : Index := Scalar.indexCast c46_i32
  let c0_126 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v439 : Index := Scalar.indexCast v55
  ![46, 0, v439.toNat]
def k0_off50 (k0_t1 : Fin k0_t1_loop.trips) : Fin 3 → Nat :=
  let c47_i32 : BitVec 32 := 47#32
  let v446 : Index := Scalar.indexCast c47_i32
  let c0_128 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v447 : Index := Scalar.indexCast v55
  ![47, 0, v447.toNat]
def k0_off51 (k0_t1 : Fin k0_t1_loop.trips) : Fin 3 → Nat :=
  let c48_i32 : BitVec 32 := 48#32
  let v454 : Index := Scalar.indexCast c48_i32
  let c0_130 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v455 : Index := Scalar.indexCast v55
  ![48, 0, v455.toNat]
def k0_off52 (k0_t1 : Fin k0_t1_loop.trips) : Fin 3 → Nat :=
  let c49_i32 : BitVec 32 := 49#32
  let v462 : Index := Scalar.indexCast c49_i32
  let c0_132 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v463 : Index := Scalar.indexCast v55
  ![49, 0, v463.toNat]
def k0_off53 (k0_t1 : Fin k0_t1_loop.trips) : Fin 3 → Nat :=
  let c50_i32 : BitVec 32 := 50#32
  let v470 : Index := Scalar.indexCast c50_i32
  let c0_134 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v471 : Index := Scalar.indexCast v55
  ![50, 0, v471.toNat]
def k0_off54 (k0_t1 : Fin k0_t1_loop.trips) : Fin 3 → Nat :=
  let c51_i32 : BitVec 32 := 51#32
  let v478 : Index := Scalar.indexCast c51_i32
  let c0_136 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v479 : Index := Scalar.indexCast v55
  ![51, 0, v479.toNat]
def k0_off55 (k0_t1 : Fin k0_t1_loop.trips) : Fin 3 → Nat :=
  let c52_i32 : BitVec 32 := 52#32
  let v486 : Index := Scalar.indexCast c52_i32
  let c0_138 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v487 : Index := Scalar.indexCast v55
  ![52, 0, v487.toNat]
def k0_off56 (k0_t1 : Fin k0_t1_loop.trips) : Fin 3 → Nat :=
  let c53_i32 : BitVec 32 := 53#32
  let v494 : Index := Scalar.indexCast c53_i32
  let c0_140 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v495 : Index := Scalar.indexCast v55
  ![53, 0, v495.toNat]
def k0_off57 (k0_t1 : Fin k0_t1_loop.trips) : Fin 3 → Nat :=
  let c54_i32 : BitVec 32 := 54#32
  let v502 : Index := Scalar.indexCast c54_i32
  let c0_142 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v503 : Index := Scalar.indexCast v55
  ![54, 0, v503.toNat]
def k0_off58 (k0_t1 : Fin k0_t1_loop.trips) : Fin 3 → Nat :=
  let c55_i32 : BitVec 32 := 55#32
  let v510 : Index := Scalar.indexCast c55_i32
  let c0_144 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v511 : Index := Scalar.indexCast v55
  ![55, 0, v511.toNat]
def k0_off59 (k0_t1 : Fin k0_t1_loop.trips) : Fin 3 → Nat :=
  let c56_i32 : BitVec 32 := 56#32
  let v518 : Index := Scalar.indexCast c56_i32
  let c0_146 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v519 : Index := Scalar.indexCast v55
  ![56, 0, v519.toNat]
def k0_off60 (k0_t1 : Fin k0_t1_loop.trips) : Fin 3 → Nat :=
  let c57_i32 : BitVec 32 := 57#32
  let v526 : Index := Scalar.indexCast c57_i32
  let c0_148 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v527 : Index := Scalar.indexCast v55
  ![57, 0, v527.toNat]
def k0_off61 (k0_t1 : Fin k0_t1_loop.trips) : Fin 3 → Nat :=
  let c58_i32 : BitVec 32 := 58#32
  let v534 : Index := Scalar.indexCast c58_i32
  let c0_150 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v535 : Index := Scalar.indexCast v55
  ![58, 0, v535.toNat]
def k0_off62 (k0_t1 : Fin k0_t1_loop.trips) : Fin 3 → Nat :=
  let c59_i32 : BitVec 32 := 59#32
  let v542 : Index := Scalar.indexCast c59_i32
  let c0_152 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v543 : Index := Scalar.indexCast v55
  ![59, 0, v543.toNat]
def k0_off63 (k0_t1 : Fin k0_t1_loop.trips) : Fin 3 → Nat :=
  let c60_i32 : BitVec 32 := 60#32
  let v550 : Index := Scalar.indexCast c60_i32
  let c0_154 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v551 : Index := Scalar.indexCast v55
  ![60, 0, v551.toNat]
def k0_off64 (k0_t1 : Fin k0_t1_loop.trips) : Fin 3 → Nat :=
  let c61_i32 : BitVec 32 := 61#32
  let v558 : Index := Scalar.indexCast c61_i32
  let c0_156 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v559 : Index := Scalar.indexCast v55
  ![61, 0, v559.toNat]
def k0_off65 (k0_t1 : Fin k0_t1_loop.trips) : Fin 3 → Nat :=
  let c62_i32 : BitVec 32 := 62#32
  let v566 : Index := Scalar.indexCast c62_i32
  let c0_158 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v567 : Index := Scalar.indexCast v55
  ![62, 0, v567.toNat]
def k0_off66 (k0_t1 : Fin k0_t1_loop.trips) : Fin 3 → Nat :=
  let c0_161 : Index := 0#32
  let c0_162 : Index := 0#32
  let c0_i32 : BitVec 32 := 0#32
  let c1_i32 : BitVec 32 := 1#32
  let arg8 : BitVec 32 := Scf.iv c0_i32 c1_i32 k0_t1
  let c1024_i32 : BitVec 32 := 1024#32
  let v54 : BitVec 32 := Scalar.muli arg8 c1024_i32
  let v55 : BitVec 32 := v54
  let v574 : Index := Scalar.indexCast v55
  ![0, 0, v574.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x4096 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S63x8x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5x8x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16x32x64x64_S512x4096 : S16x32x64x64.ShapeCasts S512x4096
  shapeCasts_S64x16x32x64x64_S64x512x4096 : S64x16x32x64x64.ShapeCasts S64x512x4096
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  natLt_1_32 : 1 < 32
  inb_S5x8x4096_S1x8x4096_1_0_0 : ∀ a, (![1, 0, 0] : Fin 3 → Nat) a + S1x8x4096.size a ≤ S5x8x4096.size a
  h_S1x8x4096 : 0 < S1x8x4096.numel
  shapeCasts_S1x8x4096_S8x4096 : S1x8x4096.ShapeCasts S8x4096
  shapeCasts_S8x4096_S1x8x4096 : S8x4096.ShapeCasts S1x8x4096
  inb_S5x8x4096_S1x8x4096_2_0_0 : ∀ a, (![2, 0, 0] : Fin 3 → Nat) a + S1x8x4096.size a ≤ S5x8x4096.size a
  inb_S5x8x4096_S1x8x4096_3_0_0 : ∀ a, (![3, 0, 0] : Fin 3 → Nat) a + S1x8x4096.size a ≤ S5x8x4096.size a
  inb_S5x8x4096_S1x8x4096_4_0_0 : ∀ a, (![4, 0, 0] : Fin 3 → Nat) a + S1x8x4096.size a ≤ S5x8x4096.size a
  h_S8x1024 : 0 < S8x1024.numel
  shapeCasts_S8x1024_S8x1024 : S8x1024.ShapeCasts S8x1024
  h_S1x8x1024 : 0 < S1x8x1024.numel
  shapeCasts_S1x8x1024_S8x1024 : S1x8x1024.ShapeCasts S8x1024
  shapeCasts_S8x1024_S1x8x1024 : S8x1024.ShapeCasts S1x8x1024
  shapeCasts_S5x512x4096_S5x16x32x64x64 : S5x512x4096.ShapeCasts S5x16x32x64x64
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S8x1024.size a ≤ S8x4096.size a
  k0_off2_inb : ∀ k0_t1 : Fin k0_t1_loop.trips, ∀ a, (k0_off2 k0_t1) a + S1x8x1024.size a ≤ S5x8x4096.size a
  k0_off3_inb : ∀ k0_t1 : Fin k0_t1_loop.trips, ∀ a, (k0_off3 k0_t1) a + S1x8x1024.size a ≤ S63x8x4096.size a
  k0_off4_inb : ∀ k0_t1 : Fin k0_t1_loop.trips, ∀ a, (k0_off4 k0_t1) a + S1x8x1024.size a ≤ S63x8x4096.size a
  k0_off5_inb : ∀ k0_t1 : Fin k0_t1_loop.trips, ∀ a, (k0_off5 k0_t1) a + S1x8x1024.size a ≤ S63x8x4096.size a
  k0_off6_inb : ∀ k0_t1 : Fin k0_t1_loop.trips, ∀ a, (k0_off6 k0_t1) a + S1x8x1024.size a ≤ S63x8x4096.size a
  k0_off7_inb : ∀ k0_t1 : Fin k0_t1_loop.trips, ∀ a, (k0_off7 k0_t1) a + S1x8x1024.size a ≤ S63x8x4096.size a
  k0_off8_inb : ∀ k0_t1 : Fin k0_t1_loop.trips, ∀ a, (k0_off8 k0_t1) a + S1x8x1024.size a ≤ S63x8x4096.size a
  k0_off9_inb : ∀ k0_t1 : Fin k0_t1_loop.trips, ∀ a, (k0_off9 k0_t1) a + S1x8x1024.size a ≤ S63x8x4096.size a
  k0_off10_inb : ∀ k0_t1 : Fin k0_t1_loop.trips, ∀ a, (k0_off10 k0_t1) a + S1x8x1024.size a ≤ S63x8x4096.size a
  k0_off11_inb : ∀ k0_t1 : Fin k0_t1_loop.trips, ∀ a, (k0_off11 k0_t1) a + S1x8x1024.size a ≤ S63x8x4096.size a
  k0_off12_inb : ∀ k0_t1 : Fin k0_t1_loop.trips, ∀ a, (k0_off12 k0_t1) a + S1x8x1024.size a ≤ S63x8x4096.size a
  k0_off13_inb : ∀ k0_t1 : Fin k0_t1_loop.trips, ∀ a, (k0_off13 k0_t1) a + S1x8x1024.size a ≤ S63x8x4096.size a
  k0_off14_inb : ∀ k0_t1 : Fin k0_t1_loop.trips, ∀ a, (k0_off14 k0_t1) a + S1x8x1024.size a ≤ S63x8x4096.size a
  k0_off15_inb : ∀ k0_t1 : Fin k0_t1_loop.trips, ∀ a, (k0_off15 k0_t1) a + S1x8x1024.size a ≤ S63x8x4096.size a
  k0_off16_inb : ∀ k0_t1 : Fin k0_t1_loop.trips, ∀ a, (k0_off16 k0_t1) a + S1x8x1024.size a ≤ S63x8x4096.size a
  k0_off17_inb : ∀ k0_t1 : Fin k0_t1_loop.trips, ∀ a, (k0_off17 k0_t1) a + S1x8x1024.size a ≤ S63x8x4096.size a
  k0_off18_inb : ∀ k0_t1 : Fin k0_t1_loop.trips, ∀ a, (k0_off18 k0_t1) a + S1x8x1024.size a ≤ S63x8x4096.size a
  k0_off19_inb : ∀ k0_t1 : Fin k0_t1_loop.trips, ∀ a, (k0_off19 k0_t1) a + S1x8x1024.size a ≤ S63x8x4096.size a
  k0_off20_inb : ∀ k0_t1 : Fin k0_t1_loop.trips, ∀ a, (k0_off20 k0_t1) a + S1x8x1024.size a ≤ S63x8x4096.size a
  k0_off21_inb : ∀ k0_t1 : Fin k0_t1_loop.trips, ∀ a, (k0_off21 k0_t1) a + S1x8x1024.size a ≤ S63x8x4096.size a
  k0_off22_inb : ∀ k0_t1 : Fin k0_t1_loop.trips, ∀ a, (k0_off22 k0_t1) a + S1x8x1024.size a ≤ S63x8x4096.size a
  k0_off23_inb : ∀ k0_t1 : Fin k0_t1_loop.trips, ∀ a, (k0_off23 k0_t1) a + S1x8x1024.size a ≤ S63x8x4096.size a
  k0_off24_inb : ∀ k0_t1 : Fin k0_t1_loop.trips, ∀ a, (k0_off24 k0_t1) a + S1x8x1024.size a ≤ S63x8x4096.size a
  k0_off25_inb : ∀ k0_t1 : Fin k0_t1_loop.trips, ∀ a, (k0_off25 k0_t1) a + S1x8x1024.size a ≤ S63x8x4096.size a
  k0_off26_inb : ∀ k0_t1 : Fin k0_t1_loop.trips, ∀ a, (k0_off26 k0_t1) a + S1x8x1024.size a ≤ S63x8x4096.size a
  k0_off27_inb : ∀ k0_t1 : Fin k0_t1_loop.trips, ∀ a, (k0_off27 k0_t1) a + S1x8x1024.size a ≤ S63x8x4096.size a
  k0_off28_inb : ∀ k0_t1 : Fin k0_t1_loop.trips, ∀ a, (k0_off28 k0_t1) a + S1x8x1024.size a ≤ S63x8x4096.size a
  k0_off29_inb : ∀ k0_t1 : Fin k0_t1_loop.trips, ∀ a, (k0_off29 k0_t1) a + S1x8x1024.size a ≤ S63x8x4096.size a
  k0_off30_inb : ∀ k0_t1 : Fin k0_t1_loop.trips, ∀ a, (k0_off30 k0_t1) a + S1x8x1024.size a ≤ S63x8x4096.size a
  k0_off31_inb : ∀ k0_t1 : Fin k0_t1_loop.trips, ∀ a, (k0_off31 k0_t1) a + S1x8x1024.size a ≤ S63x8x4096.size a
  k0_off32_inb : ∀ k0_t1 : Fin k0_t1_loop.trips, ∀ a, (k0_off32 k0_t1) a + S1x8x1024.size a ≤ S63x8x4096.size a
  k0_off33_inb : ∀ k0_t1 : Fin k0_t1_loop.trips, ∀ a, (k0_off33 k0_t1) a + S1x8x1024.size a ≤ S63x8x4096.size a
  k0_off34_inb : ∀ k0_t1 : Fin k0_t1_loop.trips, ∀ a, (k0_off34 k0_t1) a + S1x8x1024.size a ≤ S63x8x4096.size a
  k0_off35_inb : ∀ k0_t1 : Fin k0_t1_loop.trips, ∀ a, (k0_off35 k0_t1) a + S1x8x1024.size a ≤ S63x8x4096.size a
  k0_off36_inb : ∀ k0_t1 : Fin k0_t1_loop.trips, ∀ a, (k0_off36 k0_t1) a + S1x8x1024.size a ≤ S63x8x4096.size a
  k0_off37_inb : ∀ k0_t1 : Fin k0_t1_loop.trips, ∀ a, (k0_off37 k0_t1) a + S1x8x1024.size a ≤ S63x8x4096.size a
  k0_off38_inb : ∀ k0_t1 : Fin k0_t1_loop.trips, ∀ a, (k0_off38 k0_t1) a + S1x8x1024.size a ≤ S63x8x4096.size a
  k0_off39_inb : ∀ k0_t1 : Fin k0_t1_loop.trips, ∀ a, (k0_off39 k0_t1) a + S1x8x1024.size a ≤ S63x8x4096.size a
  k0_off40_inb : ∀ k0_t1 : Fin k0_t1_loop.trips, ∀ a, (k0_off40 k0_t1) a + S1x8x1024.size a ≤ S63x8x4096.size a
  k0_off41_inb : ∀ k0_t1 : Fin k0_t1_loop.trips, ∀ a, (k0_off41 k0_t1) a + S1x8x1024.size a ≤ S63x8x4096.size a
  k0_off42_inb : ∀ k0_t1 : Fin k0_t1_loop.trips, ∀ a, (k0_off42 k0_t1) a + S1x8x1024.size a ≤ S63x8x4096.size a
  k0_off43_inb : ∀ k0_t1 : Fin k0_t1_loop.trips, ∀ a, (k0_off43 k0_t1) a + S1x8x1024.size a ≤ S63x8x4096.size a
  k0_off44_inb : ∀ k0_t1 : Fin k0_t1_loop.trips, ∀ a, (k0_off44 k0_t1) a + S1x8x1024.size a ≤ S63x8x4096.size a
  k0_off45_inb : ∀ k0_t1 : Fin k0_t1_loop.trips, ∀ a, (k0_off45 k0_t1) a + S1x8x1024.size a ≤ S63x8x4096.size a
  k0_off46_inb : ∀ k0_t1 : Fin k0_t1_loop.trips, ∀ a, (k0_off46 k0_t1) a + S1x8x1024.size a ≤ S63x8x4096.size a
  k0_off47_inb : ∀ k0_t1 : Fin k0_t1_loop.trips, ∀ a, (k0_off47 k0_t1) a + S1x8x1024.size a ≤ S63x8x4096.size a
  k0_off48_inb : ∀ k0_t1 : Fin k0_t1_loop.trips, ∀ a, (k0_off48 k0_t1) a + S1x8x1024.size a ≤ S63x8x4096.size a
  k0_off49_inb : ∀ k0_t1 : Fin k0_t1_loop.trips, ∀ a, (k0_off49 k0_t1) a + S1x8x1024.size a ≤ S63x8x4096.size a
  k0_off50_inb : ∀ k0_t1 : Fin k0_t1_loop.trips, ∀ a, (k0_off50 k0_t1) a + S1x8x1024.size a ≤ S63x8x4096.size a
  k0_off51_inb : ∀ k0_t1 : Fin k0_t1_loop.trips, ∀ a, (k0_off51 k0_t1) a + S1x8x1024.size a ≤ S63x8x4096.size a
  k0_off52_inb : ∀ k0_t1 : Fin k0_t1_loop.trips, ∀ a, (k0_off52 k0_t1) a + S1x8x1024.size a ≤ S63x8x4096.size a
  k0_off53_inb : ∀ k0_t1 : Fin k0_t1_loop.trips, ∀ a, (k0_off53 k0_t1) a + S1x8x1024.size a ≤ S63x8x4096.size a
  k0_off54_inb : ∀ k0_t1 : Fin k0_t1_loop.trips, ∀ a, (k0_off54 k0_t1) a + S1x8x1024.size a ≤ S63x8x4096.size a
  k0_off55_inb : ∀ k0_t1 : Fin k0_t1_loop.trips, ∀ a, (k0_off55 k0_t1) a + S1x8x1024.size a ≤ S63x8x4096.size a
  k0_off56_inb : ∀ k0_t1 : Fin k0_t1_loop.trips, ∀ a, (k0_off56 k0_t1) a + S1x8x1024.size a ≤ S63x8x4096.size a
  k0_off57_inb : ∀ k0_t1 : Fin k0_t1_loop.trips, ∀ a, (k0_off57 k0_t1) a + S1x8x1024.size a ≤ S63x8x4096.size a
  k0_off58_inb : ∀ k0_t1 : Fin k0_t1_loop.trips, ∀ a, (k0_off58 k0_t1) a + S1x8x1024.size a ≤ S63x8x4096.size a
  k0_off59_inb : ∀ k0_t1 : Fin k0_t1_loop.trips, ∀ a, (k0_off59 k0_t1) a + S1x8x1024.size a ≤ S63x8x4096.size a
  k0_off60_inb : ∀ k0_t1 : Fin k0_t1_loop.trips, ∀ a, (k0_off60 k0_t1) a + S1x8x1024.size a ≤ S63x8x4096.size a
  k0_off61_inb : ∀ k0_t1 : Fin k0_t1_loop.trips, ∀ a, (k0_off61 k0_t1) a + S1x8x1024.size a ≤ S63x8x4096.size a
  k0_off62_inb : ∀ k0_t1 : Fin k0_t1_loop.trips, ∀ a, (k0_off62 k0_t1) a + S1x8x1024.size a ≤ S63x8x4096.size a
  k0_off63_inb : ∀ k0_t1 : Fin k0_t1_loop.trips, ∀ a, (k0_off63 k0_t1) a + S1x8x1024.size a ≤ S63x8x4096.size a
  k0_off64_inb : ∀ k0_t1 : Fin k0_t1_loop.trips, ∀ a, (k0_off64 k0_t1) a + S1x8x1024.size a ≤ S63x8x4096.size a
  k0_off65_inb : ∀ k0_t1 : Fin k0_t1_loop.trips, ∀ a, (k0_off65 k0_t1) a + S1x8x1024.size a ≤ S63x8x4096.size a
  k0_off66_inb : ∀ k0_t1 : Fin k0_t1_loop.trips, ∀ a, (k0_off66 k0_t1) a + S1x8x1024.size a ≤ S5x8x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S512x4096.size a
  hwx0_0 : ∀ i : grid0.Coords, EltTy.bits .f32 = 32 ∨ (Rect.block (s := S512x4096) S8x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S512x4096.size a
  hwx0_1 : ∀ i : grid0.Coords, EltTy.bits .f32 = 32 ∨ (Rect.block (s := S512x4096) S8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S512x4096.size a
  hwx0_2 : ∀ i : grid0.Coords, EltTy.bits .f32 = 32 ∨ (Rect.block (s := S512x4096) S8x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x4096.size a ≤ S512x4096.size a
  hwx0_3 : ∀ i : grid0.Coords, EltTy.bits .f32 = 32 ∨ (Rect.block (s := S512x4096) S8x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x4096.size a ≤ S512x4096.size a
  hwx0_4 : ∀ i : grid0.Coords, EltTy.bits .i32 = 32 ∨ (Rect.block (s := S512x4096) S8x4096.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S63x8x4096.size a < S64x512x4096.size a
  hwx0_5 : ∀ i : grid0.Coords, EltTy.bits .f32 = 32 ∨ (Rect.unit (s := S64x512x4096) (fun a => cc0_transform_5 i a * S63x8x4096.size a) (fun a => (Pipeline.Clip.of (cc0_transform_5 i a) (S63x8x4096.size a) (S64x512x4096.size a)).extent (S63x8x4096.size a)) fun a => Pipeline.Clip.inb (Pipeline.Clip.ok_of (hstart0_5 i a))).WholeWords (EltTy.packing .f32)
  hwxs0_5 : ∀ i : grid0.Coords, EltTy.bits .f32 = 32 ∨ (Rect.unit (s := S63x8x4096) (fun _ => 0) (fun a => (Pipeline.Clip.of (cc0_transform_5 i a) (S63x8x4096.size a) (S64x512x4096.size a)).extent (S63x8x4096.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5x8x4096.size a ≤ S5x512x4096.size a
  hwx0_6 : ∀ i : grid0.Coords, EltTy.bits .f32 = 32 ∨ (Rect.block (s := S5x512x4096) S5x8x4096.size (cc0_transform_6 i) (hinb0_6 i)).WholeWords (EltTy.packing .f32)

variable [Facts₀]

abbrev win0_0 : Pipeline.Window sig grid0 :=
  Pipeline.Window.ofSpec (Memref.whole main_v0) S8x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpecClip (Memref.whole main_v5) S63x8x4096.size cc0_transform_5 reads0_5 false false 2 stage0_5 sem0_5
    hrank0 hreads0_5 hstart0_5 nbuf0_5 (Memref.isWhole_whole _) hwx0_5 hwxs0_5 hstage0_5

abbrev win0_6 : Pipeline.Window sig grid0 :=
  Pipeline.Window.ofSpec (Memref.whole main_v6) S5x8x4096.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x32x64x64 : Shape := ⟨4, ![16, 32, 64, 64]⟩
abbrev S64x16x32x64x64 : Shape := ⟨5, ![64, 16, 32, 64, 64]⟩
abbrev S_ : Shape := ⟨0, ![]⟩
abbrev S1x16x32x64x64 : Shape := ⟨5, ![1, 16, 32, 64, 64]⟩
abbrev S63x16x32x64x64 : Shape := ⟨5, ![63, 16, 32, 64, 64]⟩
abbrev S1x16x32x64x64x1 : Shape := ⟨6, ![1, 16, 32, 64, 64, 1]⟩
abbrev S1 : Shape := ⟨1, ![1]⟩
abbrev S1x1x1x1x1x1 : Shape := ⟨6, ![1, 1, 1, 1, 1, 1]⟩
abbrev S5x16x32x64x64 : Shape := ⟨5, ![5, 16, 32, 64, 64]⟩

abbrev nBuf : Space → Nat
  | .hbm => 80
  | .vmem => 0
  | .smem => 0
  | _ => 0

abbrev bufTy : (tb : Table) → Fin (tcTables nBuf tb) → BufTy
  | .hbm, ⟨0, _⟩ => ⟨S16x32x64x64, .f32⟩
  | .hbm, ⟨1, _⟩ => ⟨S16x32x64x64, .f32⟩
  | .hbm, ⟨2, _⟩ => ⟨S16x32x64x64, .f32⟩
  | .hbm, ⟨3, _⟩ => ⟨S16x32x64x64, .f32⟩
  | .hbm, ⟨4, _⟩ => ⟨S64x16x32x64x64, .f32⟩
  | .hbm, ⟨5, _⟩ => ⟨S16x32x64x64, .i32⟩
  | .hbm, ⟨6, _⟩ => ⟨S_, .f32⟩
  | .hbm, ⟨7, _⟩ => ⟨S16x32x64x64, .f32⟩
  | .hbm, ⟨8, _⟩ => ⟨S16x32x64x64, .i1⟩
  | .hbm, ⟨9, _⟩ => ⟨S16x32x64x64, .f32⟩
  | .hbm, ⟨10, _⟩ => ⟨S_, .f32⟩
  | .hbm, ⟨11, _⟩ => ⟨S16x32x64x64, .f32⟩
  | .hbm, ⟨12, _⟩ => ⟨S16x32x64x64, .f32⟩
  | .hbm, ⟨13, _⟩ => ⟨S_, .f32⟩
  | .hbm, ⟨14, _⟩ => ⟨S16x32x64x64, .f32⟩
  | .hbm, ⟨15, _⟩ => ⟨S16x32x64x64, .f32⟩
  | .hbm, ⟨16, _⟩ => ⟨S_, .f32⟩
  | .hbm, ⟨17, _⟩ => ⟨S16x32x64x64, .f32⟩
  | .hbm, ⟨18, _⟩ => ⟨S16x32x64x64, .f32⟩
  | .hbm, ⟨19, _⟩ => ⟨S16x32x64x64, .f32⟩
  | .hbm, ⟨20, _⟩ => ⟨S16x32x64x64, .f32⟩
  | .hbm, ⟨21, _⟩ => ⟨S16x32x64x64, .f32⟩
  | .hbm, ⟨22, _⟩ => ⟨S_, .f32⟩
  | .hbm, ⟨23, _⟩ => ⟨S16x32x64x64, .f32⟩
  | .hbm, ⟨24, _⟩ => ⟨S16x32x64x64, .f32⟩
  | .hbm, ⟨25, _⟩ => ⟨S16x32x64x64, .f32⟩
  | .hbm, ⟨26, _⟩ => ⟨S16x32x64x64, .f32⟩
  | .hbm, ⟨27, _⟩ => ⟨S_, .f32⟩
  | .hbm, ⟨28, _⟩ => ⟨S16x32x64x64, .f32⟩
  | .hbm, ⟨29, _⟩ => ⟨S16x32x64x64, .i1⟩
  | .hbm, ⟨30, _⟩ => ⟨S16x32x64x64, .f32⟩
  | .hbm, ⟨31, _⟩ => ⟨S_, .f32⟩
  | .hbm, ⟨32, _⟩ => ⟨S16x32x64x64, .f32⟩
  | .hbm, ⟨33, _⟩ => ⟨S16x32x64x64, .f32⟩
  | .hbm, ⟨34, _⟩ => ⟨S16x32x64x64, .f32⟩
  | .hbm, ⟨35, _⟩ => ⟨S_, .f32⟩
  | .hbm, ⟨36, _⟩ => ⟨S16x32x64x64, .f32⟩
  | .hbm, ⟨37, _⟩ => ⟨S16x32x64x64, .f32⟩
  | .hbm, ⟨38, _⟩ => ⟨S16x32x64x64, .f32⟩
  | .hbm, ⟨39, _⟩ => ⟨S_, .f32⟩
  | .hbm, ⟨40, _⟩ => ⟨S16x32x64x64, .f32⟩
  | .hbm, ⟨41, _⟩ => ⟨S16x32x64x64, .f32⟩
  | .hbm, ⟨42, _⟩ => ⟨S16x32x64x64, .f32⟩
  | .hbm, ⟨43, _⟩ => ⟨S_, .f32⟩
  | .hbm, ⟨44, _⟩ => ⟨S16x32x64x64, .f32⟩
  | .hbm, ⟨45, _⟩ => ⟨S16x32x64x64, .f32⟩
  | .hbm, ⟨46, _⟩ => ⟨S16x32x64x64, .f32⟩
  | .hbm, ⟨47, _⟩ => ⟨S1x16x32x64x64, .f32⟩
  | .hbm, ⟨48, _⟩ => ⟨S63x16x32x64x64, .f32⟩
  | .hbm, ⟨49, _⟩ => ⟨S64x16x32x64x64, .f32⟩
  | .hbm, ⟨50, _⟩ => ⟨S1x16x32x64x64, .i32⟩
  | .hbm, ⟨51, _⟩ => ⟨S_, .i32⟩
  | .hbm, ⟨52, _⟩ => ⟨S1x16x32x64x64, .i32⟩
  | .hbm, ⟨53, _⟩ => ⟨S1x16x32x64x64, .i1⟩
  | .hbm, ⟨54, _⟩ => ⟨S_, .i32⟩
  | .hbm, ⟨55, _⟩ => ⟨S1x16x32x64x64, .i32⟩
  | .hbm, ⟨56, _⟩ => ⟨S1x16x32x64x64, .i32⟩
  | .hbm, ⟨57, _⟩ => ⟨S1x16x32x64x64, .i32⟩
  | .hbm, ⟨58, _⟩ => ⟨S1x16x32x64x64x1, .i32⟩
  | .hbm, ⟨59, _⟩ => ⟨S1, .i32⟩
  | .hbm, ⟨60, _⟩ => ⟨S_, .i32⟩
  | .hbm, ⟨61, _⟩ => ⟨S1x16x32x64x64x1, .i32⟩
  | .hbm, ⟨62, _⟩ => ⟨S1x16x32x64x64x1, .i1⟩
  | .hbm, ⟨63, _⟩ => ⟨S1x1x1x1x1x1, .i32⟩
  | .hbm, ⟨64, _⟩ => ⟨S1x16x32x64x64x1, .i32⟩
  | .hbm, ⟨65, _⟩ => ⟨S1x16x32x64x64x1, .i1⟩
  | .hbm, ⟨66, _⟩ => ⟨S1x16x32x64x64x1, .i1⟩
  | .hbm, ⟨67, _⟩ => ⟨S_, .i1⟩
  | .hbm, ⟨68, _⟩ => ⟨S1x16x32x64x64, .i1⟩
  | .hbm, ⟨69, _⟩ => ⟨S1x16x32x64x64, .f32⟩
  | .hbm, ⟨70, _⟩ => ⟨S_, .f32⟩
  | .hbm, ⟨71, _⟩ => ⟨S1x16x32x64x64, .f32⟩
  | .hbm, ⟨72, _⟩ => ⟨S1x16x32x64x64, .f32⟩
  | .hbm, ⟨73, _⟩ => ⟨S16x32x64x64, .f32⟩
  | .hbm, ⟨74, _⟩ => ⟨S1x16x32x64x64, .f32⟩
  | .hbm, ⟨75, _⟩ => ⟨S1x16x32x64x64, .f32⟩
  | .hbm, ⟨76, _⟩ => ⟨S1x16x32x64x64, .f32⟩
  | .hbm, ⟨77, _⟩ => ⟨S1x16x32x64x64, .f32⟩
  | .hbm, ⟨78, _⟩ => ⟨S1x16x32x64x64, .f32⟩
  | .hbm, ⟨79, _⟩ => ⟨S5x16x32x64x64, .f32⟩
  | _, _ => ⟨S16x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call0_c : Ref sig .tc := ⟨.hbm, 51, rfl⟩
abbrev main_call0_v0 : Ref sig .tc := ⟨.hbm, 52, rfl⟩
abbrev main_call0_v1 : Ref sig .tc := ⟨.hbm, 53, rfl⟩
abbrev main_call0_c_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_c_1 : Ref sig .tc := ⟨.hbm, 59, rfl⟩
abbrev main_call0_c_2 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_c_3 : Ref sig .tc := ⟨.hbm, 67, rfl⟩
abbrev main_call0_v12 : Ref sig .tc := ⟨.hbm, 68, rfl⟩
abbrev main_call0_v13 : Ref sig .tc := ⟨.hbm, 69, rfl⟩
abbrev main_call0_cst : Ref sig .tc := ⟨.hbm, 70, rfl⟩
abbrev main_call0_v14 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩

abbrev nD : Nat := 1
abbrev τ : Topo := Topo.v7x

variable {F : FTy → Type} [FloatOps F]

class Facts₀ : Prop where
  bcast_S_S16x32x64x64 : S_.BroadcastsInDim S16x32x64x64 (![] : Fin 0 → Fin S16x32x64x64.rank)
  bcast_S16x32x64x64_S1x16x32x64x64_1_2_3_4 : S16x32x64x64.BroadcastsInDim S1x16x32x64x64 (![1, 2, 3, 4] : Fin 4 → Fin S1x16x32x64x64.rank)
  slices_S64x16x32x64x64_S63x16x32x64x64_0_0_0_0_0 : S64x16x32x64x64.Slices ![0, 0, 0, 0, 0] S63x16x32x64x64
  concatenates_S1x16x32x64x64_S63x16x32x64x64_S64x16x32x64x64_d0 : Shape.Concatenates [S1x16x32x64x64, S63x16x32x64x64] S64x16x32x64x64 0
  bcast_S_S1x16x32x64x64 : S_.BroadcastsInDim S1x16x32x64x64 (![] : Fin 0 → Fin S1x16x32x64x64.rank)
  shapeCasts_S1x16x32x64x64_S1x16x32x64x64x1 : S1x16x32x64x64.ShapeCasts S1x16x32x64x64x1
  bcast_S_S1x16x32x64x64x1 : S_.BroadcastsInDim S1x16x32x64x64x1 (![] : Fin 0 → Fin S1x16x32x64x64x1.rank)
  bcast_S1_S1x1x1x1x1x1_5 : S1.BroadcastsInDim S1x1x1x1x1x1 (![5] : Fin 1 → Fin S1x1x1x1x1x1.rank)
  bcast_S1x1x1x1x1x1_S1x16x32x64x64x1_0_1_2_3_4_5 : S1x1x1x1x1x1.BroadcastsInDim S1x16x32x64x64x1 (![0, 1, 2, 3, 4, 5] : Fin 6 → Fin S1x16x32x64x64x1.rank)
  reducesTo_S1x16x32x64x64x1_S1x16x32x64x64_d5 : S1x16x32x64x64x1.ReducesTo [5] S1x16x32x64x64
  h_S_ : 0 < S_.numel
  shapeCasts_S1x16x32x64x64_S16x32x64x64 : S1x16x32x64x64.ShapeCasts S16x32x64x64
  concatenates_S1x16x32x64x64_S1x16x32x64x64_S1x16x32x64x64_S1x16x32x64x64_S1x16x32x64x64_S5x16x32x64x64_d0 : Shape.Concatenates [S1x16x32x64x64, S1x16x32x64x64, S1x16x32x64x64, S1x16x32x64x64, S1x16x32x64x64] S5x16x32x64x64 0
  gather_S64x16x32x64x64_S1x16x32x64x64x1_S1x16x32x64x64_n_0_1234_1234_0_5_11111_wf : GatherDims.WF S64x16x32x64x64 S1x16x32x64x64x1 S1x16x32x64x64 [] [0] [1, 2, 3, 4] [0] [1, 2, 3, 4] 5 ![1, 1, 1, 1, 1]

variable [Facts₀]

def gather_S64x16x32x64x64_S1x16x32x64x64x1_S1x16x32x64x64_n_0_1234_1234_0_5_11111 : GatherDims S64x16x32x64x64 S1x16x32x64x64x1 S1x16x32x64x64 where
  offsetDims := []
  collapsedSliceDims := [0]
  operandBatchingDims := [1, 2, 3, 4]
  startIndicesBatchingDims := [1, 2, 3, 4]
  startIndexMap := [0]
  indexVectorDim := 5
  sliceSizes := ![1, 1, 1, 1, 1]
  wf := gather_S64x16x32x64x64_S1x16x32x64x64x1_S1x16x32x64x64_n_0_1234_1234_0_5_11111_wf

class Facts : Prop extends Facts₀ where

variable [Facts]
-- ==== Proof.Chain.lean ====
/-
  The delay-line read as the kernel spells it: the delay clamped into 0..63 (read signed), then a chain of selects,
  one per slot: slot 0 picks the new spike, slot n + 1 picks the old line's slot n, and whatever no slot picks is a
  filler that a clamped delay never reaches.
-/
import Idealize.ShloMosaic.PureOps.Ideal
import Idealize.ShloMosaic.Lib.ValueIdx

noncomputable section

namespace Cert.Lif

open Idealize.ShloMosaic

/-- A delay clamped into 0..63, read signed. -/
def clampDelay (d : BitVec 32) : BitVec 32 := IntOp.minsi 63#32 (IntOp.maxsi 0#32 d)

/-- The chain of selects up to slot `n`: `z` where the clamped delay is 0, the old line's slot k − 1 where it is
    k ≤ n, else the filler. -/
def chainTo {α : Type} (d' : BitVec 32) (z fill : α) (b : Fin 63 → α) : Nat → α
  | 0 => Scalar.select (IntOp.cmpi .eq d' 0#32) z fill
  | n + 1 =>
    if h : n < 63 then Scalar.select (IntOp.cmpi .eq d' (BitVec.ofNat 32 (n + 1))) (b ⟨n, h⟩) (chainTo d' z fill b n)
    else chainTo d' z fill b n

/-- The whole chain, over all 63 old slots that can be read. -/
def chainAt {α : Type} (d : BitVec 32) (z fill : α) (b : Fin 63 → α) : α := chainTo (clampDelay d) z fill b 63

end Cert.Lif

end
-- ==== Proof.KBlock.lean ====
/-
  What one grid point leaves in the kernel's output block, as ONE function of the six input blocks: the block is
  five planes of 8 rows by 4096 columns. Planes 1 to 4 are the neuron update on the point's rows (spike, new
  potential, new current, new refractory variable: the body's own arithmetic terms, element by element); plane 0
  is the delay line read at each element's delay: the clamped delay run through the chain of selects, slot 0 taking
  the spike of plane 1 and slot s + 1 the old line's slot s at the same row and column.
-/
import proofs.«429760_j76124000354679_3_alg».proof.Proof.Gen.Kernel.Skeleton
import proofs.«429760_j76124000354679_3_alg».proof.Proof.Gen.Kernel.Loops
import proofs.«429760_j76124000354679_3_alg».proof.Proof.Gen.Kernel.Launch
import proofs.«429760_j76124000354679_3_alg».proof.Proof.Gen.Kernel.Points
import proofs.«429760_j76124000354679_3_alg».proof.Proof.Gen.Kernel.Frame
import proofs.«429760_j76124000354679_3_alg».proof.Proof.Chain
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The row and column of an element of the output block. -/
abbrev rc (j : S5x8x4096.Idx) : S8x4096.Idx :=
  ValueIdx.ix2 (n0 := 8) (n1 := 4096) ⟨(j 1).val, (j 1).isLt⟩ ⟨(j 2).val, (j 2).isLt⟩

/-- Slot `s` of the old delay line at the row and column of an element of the output block. -/
abbrev slotAt (j : S5x8x4096.Idx) (s : Fin 63) : S63x8x4096.Idx :=
  ValueIdx.ix3 (n0 := 63) (n1 := 8) (n2 := 4096) s ⟨(j 1).val, (j 1).isLt⟩ ⟨(j 2).val, (j 2).isLt⟩

/-- The filler of the select chain: the zero word. -/
abbrev zeroW : F .f32 := Scalar.ofBits .f32 0x00000000#32

/-- The output block of one grid point from its input blocks (i_new, v, i, rho, delay, old line). -/
def outBlk (x1 x2 x3 x4 : Vec F S8x4096 .f32) (x5 : Vec F S8x4096 .i32) (x6 : Vec F S63x8x4096 .f32) : Vec F S5x8x4096 .f32 :=
  fun j => match (j 0).val with
    | 0 => Cert.Lif.chainAt (x5 (rc j)) (k0_pay31 x2 x3 x4 (rc j)) (zeroW (F := F)) (fun s => x6 (slotAt j s))
    | 1 => k0_pay31 x2 x3 x4 (rc j)
    | 2 => k0_pay32 x2 x3 x4 (rc j)
    | 3 => k0_pay30 x3 x1 (rc j)
    | _ => k0_pay33 x2 x3 x4 (rc j)

end Cert.Kernel.Body

end
-- ==== Proof.KTrip.lean ====
/-
  One trip of the kernel's chunk loop, read at one element. Trip k handles columns 1024·k … 1024·k + 1023 of the
  8 × 4096 block. What it stores at row r and column q of its 8 × 1024 chunk is the last of a chain of 64 selects
  on the clamped delay of that element: the first select picks, for delay 0, the spike the body already stored in
  plane 1 of the output block (else the zero word), and select number n ≥ 1 picks, for delay n, slot n − 1 of the old
  delay line at the same row and column. Read at the element this is exactly the chain of the specification, on the
  delay x5 (r, 1024·k + q), the stored spike at (1, r, 1024·k + q) and the old line's slots at (s, r, 1024·k + q).
-/
import proofs.«429760_j76124000354679_3_alg».proof.Proof.KBlock

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- A loop trip counts below 4. -/
theorem trip_lt (k : Fin k0_t1_loop.trips) : k.val < 4 := Nat.lt_of_lt_of_le k.isLt k0_t1_abs.2.1

/-! ## A chunk load read at an element

A trip loads [1, 8, 1024] chunks of a three-axis block (the old delay line, the output block) and an [8, 1024] chunk
of the delay block, at offsets that are closed forms of the trip. Read at row r and column q of the chunk, with the
unit axis cast away, such a load is the block's contents at (plane, r, column offset + q). -/

/-- A [1, 8, 1024] chunk of a view of [n0, 8, 4096], its unit axis cast away, at row r and column q. -/
theorem chunk3_apply {n0 : Nat} {κ : Kind} {sp : Space} (v : View sig κ sp ⟨3, ![n0, 8, 4096]⟩ .f32)
    (f : v.ty.Contents (Elt F)) (off : Fin 3 → Nat) [co : ClosedOff off]
    (inb : ∀ a, off a + S1x8x1024.size a ≤ (⟨3, ![n0, 8, 4096]⟩ : Shape).size a)
    (h : (⟨3, S1x8x1024.size⟩ : Shape).ShapeCasts S8x1024)
    (r : Fin 8) (q : Fin 1024) (p : Fin n0) (c : Fin 4096) (hp : p.val = co.form 0) (hcq : c.val = co.form 2 + q.val) :
    shapeCast S8x1024 (View.readAt (Elt F) v (Rect.unit (s := ⟨3, ![n0, 8, 4096]⟩) off S1x8x1024.size inb).toLoadRect f) h (ValueIdx.ix2 r q)
      = v.read (Elt F) f (ValueIdx.ix3 p r c) := by
  have e0 : off 0 = co.form 0 := congrFun co.eq 0
  have e2 : off 2 = co.form 2 := congrFun co.eq 2
  have h1 : off 1 + 8 ≤ 8 := inb 1
  refine (shapeCast_dropUnit_apply ![8, 1024] _ h (ValueIdx.ix2 r q)).trans ?_
  show v.read (Elt F) f ((Rect.unit (s := ⟨3, ![n0, 8, 4096]⟩) off S1x8x1024.size inb).toLoadRect.idx (Fin.cons ⟨0, Nat.one_pos⟩ (ValueIdx.ix2 r q))) = _
  congr 1
  funext a
  match a with
  | ⟨0, _⟩ => exact Fin.ext (by show off 0 + 1 * 0 = p.val; omega)
  | ⟨1, _⟩ => exact Fin.ext (by show off 1 + 1 * r.val = r.val; omega)
  | ⟨2, _⟩ => exact Fin.ext (by show off 2 + 1 * q.val = c.val; omega)

/-- The same through a whole memref whose contents read x. -/
theorem chunk3_unread_apply {n0 : Nat} (m : Memref sig .tc .vmem ⟨3, ![n0, 8, 4096]⟩ .f32) (hm : m.IsWhole)
    (x : Vec F ⟨3, ![n0, 8, 4096]⟩ .f32) (off : Fin 3 → Nat) [co : ClosedOff off]
    (inb : ∀ a, off a + S1x8x1024.size a ≤ (⟨3, ![n0, 8, 4096]⟩ : Shape).size a)
    (h : (⟨3, S1x8x1024.size⟩ : Shape).ShapeCasts S8x1024)
    (r : Fin 8) (q : Fin 1024) (p : Fin n0) (c : Fin 4096) (hp : p.val = co.form 0) (hcq : c.val = co.form 2 + q.val) :
    shapeCast S8x1024 (View.readAt (Elt F) m.view (Rect.unit (s := ⟨3, ![n0, 8, 4096]⟩) off S1x8x1024.size inb).toLoadRect (hm.unread x)) h
        (ValueIdx.ix2 r q) = x (ValueIdx.ix3 p r c) := by
  rw [chunk3_apply m.view _ off inb h r q p c hp hcq, hm.read_unread]

/-- The clamped delay of an [8, 1024] chunk of the delay block, at row r and column q. -/
theorem clamp_chunk_apply (m : Memref sig .tc .vmem S8x4096 .i32) (hm : m.IsWhole) (x : Vec F S8x4096 .i32)
    (off : Fin 2 → Nat) [co : ClosedOff off] (inb : ∀ a, off a + S8x1024.size a ≤ S8x4096.size a)
    (r : Fin 8) (q : Fin 1024) (c : Fin 4096) (hcq : c.val = co.form 1 + q.val) :
    k0_pay6 (F := F) (View.readAt (Elt F) m.view (Rect.unit (s := S8x4096) off S8x1024.size inb).toLoadRect (hm.unread x)) (ValueIdx.ix2 r q)
      = Cert.Lif.clampDelay (x (ValueIdx.ix2 r c)) := by
  have e1 : off 1 = co.form 1 := congrFun co.eq 1
  have h0 : off 0 + 8 ≤ 8 := inb 0
  have e : (Rect.unit (s := S8x4096) off S8x1024.size inb).toLoadRect.idx (ValueIdx.ix2 r q) = ValueIdx.ix2 r c := by
    funext a
    match a with
    | ⟨0, _⟩ => exact Fin.ext (by show off 0 + 1 * r.val = r.val; omega)
    | ⟨1, _⟩ => exact Fin.ext (by show off 1 + 1 * q.val = c.val; omega)
  have hs : shapeCast S8x1024
      (View.readAt (Elt F) m.view (Rect.unit (s := S8x4096) off S8x1024.size inb).toLoadRect (hm.unread x))
      shapeCasts_S8x1024_S8x1024 (ValueIdx.ix2 r q) = x (ValueIdx.ix2 r c) := by
    refine (congrFun (shapeCast_self (s := S8x1024) _ shapeCasts_S8x1024_S8x1024) (ValueIdx.ix2 r q)).trans ?_
    show m.view.read (Elt F) (hm.unread x)
      ((Rect.unit (s := S8x4096) off S8x1024.size inb).toLoadRect.idx (ValueIdx.ix2 r q)) = _
    rw [e, hm.read_unread]
  show IntOp.minsi 63#32 (IntOp.maxsi 0#32 (shapeCast S8x1024
      (View.readAt (Elt F) m.view (Rect.unit (s := S8x4096) off S8x1024.size inb).toLoadRect (hm.unread x))
      shapeCasts_S8x1024_S8x1024 (ValueIdx.ix2 r q))) = _
  rw [hs]
  rfl

/-! ## The chain, one select at a time -/

/-- The first select of the chain at an element. -/
theorem chain_base {α : Type} (d' : BitVec 32) (z fill : α) (b : Fin 63 → α)
    (cnd : IVec S8x1024 1) (x acc : S8x1024.Idx → α) (j : S8x1024.Idx)
    (hc : cnd j = IntOp.cmpi .eq d' 0#32) (hx : x j = z) (hacc : acc j = fill) :
    select cnd x acc j = Cert.Lif.chainTo d' z fill b 0 := by
  rw [Cert.Lif.chainTo, ← hc, ← hx, ← hacc]; rfl

/-- Select number n + 1 of the chain at an element. -/
theorem chain_step {α : Type} (d' : BitVec 32) (z fill : α) (b : Fin 63 → α) (n : Nat) (hn : n < 63)
    (cnd : IVec S8x1024 1) (x acc : S8x1024.Idx → α) (j : S8x1024.Idx)
    (hc : cnd j = IntOp.cmpi .eq d' (BitVec.ofNat 32 (n + 1))) (hx : x j = b ⟨n, hn⟩)
    (hacc : acc j = Cert.Lif.chainTo d' z fill b n) :
    select cnd x acc j = Cert.Lif.chainTo d' z fill b (n + 1) := by
  rw [Cert.Lif.chainTo, dif_pos hn, ← hc, ← hx, ← hacc]; rfl

/-- THE TRIP AT AN ELEMENT: what trip k leaves at row r, column q of its chunk is the specification's chain of
    selects on that element's delay, the stored spike and the old delay line's 63 readable slots, all read at
    row r and column 1024·k + q of the block. -/
theorem trip_val (arg5 : Memref sig .tc .vmem S8x4096 .i32) (harg5 : arg5.IsWhole)
    (arg6 : Memref sig .tc .vmem S63x8x4096 .f32) (harg6 : arg6.IsWhole)
    (arg7 : Memref sig .tc .vmem S5x8x4096 .f32)
    (x5 : Vec F S8x4096 .i32) (x6 : Vec F S63x8x4096 .f32) (k : Fin k0_t1_loop.trips)
    (g : BufTy.Contents (Elt F) arg7.view.ty) (r : Fin 8) (q : Fin 1024)
    (col : Fin 4096) (hcol : col.val = 1024 * k.val + q.val) :
    trip_k0_t1.sl.v573 (F := F) arg5 arg6 arg7 (harg5.unread x5) (harg6.unread x6) k g (ValueIdx.ix2 r q)
      = Cert.Lif.chainAt (x5 (ValueIdx.ix2 r col))
          (arg7.view.read (Elt F) g (ValueIdx.ix3 (1 : Fin 5) r col)) (zeroW (F := F))
          (fun s : Fin 63 => x6 (ValueIdx.ix3 s r col)) := by
  have hr : trip_k0_t1.sl.r (F := F) arg5 (harg5.unread x5) k (ValueIdx.ix2 r q)
      = Cert.Lif.clampDelay (x5 (ValueIdx.ix2 r col)) :=
    clamp_chunk_apply arg5 harg5 x5 _ _ r q col (by exact hcol)
  unfold Cert.Lif.chainAt
  rw [← hr]
  iterate 63
    refine chain_step _ _ _ _ _ (by omega) _ _ _ _ (by rfl)
      (chunk3_unread_apply arg6 harg6 x6 _ _ _ r q _ col (by rfl) (by exact hcol)) ?_
  exact chain_base _ _ _ _ _ _ _ _ (by rfl)
    (chunk3_apply arg7.view g _ _ _ r q _ col (by rfl) (by exact hcol)) (by rfl)

end Cert.Kernel.Body

end
-- ==== Proof.KBlockEq.lean ====
/-
  What the body's stores leave in the output buffer. The body stores planes 4, 3, 2, 1 whole and then, trip by
  trip, the four chunks of plane 0. Reading the buffer back newest store first: an element of planes 1 to 4 is
  under exactly its plane's store; an element of plane 0 at column 1024 n + q is under trip n's store, whose
  payload there is the select chain over the element's delay, the spike read back from plane 1 (stored before the
  loop, and no trip touches plane 1) and the old line's slots. Every element is under some store, so the buffer's
  earlier contents do not matter.
-/
import proofs.«429760_j76124000354679_3_alg».proof.Proof.KTrip
import Idealize.ShloMosaic.Lib.WritesUnit

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-- The four whole-plane stores of the neuron update, last first. -/
abbrev planePieces (x1 x2 x3 x4 : Vec F S8x4096 .f32) : List (View.Piece (Elt F) S5x8x4096 .f32) :=
    [⟨Rect.unit (s := S5x8x4096) ![4, 0, 0] S1x8x4096.size inb_S5x8x4096_S1x8x4096_4_0_0, k0_pay4 (k0_pay33 x2 x3 x4)⟩,
      ⟨Rect.unit (s := S5x8x4096) ![3, 0, 0] S1x8x4096.size inb_S5x8x4096_S1x8x4096_3_0_0, k0_pay3 (k0_pay30 x3 x1)⟩,
      ⟨Rect.unit (s := S5x8x4096) ![2, 0, 0] S1x8x4096.size inb_S5x8x4096_S1x8x4096_2_0_0, k0_pay2 (k0_pay32 x2 x3 x4)⟩,
      ⟨Rect.unit (s := S5x8x4096) ![1, 0, 0] S1x8x4096.size inb_S5x8x4096_S1x8x4096_1_0_0, k0_pay1 (k0_pay31 x2 x3 x4)⟩]

/-- One trip's stored piece: the chunk of plane 0 at columns 1024 k to 1024 k + 1023. -/
theorem tripL_eq (c : Dev nD) (i : grid0.Coords) (arg1 : Memref sig .tc .vmem S8x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S8x4096 .i32) (harg5 : arg5.IsWhole) (arg6 : Memref sig .tc .vmem S63x8x4096 .f32) (harg6 : arg6.IsWhole) (arg7 : Memref sig .tc .vmem S5x8x4096 .f32) (harg7 : arg7.IsWhole)
    (X5 : BufTy.Contents (Elt F) arg5.view.ty) (X6 : BufTy.Contents (Elt F) arg6.view.ty) (k : Fin k0_t1_loop.trips) (g : BufTy.Contents (Elt F) arg7.view.ty) :
    tripL_k0_t1 (F := F) Variants.none c none i arg1 harg1 arg2 harg2 arg3 harg3 arg4 harg4 arg5 harg5 arg6 harg6 arg7 harg7 X5 X6 k g
      = [⟨Rect.unit (s := S5x8x4096) (k0_off66 k) S1x8x1024.size (k0_off66_inb k), k0_pay5 (trip_k0_t1.sl.v573 (F := F) arg5 arg6 arg7 X5 X6 k g)⟩] := by
  unfold tripL_k0_t1 trip_k0_t1
  rfl

/-! ## A stored plane or chunk read at its coordinates -/

theorem pay1_apply (v : FVec F S8x4096 .f32) (r : Fin 8) (q : Fin 4096) : k0_pay1 v (ix3 (0 : Fin 1) r q) = v (ix2 r q) := by
  unfold k0_pay1
  exact (shapeCast_addUnit_apply ![8, 4096] v _ (ix3 (0 : Fin 1) r q)).trans
    (congrArg v (funext fun a => match a with | ⟨0, _⟩ => rfl | ⟨1, _⟩ => rfl))
theorem pay2_apply (v : FVec F S8x4096 .f32) (r : Fin 8) (q : Fin 4096) : k0_pay2 v (ix3 (0 : Fin 1) r q) = v (ix2 r q) := by
  unfold k0_pay2
  exact (shapeCast_addUnit_apply ![8, 4096] v _ (ix3 (0 : Fin 1) r q)).trans
    (congrArg v (funext fun a => match a with | ⟨0, _⟩ => rfl | ⟨1, _⟩ => rfl))
theorem pay3_apply (v : FVec F S8x4096 .f32) (r : Fin 8) (q : Fin 4096) : k0_pay3 v (ix3 (0 : Fin 1) r q) = v (ix2 r q) := by
  unfold k0_pay3
  exact (shapeCast_addUnit_apply ![8, 4096] v _ (ix3 (0 : Fin 1) r q)).trans
    (congrArg v (funext fun a => match a with | ⟨0, _⟩ => rfl | ⟨1, _⟩ => rfl))
theorem pay4_apply (v : FVec F S8x4096 .f32) (r : Fin 8) (q : Fin 4096) : k0_pay4 v (ix3 (0 : Fin 1) r q) = v (ix2 r q) := by
  unfold k0_pay4
  exact (shapeCast_addUnit_apply ![8, 4096] v _ (ix3 (0 : Fin 1) r q)).trans
    (congrArg v (funext fun a => match a with | ⟨0, _⟩ => rfl | ⟨1, _⟩ => rfl))
theorem pay5_apply (v : FVec F S8x1024 .f32) (r : Fin 8) (q : Fin 1024) : k0_pay5 v (ix3 (0 : Fin 1) r q) = v (ix2 r q) := by
  unfold k0_pay5
  exact (shapeCast_addUnit_apply ![8, 1024] v _ (ix3 (0 : Fin 1) r q)).trans
    (congrArg v (funext fun a => match a with | ⟨0, _⟩ => rfl | ⟨1, _⟩ => rfl))

/-! ## The output block by plane -/

section
variable (x1 x2 x3 x4 : Vec F S8x4096 .f32) (x5 : Vec F S8x4096 .i32) (x6 : Vec F S63x8x4096 .f32)

theorem outBlk_0 (r : Fin 8) (q : Fin 4096) : outBlk x1 x2 x3 x4 x5 x6 (ix3 (0 : Fin 5) r q)
    = Cert.Lif.chainAt (x5 (ix2 r q)) (k0_pay31 x2 x3 x4 (ix2 r q)) (zeroW (F := F)) (fun s : Fin 63 => x6 (ix3 s r q)) := rfl
theorem outBlk_1 (r : Fin 8) (q : Fin 4096) : outBlk x1 x2 x3 x4 x5 x6 (ix3 (1 : Fin 5) r q) = k0_pay31 x2 x3 x4 (ix2 r q) := rfl
theorem outBlk_2 (r : Fin 8) (q : Fin 4096) : outBlk x1 x2 x3 x4 x5 x6 (ix3 (2 : Fin 5) r q) = k0_pay32 x2 x3 x4 (ix2 r q) := rfl
theorem outBlk_3 (r : Fin 8) (q : Fin 4096) : outBlk x1 x2 x3 x4 x5 x6 (ix3 (3 : Fin 5) r q) = k0_pay30 x3 x1 (ix2 r q) := rfl
theorem outBlk_4 (r : Fin 8) (q : Fin 4096) : outBlk x1 x2 x3 x4 x5 x6 (ix3 (4 : Fin 5) r q) = k0_pay33 x2 x3 x4 (ix2 r q) := rfl

/-- After the four plane stores, planes 1 to 4 of the buffer read as `outBlk`. -/
theorem read_planes (arg7 : Memref sig .tc .vmem S5x8x4096 .f32) (f7 : BufTy.Contents (Elt F) arg7.view.ty)
    (p : Fin 5) (r : Fin 8) (q : Fin 4096) (hp : 1 ≤ p.val) :
    arg7.view.read (Elt F) (arg7.view.writes (Elt F) f7 (planePieces x1 x2 x3 x4)) (ix3 p r q) = outBlk x1 x2 x3 x4 x5 x6 (ix3 p r q) := by
  have hx : ∀ (n : Nat) (hn : n = p.val) (a : Fin 3), ((ix3 p r q : S5x8x4096.Idx) a).val = (![n, 0, 0] : Fin 3 → Nat) a + ((ix3 (0 : Fin 1) r q : S1x8x4096.Idx) a).val :=
    fun n hn a => match a with
      | ⟨0, _⟩ => by show p.val = n + 0; omega
      | ⟨1, _⟩ => by show r.val = 0 + r.val; omega
      | ⟨2, _⟩ => by show q.val = 0 + q.val; omega
  match p, hp, hx with
  | ⟨4, _⟩, _, hx =>
    rw [View.read_writes_cons_unit_of_mem arg7.view f7 inb_S5x8x4096_S1x8x4096_4_0_0 _ _ _ (ix3 (0 : Fin 1) r q) rfl (hx 4 rfl), pay4_apply]
    rfl
  | ⟨3, _⟩, _, hx =>
    rw [View.read_writes_cons_unit_of_not_mem arg7.view f7 inb_S5x8x4096_S1x8x4096_4_0_0 _ _ _ rfl (0 : Fin 3) (Or.inl (show (3 : Nat) < 4 by omega)),
      View.read_writes_cons_unit_of_mem arg7.view f7 inb_S5x8x4096_S1x8x4096_3_0_0 _ _ _ (ix3 (0 : Fin 1) r q) rfl (hx 3 rfl), pay3_apply]
    rfl
  | ⟨2, _⟩, _, hx =>
    rw [View.read_writes_cons_unit_of_not_mem arg7.view f7 inb_S5x8x4096_S1x8x4096_4_0_0 _ _ _ rfl (0 : Fin 3) (Or.inl (show (2 : Nat) < 4 by omega)),
      View.read_writes_cons_unit_of_not_mem arg7.view f7 inb_S5x8x4096_S1x8x4096_3_0_0 _ _ _ rfl (0 : Fin 3) (Or.inl (show (2 : Nat) < 3 by omega)),
      View.read_writes_cons_unit_of_mem arg7.view f7 inb_S5x8x4096_S1x8x4096_2_0_0 _ _ _ (ix3 (0 : Fin 1) r q) rfl (hx 2 rfl), pay2_apply]
    rfl
  | ⟨1, _⟩, _, hx =>
    rw [View.read_writes_cons_unit_of_not_mem arg7.view f7 inb_S5x8x4096_S1x8x4096_4_0_0 _ _ _ rfl (0 : Fin 3) (Or.inl (show (1 : Nat) < 4 by omega)),
      View.read_writes_cons_unit_of_not_mem arg7.view f7 inb_S5x8x4096_S1x8x4096_3_0_0 _ _ _ rfl (0 : Fin 3) (Or.inl (show (1 : Nat) < 3 by omega)),
      View.read_writes_cons_unit_of_not_mem arg7.view f7 inb_S5x8x4096_S1x8x4096_2_0_0 _ _ _ rfl (0 : Fin 3) (Or.inl (show (1 : Nat) < 2 by omega)),
      View.read_writes_cons_unit_of_mem arg7.view f7 inb_S5x8x4096_S1x8x4096_1_0_0 _ _ _ (ix3 (0 : Fin 1) r q) rfl (hx 1 rfl), pay1_apply]
    rfl
  | ⟨0, _⟩, hp, _ => exact absurd hp (show ¬ (1 : Nat) ≤ 0 by omega)

end

/-! ## The loop's chunks, trip by trip -/

section
variable (c : Dev nD) (i : grid0.Coords) (arg1 : Memref sig .tc .vmem S8x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S8x4096 .i32) (harg5 : arg5.IsWhole) (arg6 : Memref sig .tc .vmem S63x8x4096 .f32) (harg6 : arg6.IsWhole) (arg7 : Memref sig .tc .vmem S5x8x4096 .f32) (harg7 : arg7.IsWhole)
variable (x1 x2 x3 x4 : Vec F S8x4096 .f32) (x5 : Vec F S8x4096 .i32) (x6 : Vec F S63x8x4096 .f32)

set_option maxHeartbeats 2000000 in
/-- After the plane stores and the first `n` trips of the loop, planes 1 to 4 and the first 1024 n columns of
    plane 0 read as `outBlk`: trip n stores the chunk of columns 1024 n to 1024 n + 1023 of plane 0, each element
    the select chain over the element's delay, the spike it reads back from plane 1 (stored before the loop and
    untouched by the trips before) and the old line's 63 slots at the same row and column. -/
theorem read_chunks (f7 : BufTy.Contents (Elt F) arg7.view.ty) :
    ∀ (n : Nat), n ≤ k0_t1_loop.trips → ∀ (p : Fin 5) (r : Fin 8) (q : Fin 4096), (1 ≤ p.val ∨ q.val < 1024 * n) →
      arg7.view.read (Elt F) (arg7.view.writes (Elt F) (arg7.view.writes (Elt F) f7 (planePieces x1 x2 x3 x4))
        (pb_k0_t1 (F := F) Variants.none c none i arg1 harg1 arg2 harg2 arg3 harg3 arg4 harg4 arg5 harg5 arg6 harg6 arg7 harg7 (harg5.unread x5) (harg6.unread x6)
          (arg7.view.writes (Elt F) f7 (planePieces x1 x2 x3 x4)) n)) (ix3 p r q)
        = outBlk x1 x2 x3 x4 x5 x6 (ix3 p r q) := by
  intro n
  induction n with
  | zero =>
    intro _ p r q h
    have hp : 1 ≤ p.val := by omega
    rw [pb_k0_t1.eq_1, View.writes_nil]
    exact read_planes x1 x2 x3 x4 x5 x6 arg7 f7 p r q hp
  | succ n ih =>
    intro hn p r q h
    have hk : n < k0_t1_loop.trips := hn
    have ih' := ih (Nat.le_of_lt hk)
    have h4 : k0_t1_loop.trips ≤ 4 := k0_t1_abs.2.1
    rw [show n + 1 = (⟨n, hk⟩ : Fin k0_t1_loop.trips).val + 1 from rfl, pb_k0_t1_succ, tripL_eq, View.writes_append]
    by_cases hit : p.val = 0 ∧ 1024 * n ≤ q.val ∧ q.val < 1024 * (n + 1)
    · obtain ⟨hp0, hlo, hhi⟩ := hit
      obtain rfl : p = 0 := Fin.ext hp0
      have hq' : q.val - 1024 * n < 1024 := by omega
      rw [View.read_writes_cons_unit_of_mem arg7.view _ (k0_off66_inb ⟨n, hk⟩) _ [] (ix3 (0 : Fin 5) r q)
          (ix3 (0 : Fin 1) r (⟨q.val - 1024 * n, hq'⟩ : Fin 1024)) (k0_off66_eq ⟨n, hk⟩)
          (fun a => match a with
            | ⟨0, _⟩ => by show (0 : Nat) = 0 + 0; rfl
            | ⟨1, _⟩ => by show r.val = 0 + r.val; omega
            | ⟨2, _⟩ => by show q.val = 1024 * n + (q.val - 1024 * n); omega),
        pay5_apply,
        trip_val arg5 harg5 arg6 harg6 arg7 x5 x6 ⟨n, hk⟩ _ r ⟨q.val - 1024 * n, hq'⟩ q (by show q.val = 1024 * n + (q.val - 1024 * n); omega),
        ih' (1 : Fin 5) r q (Or.inl (by decide)), outBlk_1, outBlk_0]
    · have hmiss : (1 ≤ p.val) ∨ (q.val < 1024 * n ∨ 1024 * (n + 1) ≤ q.val) := by omega
      rcases hmiss with hp | hq
      · rw [View.read_writes_cons_unit_of_not_mem arg7.view _ (k0_off66_inb ⟨n, hk⟩) _ [] (ix3 p r q) (k0_off66_eq ⟨n, hk⟩) (0 : Fin 3)
            (Or.inr (by show 0 + 1 ≤ p.val; omega)), View.writes_nil]
        exact ih' p r q (Or.inl hp)
      · rw [View.read_writes_cons_unit_of_not_mem arg7.view _ (k0_off66_inb ⟨n, hk⟩) _ [] (ix3 p r q) (k0_off66_eq ⟨n, hk⟩) (2 : Fin 3)
            (by show q.val < 1024 * n ∨ 1024 * n + 1024 ≤ q.val; omega), View.writes_nil]
        exact ih' p r q (by omega)

/-- What the body's stores leave in the output buffer reads as `outBlk` of the input blocks, whatever the buffer
    held before: the four plane stores and the loop's four chunk stores cover the block. -/
theorem block_eq (f7 : BufTy.Contents (Elt F) arg7.view.ty) :
    arg7.view.read (Elt F) (arg7.view.writes (Elt F) f7
      (pb_k0_t1 (F := F) Variants.none c none i arg1 harg1 arg2 harg2 arg3 harg3 arg4 harg4 arg5 harg5 arg6 harg6 arg7 harg7 (harg5.unread x5) (harg6.unread x6)
          (arg7.view.writes (Elt F) f7 (planePieces x1 x2 x3 x4)) (Scf.trips k0_t1_loop.lb k0_t1_loop.ub k0_t1_loop.st)
        ++ planePieces x1 x2 x3 x4))
      = outBlk x1 x2 x3 x4 x5 x6 := by
  funext y
  obtain ⟨p, r, q, rfl⟩ : ∃ (p : Fin 5) (r : Fin 8) (q : Fin 4096), y = ix3 p r q := ⟨y 0, y 1, y 2, eq_ix3 y⟩
  have ht : k0_t1_loop.trips = 4 := by decide
  rw [View.writes_append]
  exact read_chunks c i arg1 harg1 arg2 harg2 arg3 harg3 arg4 harg4 arg5 harg5 arg6 harg6 arg7 harg7 x1 x2 x3 x4 x5 x6 f7 k0_t1_loop.trips (Nat.le_refl _) p r q
    (Or.inr (by have := q.isLt; omega))

end

end Cert.Kernel.Body

end
-- ==== Proof.KBody.lean ====
/-
  The kernel body at one grid point and the pipeline around it. The body reads its six input blocks whole, stores
  the four planes of the neuron update, then fills plane 0 in four chunks of 1024 columns by the loop; what the
  output buffer then holds is `outBlk` of the input blocks (`block_eq`). The old delay line's window takes 63 of
  the array's 64 slots from slot 0 on, so every one of its blocks lies inside the array and a fetch fills the whole
  staging buffer: the body finds the block itself there, whatever the buffer held before.
-/
import proofs.«429760_j76124000354679_3_alg».proof.Proof.KBlockEq

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- On whole staging memrefs, the inputs' at their contents and the output's at anything, the body runs to the
    continuation holding the inputs' as they were and the output's at `outBlk` of the inputs. -/
theorem sound_kernel (c : Dev nD) (E : Set ℕ) (i : grid0.Coords) (arg1 : Memref sig .tc .vmem S8x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S8x4096 .i32) (harg5 : arg5.IsWhole) (arg6 : Memref sig .tc .vmem S63x8x4096 .f32) (harg6 : arg6.IsWhole) (arg7 : Memref sig .tc .vmem S5x8x4096 .f32) (harg7 : arg7.IsWhole)
    (x1 x2 x3 x4 : Vec F S8x4096 .f32) (x5 : Vec F S8x4096 .i32) (x6 : Vec F S63x8x4096 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare (outBlk x1 x2 x3 x4 x5 x6)) -∗ K ⟨⟩))
      ⊢ wp frame (wpE (defs₀ (F := F)) Variants.none c none) E (cc0__lif_kernel i arg1 harg1 arg2 harg2 arg3 harg3 arg4 harg4 arg5 harg5 arg6 harg6 arg7 harg7) K := by
  simp only [cc0__lif_kernel_eq_skeleton]; unfold cc0__lif_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_run_names
  have hz2 : (![0, 0] : Fin 2 → Nat) = fun _ => 0 := funext fun a => by fin_cases a <;> rfl
  simp only [View.readAt_eq_ld, harg1.read_unread, harg2.read_unread, harg3.read_unread, harg4.read_unread,
    View.ld_unit_zero (S := S8x4096) hz2]
  exact block_eq c i arg1 harg1 arg2 harg2 arg3 harg3 arg4 harg4 arg5 harg5 arg6 harg6 arg7 harg7 x1 x2 x3 x4 x5 x6 f7

/-! ## The pipeline's proof data -/

/-- The old delay line's block at point `t` as its staging buffer holds it after the fetch: the array's 63 slots
    by 8 rows by 4096 columns at the point's rows (the filler is never seen: no part of the block is cut). -/
def x6blk (c : Dev nD) (t : Fin cfg0.N) : Vec F S63x8x4096 .f32 :=
  win0_5.fill (grid0.coords t) (fun _ => zeroW (F := F)) (iblk m c 5 t)

/-- The proof data of the one pipeline on core `c`: the arrays as the region finds them; after the body at point
    `t` each input's buffer at its block and the output's at `outBlk` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => x6blk m c t
    | ⟨6, _⟩ => outBlk (iblk m c 0 t) (iblk m c 1 t) (iblk m c 2 t) (iblk m c 3 t) (iblk m c 4 t) (x6blk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = x6blk m c t := by dsimp only [dats]
theorem after0_6 (c : Dev nD) (t : Fin cfg0.N) : (dats m 0 c).after 6 t
    = outBlk (iblk m c 0 t) (iblk m c 1 t) (iblk m c 2 t) (iblk m c 3 t) (iblk m c 4 t) (x6blk m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- No block of the old delay line's window is cut: slots 0 to 62 of 64, rows 8t to 8t + 7 of 512, all columns. -/
theorem clip0_5 : ∀ (t : Fin cfg0.N) (a : Fin (cfg0.win 5).shape.rank), (cfg0.win 5).clip (cfg0.grid.coords t) a = none :=
  (by decide +kernel : ∀ (t : Fin grid0.N) (a : Fin win0_5.shape.rank), win0_5.clip (grid0.coords t) a = none)

/-- So the body finds the old line's buffer at the whole block, whatever it held before the fetch. -/
theorem before0_5 (c : Dev nD) (t : Fin cfg0.N) (d) : (dats m 0 c).before 5 t d = x6blk m c t := by
  unfold Dat.before
  rw [if_pos (fetch0_5 t), (dats m 0 c).fetched_of_clip_none 5 t (clip0_5 t) d (fun _ => zeroW (F := F))]
  unfold Dat.fetched Dat.blockOf x6blk iblk
  rw [A_eq]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare
        ((cfg0.win 5).fill (cfg0.grid.coords t) d ((cfg0.win 5).cut (cfg0.grid.coords t) ((dats m 0 c).after 5 t))))
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (x6blk m c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iexists (x6blk m c t); rw [(cfg0.win 5).fill_cut]; iexact H5
  iexact H6

theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.KIBlock.lean ====
/-
  What one grid point leaves in the kernel's output block, as ONE function of the six input blocks: the block is
  five planes of 8 rows by 4096 columns. Planes 1 to 4 are the neuron update on the point's rows (spike, new
  potential, new current, new refractory variable: the body's own arithmetic terms, element by element); plane 0
  is the delay line read at each element's delay: the clamped delay run through the chain of selects, slot 0 taking
  the spike of plane 1 and slot s + 1 the old line's slot s at the same row and column.
-/
import proofs.«429760_j76124000354679_3_alg».proof.Proof.Gen.KernelIdeal.Skeleton
import proofs.«429760_j76124000354679_3_alg».proof.Proof.Gen.KernelIdeal.Loops
import proofs.«429760_j76124000354679_3_alg».proof.Proof.Gen.KernelIdeal.Launch
import proofs.«429760_j76124000354679_3_alg».proof.Proof.Gen.KernelIdeal.Points
import proofs.«429760_j76124000354679_3_alg».proof.Proof.Gen.KernelIdeal.Frame
import proofs.«429760_j76124000354679_3_alg».proof.Proof.Chain
import Idealize.ShloMosaic.Lib.Pipeline.FrameBody
import Idealize.ShloMosaic.Lib.Pipeline.FrameSuffix
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The row and column of an element of the output block. -/
abbrev rc (j : S5x8x4096.Idx) : S8x4096.Idx :=
  ValueIdx.ix2 (n0 := 8) (n1 := 4096) ⟨(j 1).val, (j 1).isLt⟩ ⟨(j 2).val, (j 2).isLt⟩

/-- Slot `s` of the old delay line at the row and column of an element of the output block. -/
abbrev slotAt (j : S5x8x4096.Idx) (s : Fin 63) : S63x8x4096.Idx :=
  ValueIdx.ix3 (n0 := 63) (n1 := 8) (n2 := 4096) s ⟨(j 1).val, (j 1).isLt⟩ ⟨(j 2).val, (j 2).isLt⟩

/-- The filler of the select chain: the zero word. -/
abbrev zeroW : F .f32 := Scalar.ofBits .f32 0x00000000#32

/-- The output block of one grid point from its input blocks (i_new, v, i, rho, delay, old line). -/
def outBlk (x1 x2 x3 x4 : Vec F S8x4096 .f32) (x5 : Vec F S8x4096 .i32) (x6 : Vec F S63x8x4096 .f32) : Vec F S5x8x4096 .f32 :=
  fun j => match (j 0).val with
    | 0 => Cert.Lif.chainAt (x5 (rc j)) (k0_pay31 x2 x3 x4 (rc j)) (zeroW (F := F)) (fun s => x6 (slotAt j s))
    | 1 => k0_pay31 x2 x3 x4 (rc j)
    | 2 => k0_pay32 x2 x3 x4 (rc j)
    | 3 => k0_pay30 x3 x1 (rc j)
    | _ => k0_pay33 x2 x3 x4 (rc j)

end Cert.KernelIdeal.Body

end
-- ==== Proof.KITrip.lean ====
/-
  One trip of the kernel's chunk loop, read at one element. Trip k handles columns 1024·k … 1024·k + 1023 of the
  8 × 4096 block. What it stores at row r and column q of its 8 × 1024 chunk is the last of a chain of 64 selects
  on the clamped delay of that element: the first select picks, for delay 0, the spike the body already stored in
  plane 1 of the output block (else the zero word), and select number n ≥ 1 picks, for delay n, slot n − 1 of the old
  delay line at the same row and column. Read at the element this is exactly the chain of the specification, on the
  delay x5 (r, 1024·k + q), the stored spike at (1, r, 1024·k + q) and the old line's slots at (s, r, 1024·k + q).
-/
import proofs.«429760_j76124000354679_3_alg».proof.Proof.KIBlock

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- A loop trip counts below 4. -/
theorem trip_lt (k : Fin k0_t1_loop.trips) : k.val < 4 := Nat.lt_of_lt_of_le k.isLt k0_t1_abs.2.1

/-! ## A chunk load read at an element

A trip loads [1, 8, 1024] chunks of a three-axis block (the old delay line, the output block) and an [8, 1024] chunk
of the delay block, at offsets that are closed forms of the trip. Read at row r and column q of the chunk, with the
unit axis cast away, such a load is the block's contents at (plane, r, column offset + q). -/

/-- A [1, 8, 1024] chunk of a view of [n0, 8, 4096], its unit axis cast away, at row r and column q. -/
theorem chunk3_apply {n0 : Nat} {κ : Kind} {sp : Space} (v : View sig κ sp ⟨3, ![n0, 8, 4096]⟩ .f32)
    (f : v.ty.Contents (Elt F)) (off : Fin 3 → Nat) [co : ClosedOff off]
    (inb : ∀ a, off a + S1x8x1024.size a ≤ (⟨3, ![n0, 8, 4096]⟩ : Shape).size a)
    (h : (⟨3, S1x8x1024.size⟩ : Shape).ShapeCasts S8x1024)
    (r : Fin 8) (q : Fin 1024) (p : Fin n0) (c : Fin 4096) (hp : p.val = co.form 0) (hcq : c.val = co.form 2 + q.val) :
    shapeCast S8x1024 (View.readAt (Elt F) v (Rect.unit (s := ⟨3, ![n0, 8, 4096]⟩) off S1x8x1024.size inb).toLoadRect f) h (ValueIdx.ix2 r q)
      = v.read (Elt F) f (ValueIdx.ix3 p r c) := by
  have e0 : off 0 = co.form 0 := congrFun co.eq 0
  have e2 : off 2 = co.form 2 := congrFun co.eq 2
  have h1 : off 1 + 8 ≤ 8 := inb 1
  refine (shapeCast_dropUnit_apply ![8, 1024] _ h (ValueIdx.ix2 r q)).trans ?_
  show v.read (Elt F) f ((Rect.unit (s := ⟨3, ![n0, 8, 4096]⟩) off S1x8x1024.size inb).toLoadRect.idx (Fin.cons ⟨0, Nat.one_pos⟩ (ValueIdx.ix2 r q))) = _
  congr 1
  funext a
  match a with
  | ⟨0, _⟩ => exact Fin.ext (by show off 0 + 1 * 0 = p.val; omega)
  | ⟨1, _⟩ => exact Fin.ext (by show off 1 + 1 * r.val = r.val; omega)
  | ⟨2, _⟩ => exact Fin.ext (by show off 2 + 1 * q.val = c.val; omega)

/-- The same through a whole memref whose contents read x. -/
theorem chunk3_unread_apply {n0 : Nat} (m : Memref sig .tc .vmem ⟨3, ![n0, 8, 4096]⟩ .f32) (hm : m.IsWhole)
    (x : Vec F ⟨3, ![n0, 8, 4096]⟩ .f32) (off : Fin 3 → Nat) [co : ClosedOff off]
    (inb : ∀ a, off a + S1x8x1024.size a ≤ (⟨3, ![n0, 8, 4096]⟩ : Shape).size a)
    (h : (⟨3, S1x8x1024.size⟩ : Shape).ShapeCasts S8x1024)
    (r : Fin 8) (q : Fin 1024) (p : Fin n0) (c : Fin 4096) (hp : p.val = co.form 0) (hcq : c.val = co.form 2 + q.val) :
    shapeCast S8x1024 (View.readAt (Elt F) m.view (Rect.unit (s := ⟨3, ![n0, 8, 4096]⟩) off S1x8x1024.size inb).toLoadRect (hm.unread x)) h
        (ValueIdx.ix2 r q) = x (ValueIdx.ix3 p r c) := by
  rw [chunk3_apply m.view _ off inb h r q p c hp hcq, hm.read_unread]

/-- The clamped delay of an [8, 1024] chunk of the delay block, at row r and column q. -/
theorem clamp_chunk_apply (m : Memref sig .tc .vmem S8x4096 .i32) (hm : m.IsWhole) (x : Vec F S8x4096 .i32)
    (off : Fin 2 → Nat) [co : ClosedOff off] (inb : ∀ a, off a + S8x1024.size a ≤ S8x4096.size a)
    (r : Fin 8) (q : Fin 1024) (c : Fin 4096) (hcq : c.val = co.form 1 + q.val) :
    k0_pay6 (F := F) (View.readAt (Elt F) m.view (Rect.unit (s := S8x4096) off S8x1024.size inb).toLoadRect (hm.unread x)) (ValueIdx.ix2 r q)
      = Cert.Lif.clampDelay (x (ValueIdx.ix2 r c)) := by
  have e1 : off 1 = co.form 1 := congrFun co.eq 1
  have h0 : off 0 + 8 ≤ 8 := inb 0
  have e : (Rect.unit (s := S8x4096) off S8x1024.size inb).toLoadRect.idx (ValueIdx.ix2 r q) = ValueIdx.ix2 r c := by
    funext a
    match a with
    | ⟨0, _⟩ => exact Fin.ext (by show off 0 + 1 * r.val = r.val; omega)
    | ⟨1, _⟩ => exact Fin.ext (by show off 1 + 1 * q.val = c.val; omega)
  have hs : shapeCast S8x1024
      (View.readAt (Elt F) m.view (Rect.unit (s := S8x4096) off S8x1024.size inb).toLoadRect (hm.unread x))
      shapeCasts_S8x1024_S8x1024 (ValueIdx.ix2 r q) = x (ValueIdx.ix2 r c) := by
    refine (congrFun (shapeCast_self (s := S8x1024) _ shapeCasts_S8x1024_S8x1024) (ValueIdx.ix2 r q)).trans ?_
    show m.view.read (Elt F) (hm.unread x)
      ((Rect.unit (s := S8x4096) off S8x1024.size inb).toLoadRect.idx (ValueIdx.ix2 r q)) = _
    rw [e, hm.read_unread]
  show IntOp.minsi 63#32 (IntOp.maxsi 0#32 (shapeCast S8x1024
      (View.readAt (Elt F) m.view (Rect.unit (s := S8x4096) off S8x1024.size inb).toLoadRect (hm.unread x))
      shapeCasts_S8x1024_S8x1024 (ValueIdx.ix2 r q))) = _
  rw [hs]
  rfl

/-! ## The chain, one select at a time -/

/-- The first select of the chain at an element. -/
theorem chain_base {α : Type} (d' : BitVec 32) (z fill : α) (b : Fin 63 → α)
    (cnd : IVec S8x1024 1) (x acc : S8x1024.Idx → α) (j : S8x1024.Idx)
    (hc : cnd j = IntOp.cmpi .eq d' 0#32) (hx : x j = z) (hacc : acc j = fill) :
    select cnd x acc j = Cert.Lif.chainTo d' z fill b 0 := by
  rw [Cert.Lif.chainTo, ← hc, ← hx, ← hacc]; rfl

/-- Select number n + 1 of the chain at an element. -/
theorem chain_step {α : Type} (d' : BitVec 32) (z fill : α) (b : Fin 63 → α) (n : Nat) (hn : n < 63)
    (cnd : IVec S8x1024 1) (x acc : S8x1024.Idx → α) (j : S8x1024.Idx)
    (hc : cnd j = IntOp.cmpi .eq d' (BitVec.ofNat 32 (n + 1))) (hx : x j = b ⟨n, hn⟩)
    (hacc : acc j = Cert.Lif.chainTo d' z fill b n) :
    select cnd x acc j = Cert.Lif.chainTo d' z fill b (n + 1) := by
  rw [Cert.Lif.chainTo, dif_pos hn, ← hc, ← hx, ← hacc]; rfl

/-- THE TRIP AT AN ELEMENT: what trip k leaves at row r, column q of its chunk is the specification's chain of
    selects on that element's delay, the stored spike and the old delay line's 63 readable slots, all read at
    row r and column 1024·k + q of the block. -/
theorem trip_val (arg5 : Memref sig .tc .vmem S8x4096 .i32) (harg5 : arg5.IsWhole)
    (arg6 : Memref sig .tc .vmem S63x8x4096 .f32) (harg6 : arg6.IsWhole)
    (arg7 : Memref sig .tc .vmem S5x8x4096 .f32)
    (x5 : Vec F S8x4096 .i32) (x6 : Vec F S63x8x4096 .f32) (k : Fin k0_t1_loop.trips)
    (g : BufTy.Contents (Elt F) arg7.view.ty) (r : Fin 8) (q : Fin 1024)
    (col : Fin 4096) (hcol : col.val = 1024 * k.val + q.val) :
    trip_k0_t1.sl.v573 (F := F) arg5 arg6 arg7 (harg5.unread x5) (harg6.unread x6) k g (ValueIdx.ix2 r q)
      = Cert.Lif.chainAt (x5 (ValueIdx.ix2 r col))
          (arg7.view.read (Elt F) g (ValueIdx.ix3 (1 : Fin 5) r col)) (zeroW (F := F))
          (fun s : Fin 63 => x6 (ValueIdx.ix3 s r col)) := by
  have hr : trip_k0_t1.sl.r (F := F) arg5 (harg5.unread x5) k (ValueIdx.ix2 r q)
      = Cert.Lif.clampDelay (x5 (ValueIdx.ix2 r col)) :=
    clamp_chunk_apply arg5 harg5 x5 _ _ r q col (by exact hcol)
  unfold Cert.Lif.chainAt
  rw [← hr]
  iterate 63
    refine chain_step _ _ _ _ _ (by omega) _ _ _ _ (by rfl)
      (chunk3_unread_apply arg6 harg6 x6 _ _ _ r q _ col (by rfl) (by exact hcol)) ?_
  exact chain_base _ _ _ _ _ _ _ _ (by rfl)
    (chunk3_apply arg7.view g _ _ _ r q _ col (by rfl) (by exact hcol)) (by rfl)

end Cert.KernelIdeal.Body

end
-- ==== Proof.KIBlockEq.lean ====
/-
  What the body's stores leave in the output buffer. The body stores planes 4, 3, 2, 1 whole and then, trip by
  trip, the four chunks of plane 0. Reading the buffer back newest store first: an element of planes 1 to 4 is
  under exactly its plane's store; an element of plane 0 at column 1024 n + q is under trip n's store, whose
  payload there is the select chain over the element's delay, the spike read back from plane 1 (stored before the
  loop, and no trip touches plane 1) and the old line's slots. Every element is under some store, so the buffer's
  earlier contents do not matter.
-/
import proofs.«429760_j76124000354679_3_alg».proof.Proof.KITrip
import Idealize.ShloMosaic.Lib.WritesUnit

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-- The four whole-plane stores of the neuron update, last first. -/
abbrev planePieces (x1 x2 x3 x4 : Vec F S8x4096 .f32) : List (View.Piece (Elt F) S5x8x4096 .f32) :=
    [⟨Rect.unit (s := S5x8x4096) ![4, 0, 0] S1x8x4096.size inb_S5x8x4096_S1x8x4096_4_0_0, k0_pay4 (k0_pay33 x2 x3 x4)⟩,
      ⟨Rect.unit (s := S5x8x4096) ![3, 0, 0] S1x8x4096.size inb_S5x8x4096_S1x8x4096_3_0_0, k0_pay3 (k0_pay30 x3 x1)⟩,
      ⟨Rect.unit (s := S5x8x4096) ![2, 0, 0] S1x8x4096.size inb_S5x8x4096_S1x8x4096_2_0_0, k0_pay2 (k0_pay32 x2 x3 x4)⟩,
      ⟨Rect.unit (s := S5x8x4096) ![1, 0, 0] S1x8x4096.size inb_S5x8x4096_S1x8x4096_1_0_0, k0_pay1 (k0_pay31 x2 x3 x4)⟩]

/-- One trip's stored piece: the chunk of plane 0 at columns 1024 k to 1024 k + 1023. -/
theorem tripL_eq (c : Dev nD) (i : grid0.Coords) (arg1 : Memref sig .tc .vmem S8x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S8x4096 .i32) (harg5 : arg5.IsWhole) (arg6 : Memref sig .tc .vmem S63x8x4096 .f32) (harg6 : arg6.IsWhole) (arg7 : Memref sig .tc .vmem S5x8x4096 .f32) (harg7 : arg7.IsWhole)
    (X5 : BufTy.Contents (Elt F) arg5.view.ty) (X6 : BufTy.Contents (Elt F) arg6.view.ty) (k : Fin k0_t1_loop.trips) (g : BufTy.Contents (Elt F) arg7.view.ty) :
    tripL_k0_t1 (F := F) Variants.none c none i arg1 harg1 arg2 harg2 arg3 harg3 arg4 harg4 arg5 harg5 arg6 harg6 arg7 harg7 X5 X6 k g
      = [⟨Rect.unit (s := S5x8x4096) (k0_off66 k) S1x8x1024.size (k0_off66_inb k), k0_pay5 (trip_k0_t1.sl.v573 (F := F) arg5 arg6 arg7 X5 X6 k g)⟩] := by
  unfold tripL_k0_t1 trip_k0_t1
  rfl

/-! ## A stored plane or chunk read at its coordinates -/

theorem pay1_apply (v : FVec F S8x4096 .f32) (r : Fin 8) (q : Fin 4096) : k0_pay1 v (ix3 (0 : Fin 1) r q) = v (ix2 r q) := by
  unfold k0_pay1
  exact (shapeCast_addUnit_apply ![8, 4096] v _ (ix3 (0 : Fin 1) r q)).trans
    (congrArg v (funext fun a => match a with | ⟨0, _⟩ => rfl | ⟨1, _⟩ => rfl))
theorem pay2_apply (v : FVec F S8x4096 .f32) (r : Fin 8) (q : Fin 4096) : k0_pay2 v (ix3 (0 : Fin 1) r q) = v (ix2 r q) := by
  unfold k0_pay2
  exact (shapeCast_addUnit_apply ![8, 4096] v _ (ix3 (0 : Fin 1) r q)).trans
    (congrArg v (funext fun a => match a with | ⟨0, _⟩ => rfl | ⟨1, _⟩ => rfl))
theorem pay3_apply (v : FVec F S8x4096 .f32) (r : Fin 8) (q : Fin 4096) : k0_pay3 v (ix3 (0 : Fin 1) r q) = v (ix2 r q) := by
  unfold k0_pay3
  exact (shapeCast_addUnit_apply ![8, 4096] v _ (ix3 (0 : Fin 1) r q)).trans
    (congrArg v (funext fun a => match a with | ⟨0, _⟩ => rfl | ⟨1, _⟩ => rfl))
theorem pay4_apply (v : FVec F S8x4096 .f32) (r : Fin 8) (q : Fin 4096) : k0_pay4 v (ix3 (0 : Fin 1) r q) = v (ix2 r q) := by
  unfold k0_pay4
  exact (shapeCast_addUnit_apply ![8, 4096] v _ (ix3 (0 : Fin 1) r q)).trans
    (congrArg v (funext fun a => match a with | ⟨0, _⟩ => rfl | ⟨1, _⟩ => rfl))
theorem pay5_apply (v : FVec F S8x1024 .f32) (r : Fin 8) (q : Fin 1024) : k0_pay5 v (ix3 (0 : Fin 1) r q) = v (ix2 r q) := by
  unfold k0_pay5
  exact (shapeCast_addUnit_apply ![8, 1024] v _ (ix3 (0 : Fin 1) r q)).trans
    (congrArg v (funext fun a => match a with | ⟨0, _⟩ => rfl | ⟨1, _⟩ => rfl))

/-! ## The output block by plane -/

section
variable (x1 x2 x3 x4 : Vec F S8x4096 .f32) (x5 : Vec F S8x4096 .i32) (x6 : Vec F S63x8x4096 .f32)

theorem outBlk_0 (r : Fin 8) (q : Fin 4096) : outBlk x1 x2 x3 x4 x5 x6 (ix3 (0 : Fin 5) r q)
    = Cert.Lif.chainAt (x5 (ix2 r q)) (k0_pay31 x2 x3 x4 (ix2 r q)) (zeroW (F := F)) (fun s : Fin 63 => x6 (ix3 s r q)) := rfl
theorem outBlk_1 (r : Fin 8) (q : Fin 4096) : outBlk x1 x2 x3 x4 x5 x6 (ix3 (1 : Fin 5) r q) = k0_pay31 x2 x3 x4 (ix2 r q) := rfl
theorem outBlk_2 (r : Fin 8) (q : Fin 4096) : outBlk x1 x2 x3 x4 x5 x6 (ix3 (2 : Fin 5) r q) = k0_pay32 x2 x3 x4 (ix2 r q) := rfl
theorem outBlk_3 (r : Fin 8) (q : Fin 4096) : outBlk x1 x2 x3 x4 x5 x6 (ix3 (3 : Fin 5) r q) = k0_pay30 x3 x1 (ix2 r q) := rfl
theorem outBlk_4 (r : Fin 8) (q : Fin 4096) : outBlk x1 x2 x3 x4 x5 x6 (ix3 (4 : Fin 5) r q) = k0_pay33 x2 x3 x4 (ix2 r q) := rfl

/-- After the four plane stores, planes 1 to 4 of the buffer read as `outBlk`. -/
theorem read_planes (arg7 : Memref sig .tc .vmem S5x8x4096 .f32) (f7 : BufTy.Contents (Elt F) arg7.view.ty)
    (p : Fin 5) (r : Fin 8) (q : Fin 4096) (hp : 1 ≤ p.val) :
    arg7.view.read (Elt F) (arg7.view.writes (Elt F) f7 (planePieces x1 x2 x3 x4)) (ix3 p r q) = outBlk x1 x2 x3 x4 x5 x6 (ix3 p r q) := by
  have hx : ∀ (n : Nat) (hn : n = p.val) (a : Fin 3), ((ix3 p r q : S5x8x4096.Idx) a).val = (![n, 0, 0] : Fin 3 → Nat) a + ((ix3 (0 : Fin 1) r q : S1x8x4096.Idx) a).val :=
    fun n hn a => match a with
      | ⟨0, _⟩ => by show p.val = n + 0; omega
      | ⟨1, _⟩ => by show r.val = 0 + r.val; omega
      | ⟨2, _⟩ => by show q.val = 0 + q.val; omega
  match p, hp, hx with
  | ⟨4, _⟩, _, hx =>
    rw [View.read_writes_cons_unit_of_mem arg7.view f7 inb_S5x8x4096_S1x8x4096_4_0_0 _ _ _ (ix3 (0 : Fin 1) r q) rfl (hx 4 rfl), pay4_apply]
    rfl
  | ⟨3, _⟩, _, hx =>
    rw [View.read_writes_cons_unit_of_not_mem arg7.view f7 inb_S5x8x4096_S1x8x4096_4_0_0 _ _ _ rfl (0 : Fin 3) (Or.inl (show (3 : Nat) < 4 by omega)),
      View.read_writes_cons_unit_of_mem arg7.view f7 inb_S5x8x4096_S1x8x4096_3_0_0 _ _ _ (ix3 (0 : Fin 1) r q) rfl (hx 3 rfl), pay3_apply]
    rfl
  | ⟨2, _⟩, _, hx =>
    rw [View.read_writes_cons_unit_of_not_mem arg7.view f7 inb_S5x8x4096_S1x8x4096_4_0_0 _ _ _ rfl (0 : Fin 3) (Or.inl (show (2 : Nat) < 4 by omega)),
      View.read_writes_cons_unit_of_not_mem arg7.view f7 inb_S5x8x4096_S1x8x4096_3_0_0 _ _ _ rfl (0 : Fin 3) (Or.inl (show (2 : Nat) < 3 by omega)),
      View.read_writes_cons_unit_of_mem arg7.view f7 inb_S5x8x4096_S1x8x4096_2_0_0 _ _ _ (ix3 (0 : Fin 1) r q) rfl (hx 2 rfl), pay2_apply]
    rfl
  | ⟨1, _⟩, _, hx =>
    rw [View.read_writes_cons_unit_of_not_mem arg7.view f7 inb_S5x8x4096_S1x8x4096_4_0_0 _ _ _ rfl (0 : Fin 3) (Or.inl (show (1 : Nat) < 4 by omega)),
      View.read_writes_cons_unit_of_not_mem arg7.view f7 inb_S5x8x4096_S1x8x4096_3_0_0 _ _ _ rfl (0 : Fin 3) (Or.inl (show (1 : Nat) < 3 by omega)),
      View.read_writes_cons_unit_of_not_mem arg7.view f7 inb_S5x8x4096_S1x8x4096_2_0_0 _ _ _ rfl (0 : Fin 3) (Or.inl (show (1 : Nat) < 2 by omega)),
      View.read_writes_cons_unit_of_mem arg7.view f7 inb_S5x8x4096_S1x8x4096_1_0_0 _ _ _ (ix3 (0 : Fin 1) r q) rfl (hx 1 rfl), pay1_apply]
    rfl
  | ⟨0, _⟩, hp, _ => exact absurd hp (show ¬ (1 : Nat) ≤ 0 by omega)

end

/-! ## The loop's chunks, trip by trip -/

section
variable (c : Dev nD) (i : grid0.Coords) (arg1 : Memref sig .tc .vmem S8x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S8x4096 .i32) (harg5 : arg5.IsWhole) (arg6 : Memref sig .tc .vmem S63x8x4096 .f32) (harg6 : arg6.IsWhole) (arg7 : Memref sig .tc .vmem S5x8x4096 .f32) (harg7 : arg7.IsWhole)
variable (x1 x2 x3 x4 : Vec F S8x4096 .f32) (x5 : Vec F S8x4096 .i32) (x6 : Vec F S63x8x4096 .f32)

set_option maxHeartbeats 2000000 in
/-- After the plane stores and the first `n` trips of the loop, planes 1 to 4 and the first 1024 n columns of
    plane 0 read as `outBlk`: trip n stores the chunk of columns 1024 n to 1024 n + 1023 of plane 0, each element
    the select chain over the element's delay, the spike it reads back from plane 1 (stored before the loop and
    untouched by the trips before) and the old line's 63 slots at the same row and column. -/
theorem read_chunks (f7 : BufTy.Contents (Elt F) arg7.view.ty) :
    ∀ (n : Nat), n ≤ k0_t1_loop.trips → ∀ (p : Fin 5) (r : Fin 8) (q : Fin 4096), (1 ≤ p.val ∨ q.val < 1024 * n) →
      arg7.view.read (Elt F) (arg7.view.writes (Elt F) (arg7.view.writes (Elt F) f7 (planePieces x1 x2 x3 x4))
        (pb_k0_t1 (F := F) Variants.none c none i arg1 harg1 arg2 harg2 arg3 harg3 arg4 harg4 arg5 harg5 arg6 harg6 arg7 harg7 (harg5.unread x5) (harg6.unread x6)
          (arg7.view.writes (Elt F) f7 (planePieces x1 x2 x3 x4)) n)) (ix3 p r q)
        = outBlk x1 x2 x3 x4 x5 x6 (ix3 p r q) := by
  intro n
  induction n with
  | zero =>
    intro _ p r q h
    have hp : 1 ≤ p.val := by omega
    rw [pb_k0_t1.eq_1, View.writes_nil]
    exact read_planes x1 x2 x3 x4 x5 x6 arg7 f7 p r q hp
  | succ n ih =>
    intro hn p r q h
    have hk : n < k0_t1_loop.trips := hn
    have ih' := ih (Nat.le_of_lt hk)
    have h4 : k0_t1_loop.trips ≤ 4 := k0_t1_abs.2.1
    rw [show n + 1 = (⟨n, hk⟩ : Fin k0_t1_loop.trips).val + 1 from rfl, pb_k0_t1_succ, tripL_eq, View.writes_append]
    by_cases hit : p.val = 0 ∧ 1024 * n ≤ q.val ∧ q.val < 1024 * (n + 1)
    · obtain ⟨hp0, hlo, hhi⟩ := hit
      obtain rfl : p = 0 := Fin.ext hp0
      have hq' : q.val - 1024 * n < 1024 := by omega
      rw [View.read_writes_cons_unit_of_mem arg7.view _ (k0_off66_inb ⟨n, hk⟩) _ [] (ix3 (0 : Fin 5) r q)
          (ix3 (0 : Fin 1) r (⟨q.val - 1024 * n, hq'⟩ : Fin 1024)) (k0_off66_eq ⟨n, hk⟩)
          (fun a => match a with
            | ⟨0, _⟩ => by show (0 : Nat) = 0 + 0; rfl
            | ⟨1, _⟩ => by show r.val = 0 + r.val; omega
            | ⟨2, _⟩ => by show q.val = 1024 * n + (q.val - 1024 * n); omega),
        pay5_apply,
        trip_val arg5 harg5 arg6 harg6 arg7 x5 x6 ⟨n, hk⟩ _ r ⟨q.val - 1024 * n, hq'⟩ q (by show q.val = 1024 * n + (q.val - 1024 * n); omega),
        ih' (1 : Fin 5) r q (Or.inl (by decide)), outBlk_1, outBlk_0]
    · have hmiss : (1 ≤ p.val) ∨ (q.val < 1024 * n ∨ 1024 * (n + 1) ≤ q.val) := by omega
      rcases hmiss with hp | hq
      · rw [View.read_writes_cons_unit_of_not_mem arg7.view _ (k0_off66_inb ⟨n, hk⟩) _ [] (ix3 p r q) (k0_off66_eq ⟨n, hk⟩) (0 : Fin 3)
            (Or.inr (by show 0 + 1 ≤ p.val; omega)), View.writes_nil]
        exact ih' p r q (Or.inl hp)
      · rw [View.read_writes_cons_unit_of_not_mem arg7.view _ (k0_off66_inb ⟨n, hk⟩) _ [] (ix3 p r q) (k0_off66_eq ⟨n, hk⟩) (2 : Fin 3)
            (by show q.val < 1024 * n ∨ 1024 * n + 1024 ≤ q.val; omega), View.writes_nil]
        exact ih' p r q (by omega)

/-- What the body's stores leave in the output buffer reads as `outBlk` of the input blocks, whatever the buffer
    held before: the four plane stores and the loop's four chunk stores cover the block. -/
theorem block_eq (f7 : BufTy.Contents (Elt F) arg7.view.ty) :
    arg7.view.read (Elt F) (arg7.view.writes (Elt F) f7
      (pb_k0_t1 (F := F) Variants.none c none i arg1 harg1 arg2 harg2 arg3 harg3 arg4 harg4 arg5 harg5 arg6 harg6 arg7 harg7 (harg5.unread x5) (harg6.unread x6)
          (arg7.view.writes (Elt F) f7 (planePieces x1 x2 x3 x4)) (Scf.trips k0_t1_loop.lb k0_t1_loop.ub k0_t1_loop.st)
        ++ planePieces x1 x2 x3 x4))
      = outBlk x1 x2 x3 x4 x5 x6 := by
  funext y
  obtain ⟨p, r, q, rfl⟩ : ∃ (p : Fin 5) (r : Fin 8) (q : Fin 4096), y = ix3 p r q := ⟨y 0, y 1, y 2, eq_ix3 y⟩
  have ht : k0_t1_loop.trips = 4 := by decide
  rw [View.writes_append]
  exact read_chunks c i arg1 harg1 arg2 harg2 arg3 harg3 arg4 harg4 arg5 harg5 arg6 harg6 arg7 harg7 x1 x2 x3 x4 x5 x6 f7 k0_t1_loop.trips (Nat.le_refl _) p r q
    (Or.inr (by have := q.isLt; omega))

end

end Cert.KernelIdeal.Body

end
-- ==== Proof.KIBody.lean ====
/-
  The kernel body at one grid point and the pipeline around it. The body reads its six input blocks whole, stores
  the four planes of the neuron update, then fills plane 0 in four chunks of 1024 columns by the loop; what the
  output buffer then holds is `outBlk` of the input blocks (`block_eq`). The old delay line's window takes 63 of
  the array's 64 slots from slot 0 on, so every one of its blocks lies inside the array and a fetch fills the whole
  staging buffer: the body finds the block itself there, whatever the buffer held before.
-/
import proofs.«429760_j76124000354679_3_alg».proof.Proof.KIBlockEq

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- On whole staging memrefs, the inputs' at their contents and the output's at anything, the body runs to the
    continuation holding the inputs' as they were and the output's at `outBlk` of the inputs. -/
theorem sound_kernel (c : Dev nD) (E : Set ℕ) (i : grid0.Coords) (arg1 : Memref sig .tc .vmem S8x4096 .f32) (harg1 : arg1.IsWhole) (arg2 : Memref sig .tc .vmem S8x4096 .f32) (harg2 : arg2.IsWhole) (arg3 : Memref sig .tc .vmem S8x4096 .f32) (harg3 : arg3.IsWhole) (arg4 : Memref sig .tc .vmem S8x4096 .f32) (harg4 : arg4.IsWhole) (arg5 : Memref sig .tc .vmem S8x4096 .i32) (harg5 : arg5.IsWhole) (arg6 : Memref sig .tc .vmem S63x8x4096 .f32) (harg6 : arg6.IsWhole) (arg7 : Memref sig .tc .vmem S5x8x4096 .f32) (harg7 : arg7.IsWhole)
    (x1 x2 x3 x4 : Vec F S8x4096 .f32) (x5 : Vec F S8x4096 .i32) (x6 : Vec F S63x8x4096 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ (∃ d, owns (c : Thread nD τ) arg7 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg7 fullShare (outBlk x1 x2 x3 x4 x5 x6)) -∗ K ⟨⟩))
      ⊢ wp frame (wpE (defs₀ (F := F)) Variants.none c none) E (cc0__lif_kernel i arg1 harg1 arg2 harg2 arg3 harg3 arg4 harg4 arg5 harg5 arg6 harg6 arg7 harg7) K := by
  simp only [cc0__lif_kernel_eq_skeleton]; unfold cc0__lif_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  sl_exec
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  iexists _; isplitr
  swap; · iexact H7
  ipureintro
  sl_unfold_run_names
  have hz2 : (![0, 0] : Fin 2 → Nat) = fun _ => 0 := funext fun a => by fin_cases a <;> rfl
  simp only [View.readAt_eq_ld, harg1.read_unread, harg2.read_unread, harg3.read_unread, harg4.read_unread,
    View.ld_unit_zero (S := S8x4096) hz2]
  exact block_eq c i arg1 harg1 arg2 harg2 arg3 harg3 arg4 harg4 arg5 harg5 arg6 harg6 arg7 harg7 x1 x2 x3 x4 x5 x6 f7

/-! ## The pipeline's proof data -/

/-- The old delay line's block at point `t` as its staging buffer holds it after the fetch: the array's 63 slots
    by 8 rows by 4096 columns at the point's rows (the filler is never seen: no part of the block is cut). -/
def x6blk (c : Dev nD) (t : Fin cfg0.N) : Vec F S63x8x4096 .f32 :=
  win0_5.fill (grid0.coords t) (fun _ => zeroW (F := F)) (iblk m c 5 t)

/-- The proof data of the one pipeline on core `c`: the arrays as the region finds them; after the body at point
    `t` each input's buffer at its block and the output's at `outBlk` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => x6blk m c t
    | ⟨6, _⟩ => outBlk (iblk m c 0 t) (iblk m c 1 t) (iblk m c 2 t) (iblk m c 3 t) (iblk m c 4 t) (x6blk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = x6blk m c t := by dsimp only [dats]
theorem after0_6 (c : Dev nD) (t : Fin cfg0.N) : (dats m 0 c).after 6 t
    = outBlk (iblk m c 0 t) (iblk m c 1 t) (iblk m c 2 t) (iblk m c 3 t) (iblk m c 4 t) (x6blk m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- No block of the old delay line's window is cut: slots 0 to 62 of 64, rows 8t to 8t + 7 of 512, all columns. -/
theorem clip0_5 : ∀ (t : Fin cfg0.N) (a : Fin (cfg0.win 5).shape.rank), (cfg0.win 5).clip (cfg0.grid.coords t) a = none :=
  (by decide +kernel : ∀ (t : Fin grid0.N) (a : Fin win0_5.shape.rank), win0_5.clip (grid0.coords t) a = none)

/-- So the body finds the old line's buffer at the whole block, whatever it held before the fetch. -/
theorem before0_5 (c : Dev nD) (t : Fin cfg0.N) (d) : (dats m 0 c).before 5 t d = x6blk m c t := by
  unfold Dat.before
  rw [if_pos (fetch0_5 t), (dats m 0 c).fetched_of_clip_none 5 t (clip0_5 t) d (fun _ => zeroW (F := F))]
  unfold Dat.fetched Dat.blockOf x6blk iblk
  rw [A_eq]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare
        ((cfg0.win 5).fill (cfg0.grid.coords t) d ((cfg0.win 5).cut (cfg0.grid.coords t) ((dats m 0 c).after 5 t))))
    ∗ owns (c : Thread nD τ) (st0_6 t) fullShare ((dats m 0 c).after 6 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (x6blk m c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iexists (x6blk m c t); rw [(cfg0.win 5).fill_cut]; iexact H5
  iexact H6

theorem body_obligation (c : Dev nD) : BodyObligationLoose (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end, faults nowhere and leaves its six argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.Spec.lean ====
/-
  One Euler step of a leaky integrate-and-fire neuron with a refractory variable, and a per-neuron read of a delay
  line, as functions of single array elements. Every neuron (b, c, h, w) is updated on its own:

    refrac  = Θ(rho)                                   (1 while refractory, else 0)
    v_dec   = v + 0.1 · (1 − refrac) · ((0 − v) + i)
    i_dec   = (i − 0.2 · i) + i_new
    z       = Θ(v_dec − 1)                             (the spike)
    v_new   = (1 − z) · v_dec + z · 0
    rho_new = (rho − 1 · refrac) + z · 5

  with Θ(x − t) the float 1 where x > t and 0 elsewhere, and the literals the binary32 words both programs carry
  (0.1 is 0x3DCCCCCD, 0.2 is 0x3E4CCCCD: the same word on both sides, never evaluated). The delay line of depth 64
  is pushed by one slot, the new spike entering at slot 0, and read at the neuron's own delay d:
  slot 0 gives z, slot d ≥ 1 gives the old buffer's slot d − 1. The result stacks five planes:
  (delayed spike, z, v_new, i_dec, rho_new).
-/
import Idealize.ShloMosaic.PureOps.Ideal
import Idealize.ShloMosaic.Lib.ValueIdx

noncomputable section

namespace Cert.Lif

open Idealize.ShloMosaic Idealize.ShloMosaic.ValueIdx

variable {F : FTy → Type} [FloatOps F]

/-- The neuron grid (batch, channel, height, width). -/
abbrev SN : Shape := ⟨4, ![16, 32, 64, 64]⟩
/-- The delay line: 64 time slots over the neuron grid. -/
abbrev SB : Shape := ⟨5, ![64, 16, 32, 64, 64]⟩
/-- The result: five planes over the neuron grid. -/
abbrev SR : Shape := ⟨5, ![5, 16, 32, 64, 64]⟩

/-- A binary32 literal by its word. -/
def lit (w : BitVec 32) : F .f32 := FloatOps.ofBits .f32 w

/-- Θ(x − t) as a float: 1 where x > t, else 0. -/
def step (x t : F .f32) : F .f32 := FloatOps.uitofp .f32 (FloatOps.cmpf .ogt x t)

/-- 1 while the neuron is refractory (rho > 0). -/
def refrac (rho : F .f32) : F .f32 := step rho (lit 0x00000000#32)

/-- The membrane potential after leak and input, integration gated off while refractory. -/
def vDec (v i rho : F .f32) : F .f32 :=
  FloatOps.addf v (FloatOps.mulf
    (FloatOps.mulf (lit 0x3DCCCCCD#32) (FloatOps.subf (lit 0x3F800000#32) (refrac rho)))
    (FloatOps.addf (FloatOps.subf (lit 0x00000000#32) v) i))

/-- The synaptic current after decay and injection. -/
def iDec (inew i : F .f32) : F .f32 :=
  FloatOps.addf (FloatOps.subf i (FloatOps.mulf (lit 0x3E4CCCCD#32) i)) inew

/-- The spike: 1 where the decayed potential exceeds the threshold 1. -/
def spike (v i rho : F .f32) : F .f32 := step (vDec v i rho) (lit 0x3F800000#32)

/-- The potential after the reset transition. -/
def vNew (v i rho : F .f32) : F .f32 :=
  FloatOps.addf (FloatOps.mulf (FloatOps.subf (lit 0x3F800000#32) (spike v i rho)) (vDec v i rho))
    (FloatOps.mulf (spike v i rho) (lit 0x00000000#32))

/-- The refractory variable: decays while active, jumps by 5 on a spike. -/
def rhoNew (v i rho : F .f32) : F .f32 :=
  FloatOps.addf (FloatOps.subf rho (FloatOps.mulf (lit 0x3F800000#32) (refrac rho)))
    (FloatOps.mulf (spike v i rho) (lit 0x40A00000#32))

/-- The pushed delay line read at delay `d`: slot 0 is the new spike `z`, slot n ≥ 1 the old line's slot n − 1
    (`b` is the old line at this neuron, all 64 slots; its last slot is never read). Outside 0 ≤ d < 64 the
    value is of no interest (the precondition excludes it) and is set to `z`. -/
def delayed (d : BitVec 32) (z : F .f32) (b : Fin 64 → F .f32) : F .f32 :=
  if d.toNat = 0 then z else if h : d.toNat - 1 < 64 then b ⟨d.toNat - 1, h⟩ else z

/-- One neuron's five results, by plane. -/
def plane (p : Nat) (inew v i rho : F .f32) (d : BitVec 32) (b : Fin 64 → F .f32) : F .f32 :=
  match p with
  | 0 => delayed d (spike v i rho) b
  | 1 => spike v i rho
  | 2 => vNew v i rho
  | 3 => iDec inew i
  | _ => rhoNew v i rho

/-- The neuron an element of the result belongs to. -/
abbrev neuron (i : SR.Idx) : SN.Idx := fun a => match a with
  | ⟨0, _⟩ => ⟨(i 1).val, (i 1).isLt⟩
  | ⟨1, _⟩ => ⟨(i 2).val, (i 2).isLt⟩
  | ⟨2, _⟩ => ⟨(i 3).val, (i 3).isLt⟩
  | ⟨3, _⟩ => ⟨(i 4).val, (i 4).isLt⟩

/-- Slot `s` of the delay line at the neuron of result element `i`. -/
abbrev slot (i : SR.Idx) (s : Fin 64) : SB.Idx := fun a => match a with
  | ⟨0, _⟩ => s
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨(i 4).val, (i 4).isLt⟩

/-- THE RESULT as one function of the six argument arrays (i_new, v, i, rho, buffer, delay_idx), element by element. -/
def result (inew v i rho : SN.Idx → F .f32) (buf : SB.Idx → F .f32) (delay : SN.Idx → BitVec 32) : SR.Idx → F .f32 :=
  fun e => plane (e 0).val (inew (neuron e)) (v (neuron e)) (i (neuron e)) (rho (neuron e)) (delay (neuron e))
    (fun s => buf (slot e s))

/-- The delays are in range of the delay line: 0 ≤ d < 64, read signed. -/
def DelayInRange (delay : SN.Idx → BitVec 32) : Prop := ∀ j, 0 ≤ (delay j).toInt ∧ (delay j).toInt < 64

end Cert.Lif

end
-- ==== Proof.KIArr.lean ====
/-
  The kernel's result array over its reshaped arguments: the six argument arrays viewed as 512 rows (batch ×
  channel) by 4096 columns (height × width), the delay line as 64 slots of such, and the result as five planes of
  such; every element is one neuron's update (Spec.lean) at its row and column.
-/
import proofs.«429760_j76124000354679_3_alg».proof.Proof.KIBody
import proofs.«429760_j76124000354679_3_alg».proof.Proof.Spec

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

/-- The row and column of an element of the result array. -/
abbrev rowCol (y : S5x512x4096.Idx) : S512x4096.Idx :=
  ix2 (n0 := 512) (n1 := 4096) ⟨(y 1).val, (y 1).isLt⟩ ⟨(y 2).val, (y 2).isLt⟩

/-- Slot `s` of the delay line at the row and column of an element of the result array. -/
abbrev lineAt (y : S5x512x4096.Idx) (s : Fin 64) : S64x512x4096.Idx :=
  ix3 (n0 := 64) (n1 := 512) (n2 := 4096) s ⟨(y 1).val, (y 1).isLt⟩ ⟨(y 2).val, (y 2).isLt⟩

/-- The result array from the reshaped arguments (i_new, v, i, rho, delay, line). -/
def resArr (A0 A1 A2 A3 : Vec Ideal S512x4096 .f32) (A4 : Vec Ideal S512x4096 .i32) (A5 : Vec Ideal S64x512x4096 .f32) :
    Vec Ideal S5x512x4096 .f32 :=
  fun y => Cert.Lif.plane (F := Ideal) (y 0).val (A0 (rowCol y)) (A1 (rowCol y)) (A2 (rowCol y)) (A3 (rowCol y)) (A4 (rowCol y))
    (fun s => A5 (lineAt y s))

end Cert.KernelIdeal.Body

end
-- ==== Proof.ChainValue.lean ====
/-
  The chain of selects reads the pushed delay line. For a delay d with 0 ≤ d < 64 (read signed) the clamp into
  0..63 leaves d alone, d read unsigned is the same number, and the chain up to slot n has picked slot d as soon
  as n ≥ d: slot 0 gives the new spike, slot k ≥ 1 the old line's slot k − 1. After all 63 steps every delay in
  range has been picked, so the filler is never seen.
-/
import proofs.«429760_j76124000354679_3_alg».proof.Proof.Spec
import proofs.«429760_j76124000354679_3_alg».proof.Proof.Chain

noncomputable section

namespace Cert.Lif.ChainValue

open Idealize.ShloMosaic

/-- A select on a word comparison for equality is a choice on the equality of the words. -/
theorem select_cmpi_eq {α : Type} (x y : BitVec 32) (a c : α) :
    Scalar.select (IntOp.cmpi .eq x y) a c = if x = y then a else c := by
  by_cases h : x = y
  · have hb : (x == y) = true := beq_iff_eq.mpr h
    rw [if_pos h]
    show (if BitVec.ofBool (x == y) = 1 then a else c) = a
    rw [hb]; exact if_pos rfl
  · have hb : (x == y) = false := beq_eq_false_iff_ne.mpr h
    rw [if_neg h]
    show (if BitVec.ofBool (x == y) = 1 then a else c) = c
    rw [hb]; exact if_neg (by decide)

/-- A delay in range, read unsigned, is below 64 as well (its sign bit is clear, so both readings agree). -/
theorem toNat_of_inRange (d : BitVec 32) (hd : 0 ≤ d.toInt ∧ d.toInt < 64) : d.toNat < 64 := by
  have hlt := d.isLt
  rw [BitVec.toInt_eq_toNat_cond] at hd
  split at hd <;> omega

/-- A delay in range is its own clamp. -/
theorem clampDelay_of_inRange (d : BitVec 32) (hd : 0 ≤ d.toInt ∧ d.toInt < 64) : clampDelay d = d := by
  have h0 : (0#32 : BitVec 32).toInt = 0 := by decide
  have h63 : (63#32 : BitVec 32).toInt = 63 := by decide
  have h1 : d.slt 0#32 = false := by
    simp only [BitVec.slt, h0, decide_eq_false_iff_not]; omega
  have h2 : (63#32 : BitVec 32).slt d = false := by
    simp only [BitVec.slt, h63, decide_eq_false_iff_not]; omega
  unfold clampDelay IntOp.minsi IntOp.maxsi
  simp [h1, h2]

/-- The old line's slot k, or the filler where there is no such slot. -/
def slotOr {α : Type} (fill : α) (b : Fin 63 → α) (k : Nat) : α := if h : k < 63 then b ⟨k, h⟩ else fill

/-- The chain up to slot n, for a clamped delay k = d'.toNat ≤ 63: the new spike for k = 0, the old line's slot
    k − 1 once n has reached k, the filler before. -/
theorem chainTo_eq {α : Type} (d' : BitVec 32) (z fill : α) (b : Fin 63 → α) (hk : d'.toNat ≤ 63) (n : Nat) :
    chainTo d' z fill b n =
      if d'.toNat = 0 then z else if d'.toNat ≤ n then slotOr fill b (d'.toNat - 1) else fill := by
  induction n with
  | zero =>
    rw [chainTo, select_cmpi_eq]
    have e : d' = 0#32 ↔ d'.toNat = 0 := by
      rw [← BitVec.toNat_inj]; simp
    by_cases h : d'.toNat = 0
    · rw [if_pos (e.mpr h), if_pos h]
    · rw [if_neg (fun q => h (e.mp q)), if_neg h, if_neg (by omega)]
  | succ n ih =>
    rw [chainTo]
    by_cases hn : n < 63
    · rw [dif_pos hn, select_cmpi_eq, ih]
      have e : d' = BitVec.ofNat 32 (n + 1) ↔ d'.toNat = n + 1 := by
        rw [← BitVec.toNat_inj, BitVec.toNat_ofNat, Nat.mod_eq_of_lt (by omega)]
      by_cases h : d'.toNat = n + 1
      · rw [if_pos (e.mpr h), if_neg (by omega), if_pos (by omega)]
        have : d'.toNat - 1 = n := by omega
        rw [this, slotOr, dif_pos hn]
      · rw [if_neg (fun q => h (e.mp q))]
        by_cases h0 : d'.toNat = 0
        · rw [if_pos h0, if_pos h0]
        · rw [if_neg h0, if_neg h0]
          by_cases hle : d'.toNat ≤ n
          · rw [if_pos hle, if_pos (by omega)]
          · rw [if_neg hle, if_neg (by omega)]
    · rw [dif_neg hn, ih]
      by_cases h0 : d'.toNat = 0
      · rw [if_pos h0, if_pos h0]
      · rw [if_neg h0, if_neg h0, if_pos (by omega), if_pos (by omega)]

end Cert.Lif.ChainValue

namespace Cert.Lif

open Idealize.ShloMosaic Cert.Lif.ChainValue

/-- The kernel's chain at one neuron, under a delay in range, is the pushed delay line read at the delay. -/
theorem chainAt_eq_delayed {F : FTy → Type} [FloatOps F] (d : BitVec 32) (hd : 0 ≤ d.toInt ∧ d.toInt < 64)
    (z fill : F .f32) (b : Fin 64 → F .f32) :
    chainAt d z fill (fun s : Fin 63 => b ⟨s.val, by omega⟩) = delayed d z b := by
  have hlt := toNat_of_inRange d hd
  rw [chainAt, clampDelay_of_inRange d hd, chainTo_eq d z fill _ (by omega) 63, delayed]
  by_cases h0 : d.toNat = 0
  · rw [if_pos h0, if_pos h0]
  · rw [if_neg h0, if_neg h0, if_pos (by omega), dif_pos (by omega), slotOr, dif_pos (by omega)]

end Cert.Lif

end
-- ==== Proof.LifPayloads.lean ====
/-
  The kernel's neuron update read at one element of an 8 × 4096 block. Each of the kernel's block values is an
  elementwise tree of float operations over the blocks v (v0), i (v2), rho (v4) and i_new (v6); at an element j it
  is the same tree over the four elements, which is the scalar update of the specification. The two spellings
  differ in three places only: a block cast to its own shape is the block; a literal is broadcast over the block
  (every element reads the literal); and the kernel makes the float of a compare bit by widening the bit to 32
  bits with zeros and converting that as a signed integer, where the specification converts the bit as an
  unsigned integer: a one-bit word is 0 or 1 under both readings, so the two floats are the same number.
-/
import proofs.«429760_j76124000354679_3_alg».proof.Proof.Gen.KernelIdeal.Skeleton
import proofs.«429760_j76124000354679_3_alg».proof.Proof.Spec
import Idealize.ShloMosaic.Lib.Pipeline.Value
import Idealize.ShloMosaic.Lib.ValueIdx

noncomputable section

namespace Cert.Lif.Ker

open Idealize.ShloMosaic Idealize.ShloMosaic.ValueIdx Cert.KernelIdeal Cert.KernelIdeal.Gen

/-- A one-bit word widened to 32 bits by zeros and read signed is the bit read unsigned. -/
theorem toInt_setWidth_bit (c : BitVec 1) : (c.setWidth 32).toInt = (c.toNat : Int) := by
  rcases BitVec.eq_zero_or_eq_one c with rfl | rfl <;> decide

/-- The float of a compare bit, made the kernel's way (widened by zeros, converted as a signed integer), is the
    float made the specification's way (the bit converted as an unsigned integer). -/
theorem sitofp_extui_bit (c : BitVec 1) :
    FloatOps.sitofp (F := Ideal) .f32 (c.setWidth 32) = FloatOps.uitofp (F := Ideal) .f32 c := by
  show (((c.setWidth 32).toInt : ℝ) : EReal) = ((c.toNat : ℝ) : EReal)
  rw [toInt_setWidth_bit, Int.cast_natCast]

variable (v0 v2 v4 v6 : Vec Ideal S8x4096 .f32) (j : S8x4096.Idx)

/-- The current block cast to its own shape, at an element. -/
theorem pay26_apply : k0_pay26 (F := Ideal) v2 j = v2 j := by
  show shapeCast S8x4096 v2 shapeCasts_S8x4096_S8x4096 j = v2 j
  rw [shapeCast_self]

/-- The refractory block cast to its own shape, at an element. -/
theorem pay27_apply : k0_pay27 (F := Ideal) v4 j = v4 j := by
  show shapeCast S8x4096 v4 shapeCasts_S8x4096_S8x4096 j = v4 j
  rw [shapeCast_self]

/-- The refractory indicator Θ(rho) at an element. -/
theorem pay28_apply : k0_pay28 (F := Ideal) v4 j = Cert.Lif.refrac (v4 j) := by
  show FloatOps.sitofp (F := Ideal) .f32
      ((FloatOps.cmpf .ogt (k0_pay27 (F := Ideal) v4 j) (FloatOps.ofBits .f32 0x00000000#32)).setWidth 32) = _
  rw [sitofp_extui_bit, pay27_apply]
  rfl

/-- The decayed membrane potential at an element. -/
theorem pay29_apply : k0_pay29 (F := Ideal) v0 v2 v4 j = Cert.Lif.vDec (v0 j) (v2 j) (v4 j) := by
  show FloatOps.addf (F := Ideal) (shapeCast S8x4096 v0 shapeCasts_S8x4096_S8x4096 j)
      (FloatOps.mulf
        (FloatOps.mulf (FloatOps.ofBits .f32 0x3DCCCCCD#32)
          (FloatOps.subf (FloatOps.ofBits .f32 0x3F800000#32) (k0_pay28 (F := Ideal) v4 j)))
        (FloatOps.addf
          (FloatOps.subf (FloatOps.ofBits .f32 0x00000000#32) (shapeCast S8x4096 v0 shapeCasts_S8x4096_S8x4096 j))
          (k0_pay26 (F := Ideal) v2 j))) = _
  rw [shapeCast_self, pay28_apply, pay26_apply]
  rfl

/-- The synaptic current after decay and injection, at an element. -/
theorem pay30_apply : k0_pay30 (F := Ideal) v2 v6 j = Cert.Lif.iDec (v6 j) (v2 j) := by
  show FloatOps.addf (F := Ideal)
      (FloatOps.subf (k0_pay26 (F := Ideal) v2 j)
        (FloatOps.mulf (FloatOps.ofBits .f32 0x3E4CCCCD#32) (k0_pay26 (F := Ideal) v2 j)))
      (shapeCast S8x4096 v6 shapeCasts_S8x4096_S8x4096 j) = _
  rw [shapeCast_self, pay26_apply]
  rfl

/-- The spike Θ(v_dec − 1) at an element. -/
theorem pay31_apply : k0_pay31 (F := Ideal) v0 v2 v4 j = Cert.Lif.spike (v0 j) (v2 j) (v4 j) := by
  show FloatOps.sitofp (F := Ideal) .f32
      ((FloatOps.cmpf .ogt (k0_pay29 (F := Ideal) v0 v2 v4 j) (FloatOps.ofBits .f32 0x3F800000#32)).setWidth 32) = _
  rw [sitofp_extui_bit, pay29_apply]
  rfl

/-- The potential after the reset transition, at an element. -/
theorem pay32_apply : k0_pay32 (F := Ideal) v0 v2 v4 j = Cert.Lif.vNew (v0 j) (v2 j) (v4 j) := by
  show FloatOps.addf (F := Ideal)
      (FloatOps.mulf (FloatOps.subf (FloatOps.ofBits .f32 0x3F800000#32) (k0_pay31 (F := Ideal) v0 v2 v4 j))
        (k0_pay29 (F := Ideal) v0 v2 v4 j))
      (FloatOps.mulf (k0_pay31 (F := Ideal) v0 v2 v4 j) (FloatOps.ofBits .f32 0x00000000#32)) = _
  rw [pay31_apply, pay29_apply]
  rfl

/-- The refractory variable after decay and the spike's jump, at an element. -/
theorem pay33_apply : k0_pay33 (F := Ideal) v0 v2 v4 j = Cert.Lif.rhoNew (v0 j) (v2 j) (v4 j) := by
  show FloatOps.addf (F := Ideal)
      (FloatOps.subf (k0_pay27 (F := Ideal) v4 j)
        (FloatOps.mulf (FloatOps.ofBits .f32 0x3F800000#32) (k0_pay28 (F := Ideal) v4 j)))
      (FloatOps.mulf (k0_pay31 (F := Ideal) v0 v2 v4 j) (FloatOps.ofBits .f32 0x40A00000#32)) = _
  rw [pay27_apply, pay28_apply, pay31_apply]
  rfl

end Cert.Lif.Ker

end
-- ==== Proof.KIFinal.lean ====
/-
  The result array after the run. Every block the pipeline writes back is the block of `resArr` at the point's
  rows: element by element the output block is the neuron update on the six input blocks (the four arithmetic planes
  by the body's terms at an element, the delayed spike by the chain of selects under a delay in range), and each
  input block at point t reads rows 8t … 8t + 7 of its array (the old delay line's: slots 0 … 62 of those rows). The
  64 blocks cover the array: row R lies in block R / 8.
-/
import proofs.«429760_j76124000354679_3_alg».proof.Proof.KIArr
import proofs.«429760_j76124000354679_3_alg».proof.Proof.ChainValue
import proofs.«429760_j76124000354679_3_alg».proof.Proof.LifPayloads

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

/-! ## One element of the output block against one element of the result array -/

/-- An element of the output block is the neuron update of the result array's element it lands on, as soon as the
    six input blocks read, at the element's row and column, what the six arrays read at the landing row and column,
    and the delay there is in range. -/
theorem outBlk_elem (x1 x2 x3 x4 : Vec Ideal S8x4096 .f32) (x5 : Vec Ideal S8x4096 .i32) (x6 : Vec Ideal S63x8x4096 .f32)
    (A0 A1 A2 A3 : Vec Ideal S512x4096 .f32) (A4 : Vec Ideal S512x4096 .i32) (A5 : Vec Ideal S64x512x4096 .f32)
    (j : S5x8x4096.Idx) (y : S5x512x4096.Idx) (hp : (y 0).val = (j 0).val)
    (h1 : x1 (rc j) = A0 (rowCol y)) (h2 : x2 (rc j) = A1 (rowCol y)) (h3 : x3 (rc j) = A2 (rowCol y))
    (h4 : x4 (rc j) = A3 (rowCol y)) (h5 : x5 (rc j) = A4 (rowCol y))
    (h6 : ∀ s : Fin 63, x6 (slotAt j s) = A5 (lineAt y ⟨s.val, by have := s.isLt; omega⟩))
    (hd : 0 ≤ (A4 (rowCol y)).toInt ∧ (A4 (rowCol y)).toInt < 64) :
    outBlk x1 x2 x3 x4 x5 x6 j = resArr A0 A1 A2 A3 A4 A5 y := by
  have hj : (j 0).val < 5 := (j 0).isLt
  unfold outBlk resArr
  rw [hp]
  rcases Nat.lt_or_ge (j 0).val 1 with h | h
  · obtain e : (j 0).val = 0 := by omega
    rw [e]
    show Cert.Lif.chainAt (x5 (rc j)) (k0_pay31 x2 x3 x4 (rc j)) zeroW (fun s => x6 (slotAt j s))
      = Cert.Lif.delayed (A4 (rowCol y)) (Cert.Lif.spike (A1 (rowCol y)) (A2 (rowCol y)) (A3 (rowCol y))) (fun s => A5 (lineAt y s))
    rw [Cert.Lif.Ker.pay31_apply, h2, h3, h4, h5, funext h6]
    have key := Cert.Lif.chainAt_eq_delayed (F := Ideal) (A4 (rowCol y)) hd
      (Cert.Lif.spike (A1 (rowCol y)) (A2 (rowCol y)) (A3 (rowCol y))) (zeroW (F := Ideal)) (fun s => A5 (lineAt y s))
    rw [key]
  rcases Nat.lt_or_ge (j 0).val 2 with h' | h'
  · obtain e : (j 0).val = 1 := by omega
    rw [e]
    show k0_pay31 x2 x3 x4 (rc j) = Cert.Lif.spike (A1 (rowCol y)) (A2 (rowCol y)) (A3 (rowCol y))
    rw [Cert.Lif.Ker.pay31_apply, h2, h3, h4]
  rcases Nat.lt_or_ge (j 0).val 3 with h'' | h''
  · obtain e : (j 0).val = 2 := by omega
    rw [e]
    show k0_pay32 x2 x3 x4 (rc j) = Cert.Lif.vNew (A1 (rowCol y)) (A2 (rowCol y)) (A3 (rowCol y))
    rw [Cert.Lif.Ker.pay32_apply, h2, h3, h4]
  rcases Nat.lt_or_ge (j 0).val 4 with h''' | h'''
  · obtain e : (j 0).val = 3 := by omega
    rw [e]
    show k0_pay30 x3 x1 (rc j) = Cert.Lif.iDec (A0 (rowCol y)) (A2 (rowCol y))
    rw [Cert.Lif.Ker.pay30_apply, h1, h3]
  · obtain e : (j 0).val = 4 := by omega
    rw [e]
    show k0_pay33 x2 x3 x4 (rc j) = Cert.Lif.rhoNew (A1 (rowCol y)) (A2 (rowCol y)) (A3 (rowCol y))
    rw [Cert.Lif.Ker.pay33_apply, h2, h3, h4]

/-! ## The blocks as rows of the arrays -/

section Blocks
variable (m : (ℓ : Loc nD τ sig) → Buf (Elt Ideal) ℓ)

/-- The seven windows' block indices at point t, decided over the 64 points: the point's row block, and block 0 on
    every other axis. -/
theorem win_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 3) = 0 ∧ win0_5.index t (1 : Fin 3) = t.val ∧ win0_5.index t (2 : Fin 3) = 0)
    ∧ (win0_6.index t (0 : Fin 3) = 0 ∧ win0_6.index t (1 : Fin 3) = t.val ∧ win0_6.index t (2 : Fin 3) = 0) :=
  (by decide +kernel : ∀ t : Fin grid0.N, _)

set_option hygiene false in
/-- The one argument for the five row-blocked input windows (blocks of 8 rows by all 4096 columns of a 512 × 4096
    array): the block's element at row r and column q is the array's at row (block index) · 8 + r and column
    (block index) · 4096 + q, and the window's block indices at point t are (t, 0). `w` is the window, `A` its array, `e`
    its two decided block indices; `t`, `x`, `i` are the point and the two indices of the lemma it closes. -/
local macro "row_block " w:term " of " A:term " by " e:term : tactic => `(tactic| (
  have hw := $e
  unfold iblk
  rw [View.read_apply]
  show $A ((Window.blk $w t).view.emb x) = $A i
  refine congrArg $A (funext fun a => Fin.ext ?_)
  match a with
  | ⟨0, _⟩ => show Window.index $w t (0 : Fin 2) * 8 + 1 * (x 0).val = (i 0).val; omega
  | ⟨1, _⟩ => show Window.index $w t (1 : Fin 2) * 4096 + 1 * (x 1).val = (i 1).val; omega))

variable (c : Dev nD) (t : Fin cfg0.N) (x : S8x4096.Idx) (i : S512x4096.Idx)
  (h0 : (i 0).val = 8 * t.val + (x 0).val) (h1 : (i 1).val = (x 1).val)
include h0 h1

/-- The injected current's block at point t is rows 8t … 8t + 7 of its array. -/
theorem iblk0_elem : (iblk m c 0 t : Vec Ideal S8x4096 .f32) x = (V m c main_v0 : Vec Ideal S512x4096 .f32) i := by
  row_block win0_0 of (V m c main_v0 : Vec Ideal S512x4096 .f32) by (win_index t).1
/-- The potential's. -/
theorem iblk1_elem : (iblk m c 1 t : Vec Ideal S8x4096 .f32) x = (V m c main_v1 : Vec Ideal S512x4096 .f32) i := by
  row_block win0_1 of (V m c main_v1 : Vec Ideal S512x4096 .f32) by (win_index t).2.1
/-- The synaptic current's. -/
theorem iblk2_elem : (iblk m c 2 t : Vec Ideal S8x4096 .f32) x = (V m c main_v2 : Vec Ideal S512x4096 .f32) i := by
  row_block win0_2 of (V m c main_v2 : Vec Ideal S512x4096 .f32) by (win_index t).2.2.1
/-- The refractory variable's. -/
theorem iblk3_elem : (iblk m c 3 t : Vec Ideal S8x4096 .f32) x = (V m c main_v3 : Vec Ideal S512x4096 .f32) i := by
  row_block win0_3 of (V m c main_v3 : Vec Ideal S512x4096 .f32) by (win_index t).2.2.2.1
/-- The delay's. -/
theorem iblk4_elem : (iblk m c 4 t : Vec Ideal S8x4096 .i32) x = (V m c main_v4 : Vec Ideal S512x4096 .i32) i := by
  row_block win0_4 of (V m c main_v4 : Vec Ideal S512x4096 .i32) by (win_index t).2.2.2.2.1

end Blocks

/-! ## The old delay line's block, the block written back, the cover -/

section Final
variable (m : (ℓ : Loc nD τ sig) → Buf (Elt Ideal) ℓ)

/-- The old delay line's block at point t, as the body finds it, is slots 0 … 62 of rows 8t … 8t + 7 of the line:
    no part of the block is cut, so every element is a fetched one. -/
theorem x6blk_elem (c : Dev nD) (t : Fin cfg0.N) (x : S63x8x4096.Idx) (i : S64x512x4096.Idx)
    (h0 : (i 0).val = (x 0).val) (h1 : (i 1).val = 8 * t.val + (x 1).val) (h2 : (i 2).val = (x 2).val) :
    x6blk m c t x = (V m c main_v5 : Vec Ideal S64x512x4096 .f32) i := by
  have hw := (win_index t).2.2.2.2.2.1
  have hcl : ∀ a, win0_5.clip (grid0.coords t) a = none := clip0_5 t
  have hm : win0_5.moved (grid0.coords t) x = true :=
    (win0_5.moved_iff _ x).mpr fun a => by have := (x a).isLt; unfold Window.xsize; rw [hcl a]; exact this
  unfold x6blk Window.fill
  rw [dif_pos hm]
  unfold iblk
  rw [View.read_apply]
  show (V m c main_v5 : Vec Ideal S64x512x4096 .f32) ((Window.blk win0_5 t).view.emb _) = (V m c main_v5 : Vec Ideal S64x512x4096 .f32) i
  refine congrArg (V m c main_v5 : Vec Ideal S64x512x4096 .f32) (funext fun a => Fin.ext ?_)
  match a with
  | ⟨0, _⟩ => show Window.index win0_5 t (0 : Fin 3) * 63 + 1 * (x 0).val = (i 0).val; omega
  | ⟨1, _⟩ => show Window.index win0_5 t (1 : Fin 3) * 8 + 1 * (x 1).val = (i 1).val; omega
  | ⟨2, _⟩ => show Window.index win0_5 t (2 : Fin 3) * 4096 + 1 * (x 2).val = (i 2).val; omega

/-- WHAT POINT t WRITES BACK is its block (all five planes of rows 8t … 8t + 7) of `resArr` of the arrays the region
    finds, as soon as every delay is in range. -/
theorem flushed6_eq (c : Dev nD)
    (hd : ∀ j : S512x4096.Idx, 0 ≤ (V m c main_v4 j).toInt ∧ (V m c main_v4 j).toInt < 64) (t : Fin cfg0.N) :
    (dats (F := Ideal) m 0 c).flushed 6 t = ((cfg0.win 6).blk t).view.read (Elt Ideal)
      (resArr (V m c main_v0) (V m c main_v1) (V m c main_v2) (V m c main_v3) (V m c main_v4) (V m c main_v5)) := by
  have hw := (win_index t).2.2.2.2.2.2
  show (cfg0.win 6).cut (grid0.coords t) ((dats (F := Ideal) m 0 c).after 6 t) = _
  rw [after0_6]
  funext j
  rw [View.read_apply]
  show outBlk (iblk m c 0 t) (iblk m c 1 t) (iblk m c 2 t) (iblk m c 3 t) (iblk m c 4 t) (x6blk m c t) j
    = resArr (V m c main_v0) (V m c main_v1) (V m c main_v2) (V m c main_v3) (V m c main_v4) (V m c main_v5)
        ((Window.blk win0_6 t).view.emb j)
  have y0 : (((Window.blk win0_6 t).view.emb j) (0 : Fin 3)).val = (j 0).val := by
    show Window.index win0_6 t (0 : Fin 3) * 5 + 1 * (j 0).val = (j 0).val; omega
  have y1 : (((Window.blk win0_6 t).view.emb j) (1 : Fin 3)).val = 8 * t.val + (j 1).val := by
    show Window.index win0_6 t (1 : Fin 3) * 8 + 1 * (j 1).val = 8 * t.val + (j 1).val; omega
  have y2 : (((Window.blk win0_6 t).view.emb j) (2 : Fin 3)).val = (j 2).val := by
    show Window.index win0_6 t (2 : Fin 3) * 4096 + 1 * (j 2).val = (j 2).val; omega
  exact outBlk_elem _ _ _ _ _ _ _ _ _ _ _ _ j ((Window.blk win0_6 t).view.emb j) y0
    (iblk0_elem m c t _ _ y1 y2) (iblk1_elem m c t _ _ y1 y2) (iblk2_elem m c t _ _ y1 y2)
    (iblk3_elem m c t _ _ y1 y2) (iblk4_elem m c t _ _ y1 y2)
    (fun s => x6blk_elem m c t _ _ rfl y1 y2) (hd _)

/-- Every element of the result array is in the block of the point of its row: row R is in block R / 8. -/
theorem covered6 (i : S5x512x4096.Idx) :
    ∃ t : Fin cfg0.N, (cfg0.win 6).flush t = true ∧ i ∈ ((cfg0.win 6).blk t).view.set := by
  have hN : grid0.N = 64 := N_0
  have hN' : cfg0.N = 64 := N_0
  have hi0 : (i 0).val < 5 := (i 0).isLt
  have hi1 : (i 1).val < 512 := (i 1).isLt
  have hi2 : (i 2).val < 4096 := (i 2).isLt
  obtain ⟨t, ht⟩ : ∃ t : Fin cfg0.N, t.val = (i 1).val / 8 := ⟨⟨(i 1).val / 8, by omega⟩, rfl⟩
  have hw := (win_index t).2.2.2.2.2.2
  refine ⟨t, flush0_6 t, ?_⟩
  show (i : ((View.whole main_v6).slice (win0_6.rect t)).ty.Idx) ∈ ((View.whole main_v6).slice (win0_6.rect t)).set
  rw [View.set_slice_whole, Rect.mem_set_unit]
  intro a
  match a with
  | ⟨0, _⟩ =>
    show Window.index win0_6 t (0 : Fin 3) * 5 ≤ (i 0).val ∧ (i 0).val < Window.index win0_6 t (0 : Fin 3) * 5 + 5
    omega
  | ⟨1, _⟩ =>
    show Window.index win0_6 t (1 : Fin 3) * 8 ≤ (i 1).val ∧ (i 1).val < Window.index win0_6 t (1 : Fin 3) * 8 + 8
    omega
  | ⟨2, _⟩ =>
    show Window.index win0_6 t (2 : Fin 3) * 4096 ≤ (i 2).val
      ∧ (i 2).val < Window.index win0_6 t (2 : Fin 3) * 4096 + 4096
    omega

end Final

/-- With every delay in range, the result array ends holding `resArr` of the arrays the region finds. -/
theorem final_arr (m : (ℓ : Loc nD τ sig) → Buf (Elt Ideal) ℓ) (c : Dev nD)
    (hd : ∀ j : S512x4096.Idx, 0 ≤ (V m c main_v4 j).toInt ∧ (V m c main_v4 j).toInt < 64) :
    (dats (F := Ideal) m 0 c).arrAt 6 cfg0.N
      = resArr (V m c main_v0) (V m c main_v1) (V m c main_v2) (V m c main_v3) (V m c main_v4) (V m c main_v5) :=
  (dats (F := Ideal) m 0 c).arrAt_eq_of_cover 6 _ (fun t _ => flushed6_eq m c hd t) covered6

end Cert.KernelIdeal.Body

end
-- ==== Proof.KIResult.lean ====
/-
  The kernel's value on the host side. Before the pipeline the six arguments are only reshaped: the four neuron
  arrays and the delay array to 512 rows (batch × channel) by 4096 columns (height × width), the delay line to 64
  slots of such; after it the result array of five such planes is reshaped to five planes over the neuron grid.
  A reshape keeps the row-major position, and row 32·b + c, column 64·h + w is neuron (b, c, h, w) on every
  array, so the reshaped result array over the reshaped arguments is the specification's result over the
  arguments themselves.
-/
import proofs.«429760_j76124000354679_3_alg».proof.Proof.KIFinal
import Idealize.ShloMosaic.Lib.StableHlo.Run
import Idealize.ShloMosaic.Lib.Pipeline.FrameSuffix
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

section Reshapes
variable (m : (ℓ : Loc nD τ sig) → Buf (Elt Ideal) ℓ) (c : Dev nD)

/-- Each reshaped argument the region finds is its launch array read row-major in the new shape. -/
theorem V_v0 : (V m c main_v0 : S512x4096.Idx → Elt Ideal .f32)
      = shapeCast S512x4096 (m ((c : Thread nD τ).loc main_arg0)) shapeCasts_S16x32x64x64_S512x4096 := by
  show StableHlo.after hostOps0 (fun b => m (c, b)) (Proc.devRef .tc main_v0) = _
  after_results
  rfl
theorem V_v1 : (V m c main_v1 : S512x4096.Idx → Elt Ideal .f32)
      = shapeCast S512x4096 (m ((c : Thread nD τ).loc main_arg1)) shapeCasts_S16x32x64x64_S512x4096 := by
  show StableHlo.after hostOps0 (fun b => m (c, b)) (Proc.devRef .tc main_v1) = _
  after_results
  rfl
theorem V_v2 : (V m c main_v2 : S512x4096.Idx → Elt Ideal .f32)
      = shapeCast S512x4096 (m ((c : Thread nD τ).loc main_arg2)) shapeCasts_S16x32x64x64_S512x4096 := by
  show StableHlo.after hostOps0 (fun b => m (c, b)) (Proc.devRef .tc main_v2) = _
  after_results
  rfl
theorem V_v3 : (V m c main_v3 : S512x4096.Idx → Elt Ideal .f32)
      = shapeCast S512x4096 (m ((c : Thread nD τ).loc main_arg3)) shapeCasts_S16x32x64x64_S512x4096 := by
  show StableHlo.after hostOps0 (fun b => m (c, b)) (Proc.devRef .tc main_v3) = _
  after_results
  rfl
theorem V_v4 : (V m c main_v4 : S512x4096.Idx → Elt Ideal .i32)
      = shapeCast S512x4096 (m ((c : Thread nD τ).loc main_arg5)) shapeCasts_S16x32x64x64_S512x4096 := by
  show StableHlo.after hostOps0 (fun b => m (c, b)) (Proc.devRef .tc main_v4) = _
  after_results
  rfl
theorem V_v5 : (V m c main_v5 : S64x512x4096.Idx → Elt Ideal .f32)
      = shapeCast S64x512x4096 (m ((c : Thread nD τ).loc main_arg4)) shapeCasts_S64x16x32x64x64_S64x512x4096 := by
  show StableHlo.after hostOps0 (fun b => m (c, b)) (Proc.devRef .tc main_v5) = _
  after_results
  rfl

/-- A delay array in range stays in range read through the reshape: every entry of the reshape is an entry of the array. -/
theorem delay_ok (hd : Cert.Lif.DelayInRange (m ((c : Thread nD τ).loc main_arg5))) :
    ∀ j : S512x4096.Idx, 0 ≤ (V m c main_v4 j).toInt ∧ (V m c main_v4 j).toInt < 64 := by
  intro j
  rw [V_v4]
  exact hd _
end Reshapes

/-! ## Reading the reshapes at a neuron -/

/-- The 512 × 4096 view read at row 32·b + c and column 64·h + w is the 4-D array at neuron (b, c, h, w). -/
theorem cast_neuron {α : Type} (x : Cert.Lif.SN.Idx → α) (e : Cert.Lif.SR.Idx) (j : S512x4096.Idx)
    (h0 : (j 0).val = 32 * (e 1).val + (e 2).val) (h1 : (j 1).val = 64 * (e 3).val + (e 4).val) :
    shapeCast S512x4096 x shapeCasts_S16x32x64x64_S512x4096 j = x (Cert.Lif.neuron e) := by
  refine shapeCast_apply x _ j (Cert.Lif.neuron e) ?_
  rw [Shape.rowMajor_val_four, Shape.rowMajor_val_two]
  show ((((e 1).val * 32 + (e 2).val) * 64 + (e 3).val) * 64 + (e 4).val) = (j 0).val * 4096 + (j 1).val
  omega

/-- The 64 × 512 × 4096 view of the delay line read at slot s, row 32·b + c, column 64·h + w is the 5-D line at
    slot s of neuron (b, c, h, w). -/
theorem cast_slot {α : Type} (x : Cert.Lif.SB.Idx → α) (e : Cert.Lif.SR.Idx) (s : Fin 64) (j : S64x512x4096.Idx)
    (hs : (j 0).val = s.val)
    (h0 : (j 1).val = 32 * (e 1).val + (e 2).val) (h1 : (j 2).val = 64 * (e 3).val + (e 4).val) :
    shapeCast S64x512x4096 x shapeCasts_S64x16x32x64x64_S64x512x4096 j = x (Cert.Lif.slot e s) := by
  refine shapeCast_apply x _ j (Cert.Lif.slot e s) ?_
  rw [Shape.rowMajor_val_five, Shape.rowMajor_val_three]
  show (((s.val * 16 + (e 1).val) * 32 + (e 2).val) * 64 + (e 3).val) * 64 + (e 4).val
    = ((j 0).val * 512 + (j 1).val) * 4096 + (j 2).val
  omega

/-- The plane, row and column of the 5 × 512 × 4096 array under an element of the 5-D result. -/
def under (e : Cert.Lif.SR.Idx) : S5x512x4096.Idx :=
  ix3 (n0 := 5) (n1 := 512) (n2 := 4096) ⟨(e 0).val, (e 0).isLt⟩
    ⟨32 * (e 1).val + (e 2).val, by have h1 : (e 1).val < 16 := (e 1).isLt; have h2 : (e 2).val < 32 := (e 2).isLt; show _ < 512; omega⟩
    ⟨64 * (e 3).val + (e 4).val, by have h3 : (e 3).val < 64 := (e 3).isLt; have h4 : (e 4).val < 64 := (e 4).isLt; show _ < 4096; omega⟩

/-- The 5-D view of a 5 × 512 × 4096 array read at an element is the array at the position under it. -/
theorem cast_under {α : Type} (z : S5x512x4096.Idx → α) (e : Cert.Lif.SR.Idx) :
    shapeCast S5x16x32x64x64 z shapeCasts_S5x512x4096_S5x16x32x64x64 e = z (under e) := by
  refine shapeCast_apply z _ e (under e) ?_
  rw [Shape.rowMajor_val_five, Shape.rowMajor_val_three]
  show ((e 0).val * 512 + (32 * (e 1).val + (e 2).val)) * 4096 + (64 * (e 3).val + (e 4).val)
    = ((((e 0).val * 16 + (e 1).val) * 32 + (e 2).val) * 64 + (e 3).val) * 64 + (e 4).val
  omega

/-- The result array over the reshaped arguments, viewed in five dimensions, is the specification's result over
    the arguments themselves: both read every argument at the element's own neuron. -/
theorem result_eq (a0 a1 a2 a3 : Cert.Lif.SN.Idx → Ideal .f32) (a4 : Cert.Lif.SB.Idx → Ideal .f32)
    (a5 : Cert.Lif.SN.Idx → BitVec 32) :
    shapeCast S5x16x32x64x64
      (resArr (shapeCast S512x4096 a0 shapeCasts_S16x32x64x64_S512x4096)
        (shapeCast S512x4096 a1 shapeCasts_S16x32x64x64_S512x4096)
        (shapeCast S512x4096 a2 shapeCasts_S16x32x64x64_S512x4096)
        (shapeCast S512x4096 a3 shapeCasts_S16x32x64x64_S512x4096)
        (shapeCast S512x4096 a5 shapeCasts_S16x32x64x64_S512x4096)
        (shapeCast S64x512x4096 a4 shapeCasts_S64x16x32x64x64_S64x512x4096))
      shapeCasts_S5x512x4096_S5x16x32x64x64
    = Cert.Lif.result (F := Ideal) a0 a1 a2 a3 a4 a5 := by
  funext e
  rw [cast_under]
  unfold resArr Cert.Lif.result
  rw [cast_neuron a0 e (rowCol (under e)) rfl rfl, cast_neuron a1 e (rowCol (under e)) rfl rfl,
    cast_neuron a2 e (rowCol (under e)) rfl rfl, cast_neuron a3 e (rowCol (under e)) rfl rfl,
    cast_neuron a5 e (rowCol (under e)) rfl rfl]
  refine congrArg (Cert.Lif.plane (F := Ideal) (e 0).val (a0 (Cert.Lif.neuron e)) (a1 (Cert.Lif.neuron e))
    (a2 (Cert.Lif.neuron e)) (a3 (Cert.Lif.neuron e)) (a5 (Cert.Lif.neuron e))) (funext fun s => ?_)
  exact cast_slot a4 e s (lineAt (under e) s) rfl rfl rfl

/-! ## The reshape after the pipeline -/

/-- The program's last array is the five-dimensional view of the result array the pipeline leaves: the one
    operation after the pipeline reshapes that array, which by then holds what the last write-back left. -/
theorem tail_v7 {F : FTy → Type} [FloatOps F] (m : (ℓ : Loc nD τ sig) → Buf (Elt F) ℓ)
    (dats : (p : Fin 1) → (c : Dev nD) → Dat τ (Elt F) Unit ℕ (UR sig nD τ) ℕ (cfgs p) c) (c : Dev nD) :
    (Pipeline.afterTail₀ cfgs dats 0 (V0 m) [hostOps1] c main_v7 : S5x16x32x64x64.Idx → Elt F .f32)
      = shapeCast S5x16x32x64x64 ((dats 0 c).arrAt 6 cfg0.N) shapeCasts_S5x512x4096_S5x16x32x64x64 := by
  unfold Pipeline.afterTail₀
  show StableHlo.after hostOps1 _ (Proc.devRef .tc main_v7) = _
  after_results
  have e : Pipeline.withArrays (cfgs 0).spec c (V0 m c) (fun w => (dats 0 c).arrAt w (cfgs 0).N) (Proc.devRef .tc main_v6)
      = (dats 0 c).arrAt 6 cfg0.N := Pipeline.withArrays_arr spec0 launch0.win.arr_inj c _ _ 6
  rw [e]
  rfl

/-! ## The kernel's value -/

/-- THE KERNEL'S VALUE: with every delay in range of the delay line, @main runs to the end, its last array holds the
    specification's result of the six arguments, and the arguments are as launched. -/
theorem kernel_result (m : (ℓ : Loc nD τ sig) → Buf (Elt Ideal) ℓ) (ρ : Dev nD → PrngReg)
    (hd : ∀ c : Dev nD, Cert.Lif.DelayInRange (m ((c.tc : Thread nD τ).loc main_arg5))) :
    θ_run defs (onTc (τ := τ) (main (F := Ideal))) ⟨m, fun _ => 0, ρ⟩ (fun r => ∀ c : Dev nD,
      r.2.mem ((c.tc : Thread nD τ).loc main_v7)
        = Cert.Lif.result (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨by
        rw [(h c).2 main_v7 (Pipeline.mem_restRefs_of main_v7 (by decide) (by decide)), tail_v7 m (dats m) c,
          final_arr m c (delay_ok m c (hd c)), V_v0 m c, V_v1 m c, V_v2 m c, V_v3 m c, V_v4 m c, V_v5 m c]
        exact result_eq _ _ _ _ _ _,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Body

end
-- ==== Proof.RefValue.lean ====
/-
  The reference's result is THE RESULT of the specification, element by element.

  The reference computes, over the whole neuron grid at once, the refractory gate Θ(rho), the decayed potential,
  the spike z, the reset potential, the decayed current and the new refractory variable, pushes z into the delay
  line (z in front of the line's first 63 slots), reads the pushed line at each neuron's own delay along the time
  axis, and stacks five planes. Read at one element (p, b, c, h, w) of the result:

    * the stack picks plane p at (0, b, c, h, w);
    * planes 1–4 are elementwise in the neuron (b, c, h, w): their chains of operations are, operation by
      operation, the scalar functions of the specification (same operations, same literal words);
    * plane 0 is the read along the time axis. A delay d with 0 ≤ d < 64 passes the read's bounds test at every
      element, so the test's mask is 1 everywhere and the fill value is never taken; d is not negative, so the
      wrap-around of negative indices leaves it as it is; the clamp into [0, 63] leaves it as it is. The read
      therefore returns slot d of the pushed line at the neuron: the new spike when d = 0, slot d − 1 of the old
      line otherwise.
-/
import proofs.«429760_j76124000354679_3_alg».proof.Proof.RefRead
import proofs.«429760_j76124000354679_3_alg».proof.Proof.Spec
import Idealize.ShloMosaic.Lib.Pipeline.Value
import Idealize.ShloMosaic.Lib.ValueIdx
import Idealize.ShloMosaic.Lib.Affine
import Idealize.ShloMosaic.PureOps.Reduce

noncomputable section

namespace Cert.Lif.Ref

open Cert.ReferenceIdeal Cert.ReferenceIdeal.Gen Cert.ReferenceIdeal.PRead Idealize.ShloMosaic Idealize.ShloMosaic.ValueIdx Idealize.ShloMosaic.TcCoe Idealize.SL.Sem

variable {F : FTy → Type} [FloatOps F]

/-! ## Indices -/

/-- The element (0, b, c, h, w) of a one-slot line that lies under result element `e`. -/
abbrev lead (e : S5x16x32x64x64.Idx) : S1x16x32x64x64.Idx := fun a => match a with
  | ⟨0, _⟩ => ⟨0, Nat.one_pos⟩
  | ⟨1, _⟩ => ⟨(e 1).val, (e 1).isLt⟩
  | ⟨2, _⟩ => ⟨(e 2).val, (e 2).isLt⟩
  | ⟨3, _⟩ => ⟨(e 3).val, (e 3).isLt⟩
  | ⟨4, _⟩ => ⟨(e 4).val, (e 4).isLt⟩

/-- Slot `s` of a 64-slot line at the neuron of the line element `j`. -/
abbrev lineIdx (s : Fin 64) (j : S1x16x32x64x64.Idx) : S64x16x32x64x64.Idx := fun a => match a with
  | ⟨0, _⟩ => s
  | ⟨1, _⟩ => ⟨(j 1).val, (j 1).isLt⟩
  | ⟨2, _⟩ => ⟨(j 2).val, (j 2).isLt⟩
  | ⟨3, _⟩ => ⟨(j 3).val, (j 3).isLt⟩
  | ⟨4, _⟩ => ⟨(j 4).val, (j 4).isLt⟩

/-- Slot `s` of a 63-slot line at the neuron of the line element `j`. -/
abbrev tailIdx (s : Fin 63) (j : S1x16x32x64x64.Idx) : S63x16x32x64x64.Idx := fun a => match a with
  | ⟨0, _⟩ => s
  | ⟨1, _⟩ => ⟨(j 1).val, (j 1).isLt⟩
  | ⟨2, _⟩ => ⟨(j 2).val, (j 2).isLt⟩
  | ⟨3, _⟩ => ⟨(j 3).val, (j 3).isLt⟩
  | ⟨4, _⟩ => ⟨(j 4).val, (j 4).isLt⟩

/-- The element of the start-index array at which the read for line element `j` finds its start: `j` with a trailing 0. -/
abbrev startIdx (j : S1x16x32x64x64.Idx) : S1x16x32x64x64x1.Idx := fun a => match a with
  | ⟨0, _⟩ => ⟨(j 0).val, (j 0).isLt⟩
  | ⟨1, _⟩ => ⟨(j 1).val, (j 1).isLt⟩
  | ⟨2, _⟩ => ⟨(j 2).val, (j 2).isLt⟩
  | ⟨3, _⟩ => ⟨(j 3).val, (j 3).isLt⟩
  | ⟨4, _⟩ => ⟨(j 4).val, (j 4).isLt⟩
  | ⟨5, _⟩ => ⟨0, Nat.one_pos⟩

/-- The neuron under the line element `lead e` is the neuron of `e`. -/
theorem nrn_lead (e : S5x16x32x64x64.Idx) : idx_main_v34 (lead e) = Cert.Lif.neuron e :=
  funext fun a => match a with
    | ⟨0, _⟩ => rfl
    | ⟨1, _⟩ => rfl
    | ⟨2, _⟩ => rfl
    | ⟨3, _⟩ => rfl

/-- Dropping the leading unit axis and putting it back is the identity on `lead e`. -/
theorem idx36_lead (e : S5x16x32x64x64.Idx) : idx_main_v36 (idx_main_v34 (lead e)) = lead e := by
  have h1 : (e 1).val < 16 := (e 1).isLt
  have h2 : (e 2).val < 32 := (e 2).isLt
  have h3 : (e 3).val < 64 := (e 3).isLt
  have h4 : (e 4).val < 64 := (e 4).isLt
  funext a
  refine Fin.ext ?_
  match a with
  | ⟨0, _⟩ => rfl
  | ⟨1, _⟩ => show (((((e 1).val * 32 + (e 2).val) * 64 + (e 3).val) * 64 + (e 4).val) / 131072 % 16 = (e 1).val); omega
  | ⟨2, _⟩ => show (((((e 1).val * 32 + (e 2).val) * 64 + (e 3).val) * 64 + (e 4).val) / 4096 % 32 = (e 2).val); omega
  | ⟨3, _⟩ => show (((((e 1).val * 32 + (e 2).val) * 64 + (e 3).val) * 64 + (e 4).val) / 64 % 64 = (e 3).val); omega
  | ⟨4, _⟩ => show (((((e 1).val * 32 + (e 2).val) * 64 + (e 3).val) * 64 + (e 4).val) % 64 = (e 4).val); omega

/-! ## The four arithmetic planes -/

theorem refrac_at (x3 : (⟨S16x32x64x64, .f32⟩ : BufTy).Contents (Elt F)) (n : S16x32x64x64.Idx) :
    val_main_v2 (F := F) x3 n = Cert.Lif.refrac (x3 n) := by
  simp only [val_main_v2_apply, val_main_v1_apply, val_main_v0_apply, val_main_cst_apply]
  rfl

theorem vDec_at (x1 x2 x3 : (⟨S16x32x64x64, .f32⟩ : BufTy).Contents (Elt F)) (n : S16x32x64x64.Idx) :
    val_main_v11 (F := F) x1 x2 x3 n = Cert.Lif.vDec (x1 n) (x2 n) (x3 n) := by
  simp only [val_main_v11_apply, val_main_v10_apply, val_main_v6_apply, val_main_v5_apply, val_main_cst_1_apply,
    val_main_v4_apply, val_main_v3_apply, val_main_cst_0_apply, refrac_at, val_main_v9_apply, val_main_v8_apply,
    val_main_v7_apply, val_main_cst_2_apply]
  rfl

theorem spike_at (x1 x2 x3 : (⟨S16x32x64x64, .f32⟩ : BufTy).Contents (Elt F)) (n : S16x32x64x64.Idx) :
    val_main_v18 (F := F) x1 x2 x3 n = Cert.Lif.spike (x1 n) (x2 n) (x3 n) := by
  simp only [val_main_v18_apply, val_main_v17_apply, val_main_v16_apply, val_main_cst_4_apply, vDec_at]
  rfl

theorem vNew_at (x1 x2 x3 : (⟨S16x32x64x64, .f32⟩ : BufTy).Contents (Elt F)) (n : S16x32x64x64.Idx) :
    val_main_v24 (F := F) x1 x2 x3 n = Cert.Lif.vNew (x1 n) (x2 n) (x3 n) := by
  simp only [val_main_v24_apply, val_main_v21_apply, val_main_v20_apply, val_main_v19_apply, val_main_cst_5_apply,
    val_main_v23_apply, val_main_v22_apply, val_main_cst_6_apply, spike_at, vDec_at]
  rfl

theorem iDec_at (x0 x2 : (⟨S16x32x64x64, .f32⟩ : BufTy).Contents (Elt F)) (n : S16x32x64x64.Idx) :
    val_main_v15 (F := F) x0 x2 n = Cert.Lif.iDec (x0 n) (x2 n) := by
  simp only [val_main_v15_apply, val_main_v14_apply, val_main_v13_apply, val_main_v12_apply, val_main_cst_3_apply]
  rfl

theorem rhoNew_at (x1 x2 x3 : (⟨S16x32x64x64, .f32⟩ : BufTy).Contents (Elt F)) (n : S16x32x64x64.Idx) :
    val_main_v30 (F := F) x1 x2 x3 n = Cert.Lif.rhoNew (x1 n) (x2 n) (x3 n) := by
  simp only [val_main_v30_apply, val_main_v27_apply, val_main_v26_apply, val_main_v25_apply, val_main_cst_7_apply,
    refrac_at, val_main_v29_apply, val_main_v28_apply, val_main_cst_8_apply, spike_at]
  rfl

/-! ## The delay line -/

/-- A word that reads signed within [0, 64): its signed and unsigned readings agree. -/
theorem toNat_of_inRange {d : BitVec 32} (h0 : 0 ≤ d.toInt) (h1 : d.toInt < 64) :
    d.toInt.toNat = d.toNat ∧ d.toNat < 64 := by
  have hlt : d.toNat < 2 ^ 32 := d.isLt
  rw [BitVec.toInt_eq_toNat_cond] at h0 h1 ⊢
  by_cases hc : 2 * d.toNat < 2 ^ 32
  · rw [if_pos hc] at h0 h1 ⊢; omega
  · rw [if_neg hc] at h0 h1 ⊢; omega

/-- Under the range condition the negative-index fix-up of the read leaves the delay as it is. -/
theorem v4_at (x5 : (⟨S16x32x64x64, .i32⟩ : BufTy).Contents (Elt F)) (hd : Cert.Lif.DelayInRange x5) (j : S1x16x32x64x64.Idx) :
    val_main_call0_v4 (F := F) x5 j = x5 (idx_main_v34 j) := by
  have h0 := (hd (idx_main_v34 j)).1
  rw [val_main_call0_v4_apply, val_main_call0_v1_apply, val_main_v34_apply, val_main_call0_v0_apply, val_main_call0_c_apply]
  have hz : IntOp.cmpi .slt (x5 (idx_main_v34 j)) 0#32 = 0#1 :=
    eq_zero_of_ne_one fun hc => by
      have := IntOp.cmpi_slt.mp hc
      rw [BitVec.toInt_zero] at this
      omega
  rw [hz, select_zero]

/-- Every start index the read uses is a delay in range. -/
theorem v5_inRange (x5 : (⟨S16x32x64x64, .i32⟩ : BufTy).Contents (Elt F)) (hd : Cert.Lif.DelayInRange x5) (i : S1x16x32x64x64x1.Idx) :
    0 ≤ (val_main_call0_v5 (F := F) x5 i).toInt ∧ (val_main_call0_v5 (F := F) x5 i).toInt < 64 := by
  unfold val_main_call0_v5 shapeCast
  show 0 ≤ (val_main_call0_v4 (F := F) x5 _).toInt ∧ (val_main_call0_v4 (F := F) x5 _).toInt < 64
  rw [v4_at x5 hd]
  exact hd _

/-- So the in-bounds test passes at every element. -/
theorem v11_one (x5 : (⟨S16x32x64x64, .i32⟩ : BufTy).Contents (Elt F)) (hd : Cert.Lif.DelayInRange x5) (i : S1x16x32x64x64x1.Idx) :
    val_main_call0_v11 (F := F) x5 i = 1#1 := by
  obtain ⟨h0, h1⟩ := v5_inRange x5 hd i
  have h63 : (63#32 : BitVec 32).toInt = 63 := by decide
  rw [val_main_call0_v11_apply, val_main_call0_v7_apply, val_main_call0_v10_apply, val_main_call0_v6_apply,
    val_main_call0_c_2_apply, val_main_call0_v9_apply, val_main_call0_v8_apply, val_main_call0_c_1_apply]
  exact IntOp.andi_eq_one.mpr ⟨IntOp.cmpi_sge.mpr (by rw [BitVec.toInt_zero]; exact h0), IntOp.cmpi_sle.mpr (by rw [h63]; omega)⟩

/-- A left fold by `and` from 1 over 1s is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a List.mem_cons_self, e]
    exact foldl_andi_ones f l fun n hn => h n (List.mem_cons_of_mem _ hn)

/-- The in-bounds mask is 1 everywhere: the fill value of the read is never taken. -/
theorem mask_one (x5 : (⟨S16x32x64x64, .i32⟩ : BufTy).Contents (Elt F)) (hd : Cert.Lif.DelayInRange x5) (j : S1x16x32x64x64.Idx) :
    val_main_call0_v12 (F := F) x5 j = 1#1 := by
  unfold val_main_call0_v12
  rw [Host.reduce_eq_foldl]
  exact foldl_andi_ones (val_main_call0_v11 (F := F) x5) _ fun n _ => v11_one x5 hd n

/-- The start index of the read for line element `j` is the fixed-up delay at `j`: adding a trailing unit axis moves nothing. -/
theorem v5_at (x5 : (⟨S16x32x64x64, .i32⟩ : BufTy).Contents (Elt F)) (j : S1x16x32x64x64.Idx) :
    val_main_call0_v5 (F := F) x5 (startIdx j) = val_main_call0_v4 (F := F) x5 j := by
  unfold val_main_call0_v5
  refine shapeCast_apply _ shapeCasts_S1x16x32x64x64_S1x16x32x64x64x1 (startIdx j) j ?_
  have h0 : (j 0).val = 0 := by have h : (j 0).val < 1 := (j 0).isLt; omega
  rw [Shape.rowMajor_val_five j, Shape.rowMajor_val_succ (startIdx j), Shape.rowMajor_val_five]
  show ((((j 0).val * 16 + (j 1).val) * 32 + (j 2).val) * 64 + (j 3).val) * 64 + (j 4).val
    = (j 0).val * _ + (((((j 1).val * 32 + (j 2).val) * 64 + (j 3).val) * 64 + (j 4).val) * 1 + 0)
  rw [h0, Nat.zero_mul]
  omega

/-! ## The read along the time axis -/

/-- The read's dimension numbers: one collapsed axis (time), four batching axes (the neuron). -/
abbrev GD := gather_S64x16x32x64x64_S1x16x32x64x64x1_S1x16x32x64x64_n_0_1234_1234_0_5_11111

/-- Where the read for line element `j` finds its start index. -/
theorem siIdx_eq (j : S1x16x32x64x64.Idx) (h) :
    GD.siIdx j ⟨List.idxOf (0 : Fin 5) GD.startIndexMap, h⟩ = startIdx j := by
  funext b; refine Fin.ext ?_
  match b with
  | ⟨0, _⟩ => rfl
  | ⟨1, _⟩ => rfl
  | ⟨2, _⟩ => rfl
  | ⟨3, _⟩ => rfl
  | ⟨4, _⟩ => rfl
  | ⟨5, _⟩ => rfl

/-- On the time axis the operand coordinate is the start index, read signed and clamped into [0, 63]. -/
theorem opIdx0 {w : Nat} (idx : IVec S1x16x32x64x64x1 w) (j : S1x16x32x64x64.Idx) :
    GD.start j idx 0 + GD.batchCoord j 0 + GD.offCoord j 0 = min (idx (startIdx j)).toInt.toNat 63 := by
  rw [GatherDims.batchCoord_eq_zero _ _ _ (by decide), GatherDims.offCoord_eq_zero _ _ _ (by decide)]
  unfold GatherDims.start
  rw [dif_pos (show (0 : Fin 5) ∈ GD.startIndexMap from List.mem_singleton.mpr rfl), siIdx_eq]
  rfl

/-- On each neuron axis the operand coordinate is the result's. -/
theorem opIdx1 {w : Nat} (idx : IVec S1x16x32x64x64x1 w) (j : S1x16x32x64x64.Idx) :
    GD.start j idx 1 + GD.batchCoord j 1 + GD.offCoord j 1 = (j 1).val := by
  rw [GatherDims.start_batching _ _ _ _ (by decide), GatherDims.offCoord_eq_zero _ _ _ (by decide)]
  unfold GatherDims.batchCoord
  rw [dif_pos (by decide), Nat.zero_add, Nat.add_zero]
  rfl

theorem opIdx2 {w : Nat} (idx : IVec S1x16x32x64x64x1 w) (j : S1x16x32x64x64.Idx) :
    GD.start j idx 2 + GD.batchCoord j 2 + GD.offCoord j 2 = (j 2).val := by
  rw [GatherDims.start_batching _ _ _ _ (by decide), GatherDims.offCoord_eq_zero _ _ _ (by decide)]
  unfold GatherDims.batchCoord
  rw [dif_pos (by decide), Nat.zero_add, Nat.add_zero]
  rfl

theorem opIdx3 {w : Nat} (idx : IVec S1x16x32x64x64x1 w) (j : S1x16x32x64x64.Idx) :
    GD.start j idx 3 + GD.batchCoord j 3 + GD.offCoord j 3 = (j 3).val := by
  rw [GatherDims.start_batching _ _ _ _ (by decide), GatherDims.offCoord_eq_zero _ _ _ (by decide)]
  unfold GatherDims.batchCoord
  rw [dif_pos (by decide), Nat.zero_add, Nat.add_zero]
  rfl

theorem opIdx4 {w : Nat} (idx : IVec S1x16x32x64x64x1 w) (j : S1x16x32x64x64.Idx) :
    GD.start j idx 4 + GD.batchCoord j 4 + GD.offCoord j 4 = (j 4).val := by
  rw [GatherDims.start_batching _ _ _ _ (by decide), GatherDims.offCoord_eq_zero _ _ _ (by decide)]
  unfold GatherDims.batchCoord
  rw [dif_pos (by decide), Nat.zero_add, Nat.add_zero]
  rfl

/-- THE READ at line element `j`: the line at the slot the start index names (read signed, clamped into [0, 63]),
    at `j`'s own neuron. -/
theorem gather_line_apply {α : Type} {w : Nat} (x : S64x16x32x64x64.Idx → α) (idx : IVec S1x16x32x64x64x1 w)
    (j : S1x16x32x64x64.Idx) :
    Host.gather GD x idx j = x (lineIdx ⟨min (idx (startIdx j)).toInt.toNat 63, by omega⟩ j) := by
  unfold Host.gather
  refine congrArg x (funext fun a => Fin.ext ?_)
  show GD.start j idx a + GD.batchCoord j a + GD.offCoord j a = _
  match a with
  | ⟨0, _⟩ => exact opIdx0 idx j
  | ⟨1, _⟩ => exact opIdx1 idx j
  | ⟨2, _⟩ => exact opIdx2 idx j
  | ⟨3, _⟩ => exact opIdx3 idx j
  | ⟨4, _⟩ => exact opIdx4 idx j

/-- The same, at a slot named beforehand. -/
theorem gather_line_at {α : Type} {w : Nat} (x : S64x16x32x64x64.Idx → α) (idx : IVec S1x16x32x64x64x1 w)
    (j : S1x16x32x64x64.Idx) (s : Fin 64) (hs : min (idx (startIdx j)).toInt.toNat 63 = s.val) :
    Host.gather GD x idx j = x (lineIdx s j) := by
  rw [gather_line_apply]
  exact congrArg (fun s => x (lineIdx s j)) (Fin.ext hs)

/-! ## The pushed line -/

/-- Slot 0 of the pushed line is the new spike. -/
theorem pushed_zero (x1 x2 x3 : (⟨S16x32x64x64, .f32⟩ : BufTy).Contents (Elt F))
    (x4 : (⟨S64x16x32x64x64, .f32⟩ : BufTy).Contents (Elt F)) (j : S1x16x32x64x64.Idx) (s : Fin 64) (hs : s.val = 0) :
    val_main_v33 (F := F) x1 x2 x3 x4 (lineIdx s j) = val_main_v18 (F := F) x1 x2 x3 (idx_main_v34 j) := by
  have h0 : (j 0).val = 0 := by have h : (j 0).val < 1 := (j 0).isLt; omega
  unfold val_main_v33
  refine (concatenate_pair_apply_left (t := S64x16x32x64x64) (s₁ := S1x16x32x64x64) (s₂ := S63x16x32x64x64) 0
    (val_main_v31 (F := F) x1 x2 x3) (val_main_v32 (F := F) x4) concatenates_S1x16x32x64x64_S63x16x32x64x64_S64x16x32x64x64_d0
    (lineIdx s j) rfl j (fun b => match b with
    | ⟨0, _⟩ => by show (j 0).val = s.val; omega
    | ⟨1, _⟩ => rfl
    | ⟨2, _⟩ => rfl
    | ⟨3, _⟩ => rfl
    | ⟨4, _⟩ => rfl)).trans ?_
  rw [val_main_v31_apply]

/-- Slot s ≥ 1 of the pushed line is slot s − 1 of the old line. -/
theorem pushed_succ (x1 x2 x3 : (⟨S16x32x64x64, .f32⟩ : BufTy).Contents (Elt F))
    (x4 : (⟨S64x16x32x64x64, .f32⟩ : BufTy).Contents (Elt F)) (j : S1x16x32x64x64.Idx) (s : Fin 64) (hs : s.val ≠ 0) :
    val_main_v33 (F := F) x1 x2 x3 x4 (lineIdx s j) = x4 (lineIdx ⟨s.val - 1, by omega⟩ j) := by
  have hlt : s.val < 64 := s.isLt
  unfold val_main_v33
  refine (concatenate_pair_apply_right (t := S64x16x32x64x64) (s₁ := S1x16x32x64x64) (s₂ := S63x16x32x64x64) 0
    (val_main_v31 (F := F) x1 x2 x3) (val_main_v32 (F := F) x4) concatenates_S1x16x32x64x64_S63x16x32x64x64_S64x16x32x64x64_d0
    (lineIdx s j) rfl rfl (tailIdx ⟨s.val - 1, by omega⟩ j)
    (fun b hb => match b, hb with
      | ⟨0, _⟩, hb => absurd rfl hb
      | ⟨1, _⟩, _ => rfl
      | ⟨2, _⟩, _ => rfl
      | ⟨3, _⟩, _ => rfl
      | ⟨4, _⟩, _ => rfl)
    (by show s.val - 1 + 1 = s.val; omega)).trans ?_
  rw [val_main_v32_apply]
  refine congrArg x4 (funext fun a => Fin.ext ?_)
  match a with
  | ⟨0, _⟩ => rfl
  | ⟨1, _⟩ => rfl
  | ⟨2, _⟩ => rfl
  | ⟨3, _⟩ => rfl
  | ⟨4, _⟩ => rfl

/-! ## The delayed spike -/

/-- The delayed-spike plane at the line element under `e`: the pushed line at the neuron's own delay. -/
theorem delayed_at (x1 x2 x3 : (⟨S16x32x64x64, .f32⟩ : BufTy).Contents (Elt F))
    (x4 : (⟨S64x16x32x64x64, .f32⟩ : BufTy).Contents (Elt F)) (x5 : (⟨S16x32x64x64, .i32⟩ : BufTy).Contents (Elt F))
    (hd : Cert.Lif.DelayInRange x5) (e : S5x16x32x64x64.Idx) :
    val_main_v37 (F := F) x1 x2 x3 x4 x5 (lead e)
      = Cert.Lif.delayed (x5 (Cert.Lif.neuron e))
          (Cert.Lif.spike (x1 (Cert.Lif.neuron e)) (x2 (Cert.Lif.neuron e)) (x3 (Cert.Lif.neuron e)))
          (fun s => x4 (Cert.Lif.slot e s)) := by
  obtain ⟨hN, hlt⟩ := toNat_of_inRange (hd (Cert.Lif.neuron e)).1 (hd (Cert.Lif.neuron e)).2
  have hs : min (val_main_call0_v5 (F := F) x5 (startIdx (lead e))).toInt.toNat 63 = (x5 (Cert.Lif.neuron e)).toNat := by
    rw [v5_at, v4_at x5 hd, nrn_lead, hN]; omega
  rw [val_main_v37_apply]
  show val_main_v36 (F := F) x1 x2 x3 x4 x5 (idx_main_v34 (lead e)) = _
  rw [val_main_v36_apply, idx36_lead, val_main_v35_apply, mask_one x5 hd, select_one]
  unfold val_main_call0_v13
  rw [gather_line_at _ _ _ ⟨(x5 (Cert.Lif.neuron e)).toNat, hlt⟩ hs]
  unfold Cert.Lif.delayed
  by_cases h0 : (x5 (Cert.Lif.neuron e)).toNat = 0
  · rw [if_pos h0, pushed_zero x1 x2 x3 x4 (lead e) _ h0, nrn_lead, spike_at]
  · rw [if_neg h0, dif_pos (show (x5 (Cert.Lif.neuron e)).toNat - 1 < 64 by omega), pushed_succ x1 x2 x3 x4 (lead e) _ h0]
    refine congrArg x4 (funext fun a => Fin.ext ?_)
    match a with
    | ⟨0, _⟩ => rfl
    | ⟨1, _⟩ => rfl
    | ⟨2, _⟩ => rfl
    | ⟨3, _⟩ => rfl
    | ⟨4, _⟩ => rfl

/-! ## The stack of the five planes -/

/-- Off the stacking axis the line element under `e` has `e`'s coordinates. -/
theorem off_axis (e : S5x16x32x64x64.Idx) : ∀ b : Fin S1x16x32x64x64.rank,
    b.cast (rfl : S1x16x32x64x64.rank = S5x16x32x64x64.rank) ≠ (0 : Fin 5) → (lead e b).val = (e (b.cast rfl)).val :=
  fun b hb => match b, hb with
    | ⟨0, _⟩, hb => absurd rfl hb
    | ⟨1, _⟩, _ => rfl
    | ⟨2, _⟩, _ => rfl
    | ⟨3, _⟩, _ => rfl
    | ⟨4, _⟩, _ => rfl

/-- Plane 0 of the stacked result, at the line element under `e`. -/
theorem stack0 (p0 p1 p2 p3 p4 : (⟨S1x16x32x64x64, .f32⟩ : BufTy).Contents (Elt F)) (e : S5x16x32x64x64.Idx) (he : (e 0).val = 0) :
    concatenate S5x16x32x64x64 0 [⟨S1x16x32x64x64, p0⟩, ⟨S1x16x32x64x64, p1⟩, ⟨S1x16x32x64x64, p2⟩, ⟨S1x16x32x64x64, p3⟩, ⟨S1x16x32x64x64, p4⟩]
        concatenates_S1x16x32x64x64_S1x16x32x64x64_S1x16x32x64x64_S1x16x32x64x64_S1x16x32x64x64_S5x16x32x64x64_d0 e
      = p0 (lead e) :=
  concatenate_apply_piece 0 _ _ e 0 (by show (0 : Nat) < 5; decide) S1x16x32x64x64 p0 rfl rfl 0 rfl (lead e) (off_axis e)
    (by show 0 + 0 = (e 0).val; omega)

/-- Plane 1 of the stacked result, at the line element under `e`. -/
theorem stack1 (p0 p1 p2 p3 p4 : (⟨S1x16x32x64x64, .f32⟩ : BufTy).Contents (Elt F)) (e : S5x16x32x64x64.Idx) (he : (e 0).val = 1) :
    concatenate S5x16x32x64x64 0 [⟨S1x16x32x64x64, p0⟩, ⟨S1x16x32x64x64, p1⟩, ⟨S1x16x32x64x64, p2⟩, ⟨S1x16x32x64x64, p3⟩, ⟨S1x16x32x64x64, p4⟩]
        concatenates_S1x16x32x64x64_S1x16x32x64x64_S1x16x32x64x64_S1x16x32x64x64_S1x16x32x64x64_S5x16x32x64x64_d0 e
      = p1 (lead e) :=
  concatenate_apply_piece 0 _ _ e 1 (by show (1 : Nat) < 5; decide) S1x16x32x64x64 p1 rfl rfl 1 rfl (lead e) (off_axis e)
    (by show 1 + 0 = (e 0).val; omega)

/-- Plane 2 of the stacked result, at the line element under `e`. -/
theorem stack2 (p0 p1 p2 p3 p4 : (⟨S1x16x32x64x64, .f32⟩ : BufTy).Contents (Elt F)) (e : S5x16x32x64x64.Idx) (he : (e 0).val = 2) :
    concatenate S5x16x32x64x64 0 [⟨S1x16x32x64x64, p0⟩, ⟨S1x16x32x64x64, p1⟩, ⟨S1x16x32x64x64, p2⟩, ⟨S1x16x32x64x64, p3⟩, ⟨S1x16x32x64x64, p4⟩]
        concatenates_S1x16x32x64x64_S1x16x32x64x64_S1x16x32x64x64_S1x16x32x64x64_S1x16x32x64x64_S5x16x32x64x64_d0 e
      = p2 (lead e) :=
  concatenate_apply_piece 0 _ _ e 2 (by show (2 : Nat) < 5; decide) S1x16x32x64x64 p2 rfl rfl 2 rfl (lead e) (off_axis e)
    (by show 2 + 0 = (e 0).val; omega)

/-- Plane 3 of the stacked result, at the line element under `e`. -/
theorem stack3 (p0 p1 p2 p3 p4 : (⟨S1x16x32x64x64, .f32⟩ : BufTy).Contents (Elt F)) (e : S5x16x32x64x64.Idx) (he : (e 0).val = 3) :
    concatenate S5x16x32x64x64 0 [⟨S1x16x32x64x64, p0⟩, ⟨S1x16x32x64x64, p1⟩, ⟨S1x16x32x64x64, p2⟩, ⟨S1x16x32x64x64, p3⟩, ⟨S1x16x32x64x64, p4⟩]
        concatenates_S1x16x32x64x64_S1x16x32x64x64_S1x16x32x64x64_S1x16x32x64x64_S1x16x32x64x64_S5x16x32x64x64_d0 e
      = p3 (lead e) :=
  concatenate_apply_piece 0 _ _ e 3 (by show (3 : Nat) < 5; decide) S1x16x32x64x64 p3 rfl rfl 3 rfl (lead e) (off_axis e)
    (by show 3 + 0 = (e 0).val; omega)

/-- Plane 4 of the stacked result, at the line element under `e`. -/
theorem stack4 (p0 p1 p2 p3 p4 : (⟨S1x16x32x64x64, .f32⟩ : BufTy).Contents (Elt F)) (e : S5x16x32x64x64.Idx) (he : (e 0).val = 4) :
    concatenate S5x16x32x64x64 0 [⟨S1x16x32x64x64, p0⟩, ⟨S1x16x32x64x64, p1⟩, ⟨S1x16x32x64x64, p2⟩, ⟨S1x16x32x64x64, p3⟩, ⟨S1x16x32x64x64, p4⟩]
        concatenates_S1x16x32x64x64_S1x16x32x64x64_S1x16x32x64x64_S1x16x32x64x64_S1x16x32x64x64_S5x16x32x64x64_d0 e
      = p4 (lead e) :=
  concatenate_apply_piece 0 _ _ e 4 (by show (4 : Nat) < 5; decide) S1x16x32x64x64 p4 rfl rfl 4 rfl (lead e) (off_axis e)
    (by show 4 + 0 = (e 0).val; omega)

/-- The planes of THE RESULT, one by one. -/
theorem plane0 (inew v i rho : F .f32) (d : BitVec 32) (b : Fin 64 → F .f32) :
    Cert.Lif.plane 0 inew v i rho d b = Cert.Lif.delayed d (Cert.Lif.spike v i rho) b := rfl
theorem plane1 (inew v i rho : F .f32) (d : BitVec 32) (b : Fin 64 → F .f32) :
    Cert.Lif.plane 1 inew v i rho d b = Cert.Lif.spike v i rho := rfl
theorem plane2 (inew v i rho : F .f32) (d : BitVec 32) (b : Fin 64 → F .f32) :
    Cert.Lif.plane 2 inew v i rho d b = Cert.Lif.vNew v i rho := rfl
theorem plane3 (inew v i rho : F .f32) (d : BitVec 32) (b : Fin 64 → F .f32) :
    Cert.Lif.plane 3 inew v i rho d b = Cert.Lif.iDec inew i := rfl
theorem plane4 (inew v i rho : F .f32) (d : BitVec 32) (b : Fin 64 → F .f32) :
    Cert.Lif.plane 4 inew v i rho d b = Cert.Lif.rhoNew v i rho := rfl

/-! ## The result -/

/-- The reference's result is THE RESULT, element by element, when every delay is in range. -/
theorem stage_eq (x0 x1 x2 x3 : (⟨S16x32x64x64, .f32⟩ : BufTy).Contents (Elt F))
    (x4 : (⟨S64x16x32x64x64, .f32⟩ : BufTy).Contents (Elt F)) (x5 : (⟨S16x32x64x64, .i32⟩ : BufTy).Contents (Elt F))
    (hd : Cert.Lif.DelayInRange x5) :
    val_main_v42 (F := F) x0 x1 x2 x3 x4 x5 = Cert.Lif.result x0 x1 x2 x3 x4 x5 := by
  funext e
  have h5 : (e 0).val < 5 := (e 0).isLt
  unfold val_main_v42 Cert.Lif.result
  obtain h | h | h | h | h : (e 0).val = 0 ∨ (e 0).val = 1 ∨ (e 0).val = 2 ∨ (e 0).val = 3 ∨ (e 0).val = 4 := by omega
  · rw [stack0 _ _ _ _ _ e h, h, plane0]
    exact delayed_at x1 x2 x3 x4 x5 hd e
  · rw [stack1 _ _ _ _ _ e h, h, plane1, val_main_v38_apply]
    show val_main_v18 (F := F) x1 x2 x3 (idx_main_v34 (lead e)) = _
    rw [nrn_lead, spike_at]
  · rw [stack2 _ _ _ _ _ e h, h, plane2, val_main_v39_apply]
    show val_main_v24 (F := F) x1 x2 x3 (idx_main_v34 (lead e)) = _
    rw [nrn_lead, vNew_at]
  · rw [stack3 _ _ _ _ _ e h, h, plane3, val_main_v40_apply]
    show val_main_v15 (F := F) x0 x2 (idx_main_v34 (lead e)) = _
    rw [nrn_lead, iDec_at]
  · rw [stack4 _ _ _ _ _ e h, h, plane4, val_main_v41_apply]
    show val_main_v30 (F := F) x1 x2 x3 (idx_main_v34 (lead e)) = _
    rw [nrn_lead, rhoNew_at]

/-- At exact arithmetic: the reference's run ends with THE RESULT of the six argument arrays, when every delay is
    in range. -/
theorem ref_result (m : (ℓ : Loc Cert.ReferenceIdeal.nD Cert.ReferenceIdeal.τ Cert.ReferenceIdeal.sig) → Buf (Elt Ideal) ℓ)
    (c : Dev Cert.ReferenceIdeal.nD)
    (hd : Cert.Lif.DelayInRange (m ((c.tc : Thread Cert.ReferenceIdeal.nD Cert.ReferenceIdeal.τ).loc main_arg5))) :
    Cert.ReferenceIdeal.PValue.res_out0 (F := Ideal) m c
      = Cert.Lif.result (F := Ideal)
          (m ((c.tc : Thread Cert.ReferenceIdeal.nD Cert.ReferenceIdeal.τ).loc main_arg0))
          (m ((c.tc : Thread Cert.ReferenceIdeal.nD Cert.ReferenceIdeal.τ).loc main_arg1))
          (m ((c.tc : Thread Cert.ReferenceIdeal.nD Cert.ReferenceIdeal.τ).loc main_arg2))
          (m ((c.tc : Thread Cert.ReferenceIdeal.nD Cert.ReferenceIdeal.τ).loc main_arg3))
          (m ((c.tc : Thread Cert.ReferenceIdeal.nD Cert.ReferenceIdeal.τ).loc main_arg4))
          (m ((c.tc : Thread Cert.ReferenceIdeal.nD Cert.ReferenceIdeal.τ).loc main_arg5)) := by
  show Cert.ReferenceIdeal.PValue.res_main_v42 (F := Ideal) m c = _
  rw [val_main_v42_eq]
  exact stage_eq _ _ _ _ _ _ hd

end Cert.Lif.Ref

end
-- ==== Proof.PreRange.lean ====
/-
  The precondition read back at the delay array. The printed precondition is a conjunction of seven `jnp.all` terms,
  each the and-reduction of an `i1` array over all its axes into a scalar; the statement says the conjunction is 1.
  The last two terms compare the delay words, read signed, with the constants 0 (≥) and 64 (<), each constant
  broadcast from a scalar. A conjunction of bits that is 1 has every conjunct 1; an and-reduction over all axes
  that is 1 has met a 1 at every index; and a signed comparison bit that is 1 says the order of the two words read
  as integers. So every delay d satisfies 0 ≤ d < 64, read signed. Nothing is used of the five float conjuncts.
-/
import proofs.«429760_j76124000354679_3_alg».proof.Pre_finite_inputs
import proofs.«429760_j76124000354679_3_alg».proof.Proof.Spec
import Idealize.ShloMosaic.Lib.Affine
import Idealize.ShloMosaic.Lib.ReduceAll
import Idealize.ShloMosaic.Lib.ValueIdx

namespace Cert.Lif.Pre

open Idealize.ShloMosaic

/-- The scalar shape has one index: two of them agree at every axis, there being none. -/
theorem scalarIdx_subsingleton : Subsingleton Cert.Pre_finite_inputs.S_.Idx :=
  ⟨fun _ _ => funext fun d => d.elim0⟩

/-- THE PRECONDITION DECODED: every delay word, read signed, lies in [0, 64). -/
theorem delay_in_range {F : FTy → Type} [FloatOps F] [Cert.Pre_finite_inputs.Facts]
    (a0 a1 a2 a3 : FVec F Cert.Pre_finite_inputs.S16x32x64x64 .f32) (a4 : FVec F Cert.Pre_finite_inputs.S64x16x32x64x64 .f32)
    (a5 : IVec Cert.Pre_finite_inputs.S16x32x64x64 32)
    (h : Cert.Pre_finite_inputs.fn (F := F) a0 a1 a2 a3 a4 a5 = fun _ => 1#1) : Cert.Lif.DelayInRange a5 := by
  haveI := scalarIdx_subsingleton
  -- the scalar result at its one index, as the nested conjunction of the seven reductions
  have e := congrFun h ValueIdx.ix0
  dsimp only [Cert.Pre_finite_inputs.fn, Cert.Pre_finite_inputs.fn_part1] at e
  -- the conjunction associates to the left: the last conjunct is d < 64, the one before it d ≥ 0
  obtain ⟨e6, hlt⟩ := IntOp.andi_eq_one.1 e
  obtain ⟨-, hge⟩ := IntOp.andi_eq_one.1 e6
  intro j
  -- each reduction is over all four axes, so the compared bit is 1 at neuron j; the broadcast constant reads
  -- as the constant there, and the bit being 1 orders the two words as integers
  have g : (0#32 : BitVec 32).toInt ≤ (a5 j).toInt := IntOp.cmpi_sge.1 (Host.reduce_andi_all _ _ _ _ _ hge j)
  have l : (a5 j).toInt < (64#32 : BitVec 32).toInt := IntOp.cmpi_slt.1 (Host.reduce_andi_all _ _ _ _ _ hlt j)
  have z0 : (0#32 : BitVec 32).toInt = 0 := by decide
  have z64 : (64#32 : BitVec 32).toInt = 64 := by decide
  rw [z0] at g
  rw [z64] at l
  exact ⟨g, l⟩

/-- A word in [0, 64) read signed is the same number read unsigned. -/
theorem toNat_lt_of_toInt {d : BitVec 32} (h0 : 0 ≤ d.toInt) (h1 : d.toInt < 64) : d.toNat < 64 ∧ d.toInt = d.toNat := by
  have hd := d.isLt
  rw [BitVec.toInt_eq_toNat_cond] at h0 h1 ⊢
  split at h0 <;> rename_i hc
  · rw [if_pos hc] at h1 ⊢
    exact ⟨by omega, rfl⟩
  · omega

end Cert.Lif.Pre
-- ==== Proof.lean ====
/-
  The certificate: a Pallas kernel for one Euler step of a leaky integrate-and-fire neuron with a refractory
  variable and a per-neuron read of a 64-slot delay line, against its jnp reference. Over the extended reals the
  two programs compute, element by element, the same five planes (Spec.lean): four planes of the neuron update,
  spelt with the same operations and the same literal words on both sides, and the delayed spike, which the
  reference gathers from the pushed delay line at the neuron's delay and the kernel selects by a clamp and a chain
  of 63 compare-and-selects over the old line's slots. The two readings agree exactly where the delay is a valid
  slot number, 0 ≤ d < 64: the precondition says so (outside it the reference wraps a negative index and fills an
  index past the end with a not-a-number, while the kernel clamps).
  The frames: the reference's is its run; the two kernel programs' are the pipeline's run over the body's
  triple (KBody.lean, KIBody.lean: the same text at the two float instances). No rewrite separates the kernel from
  its idealization, so `preserves` has nothing to state.
-/
import proofs.«429760_j76124000354679_3_alg».proof.Defs
import proofs.«429760_j76124000354679_3_alg».proof.Proof.Gen.Kernel
import proofs.«429760_j76124000354679_3_alg».proof.Proof.Gen.KernelIdeal
import proofs.«429760_j76124000354679_3_alg».proof.Proof.Gen.ReferenceIdeal
import proofs.«429760_j76124000354679_3_alg».proof.Proof.Gen.Pre_finite_inputs
import proofs.«429760_j76124000354679_3_alg».proof.Proof.KBody
import proofs.«429760_j76124000354679_3_alg».proof.Proof.KIBody
import proofs.«429760_j76124000354679_3_alg».proof.Proof.KIResult
import proofs.«429760_j76124000354679_3_alg».proof.Proof.RefValue
import proofs.«429760_j76124000354679_3_alg».proof.Proof.PreRange
import Idealize.ShloMosaic.Adequacy
import Idealize.ShloMosaic.Init

noncomputable section

namespace Cert.Proof

open Idealize.ShloMosaic Idealize.SL.Sem

instance : Cert.Pre_finite_inputs.Facts := Cert.Pre_finite_inputs.Gen.facts
instance : Cert.Kernel.Facts := Cert.Kernel.Gen.facts
instance : Cert.KernelIdeal.Facts := Cert.KernelIdeal.Gen.facts
instance : Cert.ReferenceIdeal.Facts := Cert.ReferenceIdeal.Gen.facts

/-- The word-level kernel runs, faults nowhere and leaves its arguments as launched. -/
theorem frame_p : Cert.frame_Kernel := fun m ρ _ => Cert.Kernel.Body.frame m ρ

/-- So does its idealization. -/
theorem frame_pi : Cert.frame_KernelIdeal := fun m ρ _ => Cert.KernelIdeal.Body.frame m ρ

/-- The reference runs, faults nowhere and leaves its arguments as launched: its run with the result dropped. -/
theorem frame_ri : Cert.frame_ReferenceIdeal := fun m ρ _ =>
  (θ_run Cert.ReferenceIdeal.defs _ _).mono (fun _ h c => (h c).2) (Cert.ReferenceIdeal.PValue.run (F := Ideal) m ρ)

/-- Over the extended reals, from memories agreeing on the six arguments with every delay a valid slot number, the
    kernel's result array and the reference's both end at the specification's result of those arguments. -/
theorem algebraic : Cert.algebraic_KernelIdeal_ReferenceIdeal := by
  intro m ρ m' ρ' hpre hagree
  have hd : ∀ c : Dev Cert.KernelIdeal.nD, Cert.Lif.DelayInRange
      (m ((c.tc : Thread Cert.KernelIdeal.nD Cert.KernelIdeal.τ).loc Cert.KernelIdeal.main_arg5)) := fun c =>
    Cert.Lif.Pre.delay_in_range _ _ _ _ _ _ (hpre c)
  refine ⟨_, Cert.KernelIdeal.Body.kernel_result m ρ hd, ?_⟩
  refine (θ_run Cert.ReferenceIdeal.defs _ _).mono (fun _ h c => ⟨(h c).1.trans ?_, (h c).2⟩)
    (Cert.ReferenceIdeal.PValue.run (F := Ideal) m' ρ')
  have hd' : Cert.Lif.DelayInRange
      (m' ((c.tc : Thread Cert.ReferenceIdeal.nD Cert.ReferenceIdeal.τ).loc Cert.ReferenceIdeal.main_arg5)) := by
    rw [(hagree c).2.2.2.2.2]; exact hd c
  refine (Cert.Lif.Ref.ref_result m' c hd').trans ?_
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
